-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048 : Shape := ⟨2, ![128, 2048]⟩
abbrev S50257x128 : Shape := ⟨2, ![50257, 128]⟩
abbrev S1024x128 : Shape := ⟨2, ![1024, 128]⟩
abbrev S1024 : Shape := ⟨1, ![1024]⟩
abbrev S1024x256 : Shape := ⟨2, ![1024, 256]⟩
abbrev S32x256 : Shape := ⟨2, ![32, 256]⟩
abbrev S32 : Shape := ⟨1, ![32]⟩
abbrev S_ : Shape := ⟨0, ![]⟩

class Facts : Prop where
  bcast_S_S50257x128 : S_.BroadcastsInDim S50257x128 (![] : Fin 0 → Fin S50257x128.rank)
  reducesTo_S50257x128_S_d0_1 : S50257x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S128x2048 : S_.BroadcastsInDim S128x2048 (![] : Fin 0 → Fin S128x2048.rank)
  reducesTo_S128x2048_S_d0_1 : S128x2048.ReducesTo [0, 1] S_

variable [Facts]

def fn_part3 {F : FTy → Type} [FloatOps F] (main_arg0 : IVec S128x2048 32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_c_20 : IVec S_ 32 := constantI S_ 32 0#32
  let main_v54 : IVec S128x2048 32 := broadcastInDim S128x2048 ![] bcast_S_S128x2048 main_c_20
  let main_v55 : IVec S128x2048 1 := cmpi .sge main_arg0 main_v54
  let main_c_21 : IVec S_ 32 := constantI S_ 32 50257#32
  let main_v56 : IVec S128x2048 32 := broadcastInDim S128x2048 ![] bcast_S_S128x2048 main_c_21
  let main_v57 : IVec S128x2048 1 := cmpi .slt main_arg0 main_v56
  let main_v58 : IVec S128x2048 1 := andi main_v55 main_v57
  let main_c_22 : IVec S_ 1 := constantI S_ 1 1#1
  let main_v59 : IVec S_ 1 := (fun x v => Host.reduce IntOp.andi x v reducesTo_S128x2048_S_d0_1 h_S_) main_v58 main_c_22
  let main_v60 : IVec S_ 1 := andi main_v53 main_v59
  main_v60

def fn_part2 {F : FTy → Type} [FloatOps F] (main_arg0 : IVec S128x2048 32) (main_arg8 : FVec F S1024x256 .f32) (main_arg9 : FVec F S1024 .f32) (main_arg10 : FVec F S32x256 .f32) (main_arg11 : FVec F S32 .f32) (main_v33 : IVec S_ 1) : IVec S_ 1 :=
  let main_v34 : FVec F S1024x256 .f32 := Host.absf main_arg8
  let main_cst_12 : FVec F S_ .f32 := constant S_ .f32 0x7F800000#32
  let main_v35 : FVec F S1024x256 .f32 := broadcastInDim S1024x256 ![] bcast_S_S1024x256 main_cst_12
  let main_v36 : IVec S1024x256 1 := cmpf .olt main_v34 main_v35
  let main_c_13 : IVec S_ 1 := constantI S_ 1 1#1
  let main_v37 : IVec S_ 1 := (fun x v => Host.reduce IntOp.andi x v reducesTo_S1024x256_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S32x256 .f32 := Host.absf main_arg10
  let main_cst_16 : FVec F S_ .f32 := constant S_ .f32 0x7F800000#32
  let main_v45 : FVec F S32x256 .f32 := broadcastInDim S32x256 ![] bcast_S_S32x256 main_cst_16
  let main_v46 : IVec S32x256 1 := cmpf .olt main_v44 main_v45
  let main_c_17 : IVec S_ 1 := constantI S_ 1 1#1
  let main_v47 : IVec S_ 1 := (fun x v => Host.reduce IntOp.andi x v reducesTo_S32x256_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg0 main_v48 main_v49 main_v50

def fn_part1 {F : FTy → Type} [FloatOps F] (main_arg0 : IVec S128x2048 32) (main_arg5 : FVec F S1024 .f32) (main_arg6 : FVec F S1024x128 .f32) (main_arg7 : FVec F S1024 .f32) (main_arg8 : FVec F S1024x256 .f32) (main_arg9 : FVec F S1024 .f32) (main_arg10 : FVec F S32x256 .f32) (main_arg11 : FVec F S32 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x128 .f32 := Host.absf main_arg6
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg0 main_arg8 main_arg9 main_arg10 main_arg11 main_v33

def fn {F : FTy → Type} [FloatOps F] (main_arg0 : IVec S128x2048 32) (main_arg1 : FVec F S50257x128 .f32) (main_arg2 : FVec F S1024x128 .f32) (main_arg3 : FVec F S1024 .f32) (main_arg4 : FVec F S1024x256 .f32) (main_arg5 : FVec F S1024 .f32) (main_arg6 : FVec F S1024x128 .f32) (main_arg7 : FVec F S1024 .f32) (main_arg8 : FVec F S1024x256 .f32) (main_arg9 : FVec F S1024 .f32) (main_arg10 : FVec F S32x256 .f32) (main_arg11 : FVec F S32 .f32) : IVec S_ 1 :=
  let main_v0 : FVec F S50257x128 .f32 := Host.absf main_arg1
  let main_cst : FVec F S_ .f32 := constant S_ .f32 0x7F800000#32
  let main_v1 : FVec F S50257x128 .f32 := broadcastInDim S50257x128 ![] bcast_S_S50257x128 main_cst
  let main_v2 : IVec S50257x128 1 := cmpf .olt main_v0 main_v1
  let main_c : IVec S_ 1 := constantI S_ 1 1#1
  let main_v3 : IVec S_ 1 := (fun x v => Host.reduce IntOp.andi x v reducesTo_S50257x128_S_d0_1 h_S_) main_v2 main_c
  let main_v4 : FVec F S1024x128 .f32 := Host.absf main_arg2
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x256 .f32 := Host.absf main_arg4
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg0 main_arg5 main_arg6 main_arg7 main_arg8 main_arg9 main_arg10 main_arg11 main_v13 main_v16
-- ==== Kernel.lean ====
abbrev S128x2048 : Shape := ⟨2, ![128, 2048]⟩
abbrev S50257x128 : Shape := ⟨2, ![50257, 128]⟩
abbrev S1024x128 : Shape := ⟨2, ![1024, 128]⟩
abbrev S1024 : Shape := ⟨1, ![1024]⟩
abbrev S1024x256 : Shape := ⟨2, ![1024, 256]⟩
abbrev S32x256 : Shape := ⟨2, ![32, 256]⟩
abbrev S32 : Shape := ⟨1, ![32]⟩
abbrev S128x1 : Shape := ⟨2, ![128, 1]⟩
abbrev S128 : Shape := ⟨1, ![128]⟩
abbrev S50257x1x128 : Shape := ⟨3, ![50257, 1, 128]⟩
abbrev S128x1x128 : Shape := ⟨3, ![128, 1, 128]⟩
abbrev S1x1x128 : Shape := ⟨3, ![1, 1, 128]⟩
abbrev S1 : Shape := ⟨1, ![1]⟩
abbrev S128x128 : Shape := ⟨2, ![128, 128]⟩
abbrev S128x32 : Shape := ⟨2, ![128, 32]⟩
abbrev S128x1024 : Shape := ⟨2, ![128, 1024]⟩
abbrev S1x1024 : Shape := ⟨2, ![1, 1024]⟩
abbrev S128x256 : Shape := ⟨2, ![128, 256]⟩
abbrev S1x32 : Shape := ⟨2, ![1, 32]⟩

abbrev nBuf : Space → Nat
  | .hbm => 20
  | .vmem => 19
  | .smem => 2
  | _ => 0

abbrev bufTy : (tb : Table) → Fin (tcTables nBuf tb) → BufTy
  | .hbm, ⟨0, _⟩ => ⟨S128x2048, .i32⟩
  | .hbm, ⟨1, _⟩ => ⟨S50257x128, .f32⟩
  | .hbm, ⟨2, _⟩ => ⟨S1024x128, .f32⟩
  | .hbm, ⟨3, _⟩ => ⟨S1024, .f32⟩
  | .hbm, ⟨4, _⟩ => ⟨S1024x256, .f32⟩
  | .hbm, ⟨5, _⟩ => ⟨S1024, .f32⟩
  | .hbm, ⟨6, _⟩ => ⟨S1024x128, .f32⟩
  | .hbm, ⟨7, _⟩ => ⟨S1024, .f32⟩
  | .hbm, ⟨8, _⟩ => ⟨S1024x256, .f32⟩
  | .hbm, ⟨9, _⟩ => ⟨S1024, .f32⟩
  | .hbm, ⟨10, _⟩ => ⟨S32x256, .f32⟩
  | .hbm, ⟨11, _⟩ => ⟨S32, .f32⟩
  | .hbm, ⟨12, _⟩ => ⟨S128x1, .i32⟩
  | .hbm, ⟨13, _⟩ => ⟨S128x1, .i32⟩
  | .hbm, ⟨14, _⟩ => ⟨S50257x1x128, .f32⟩
  | .hbm, ⟨15, _⟩ => ⟨S128x1x128, .f32⟩
  | .hbm, ⟨16, _⟩ => ⟨S128x1x128, .f32⟩
  | .hbm, ⟨17, _⟩ => ⟨S128x128, .f32⟩
  | .hbm, ⟨18, _⟩ => ⟨S128x128, .f32⟩
  | .hbm, ⟨19, _⟩ => ⟨S128x32, .f32⟩
  | .local _ .vmem, ⟨0, _⟩ => ⟨S1x1x128, .f32⟩
  | .local _ .vmem, ⟨1, _⟩ => ⟨S1x1x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S128x128, .f32⟩
  | .local _ .vmem, ⟨9, _⟩ => ⟨S128x128, .f32⟩
  | .local _ .vmem, ⟨10, _⟩ => ⟨S1024x128, .f32⟩
  | .local _ .vmem, ⟨11, _⟩ => ⟨S1024, .f32⟩
  | .local _ .vmem, ⟨12, _⟩ => ⟨S1024, .f32⟩
  | .local _ .vmem, ⟨13, _⟩ => ⟨S1024x128, .f32⟩
  | .local _ .vmem, ⟨14, _⟩ => ⟨S1024, .f32⟩
  | .local _ .vmem, ⟨15, _⟩ => ⟨S1024, .f32⟩
  | .local _ .vmem, ⟨16, _⟩ => ⟨S32x256, .f32⟩
  | .local _ .vmem, ⟨17, _⟩ => ⟨S32, .f32⟩
  | .local _ .vmem, ⟨18, _⟩ => ⟨S128x32, .f32⟩
  | .local _ .smem, ⟨0, _⟩ => ⟨S128, .i32⟩
  | .local _ .smem, ⟨1, _⟩ => ⟨S128, .i32⟩
  | _, _ => ⟨S128x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v2 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v1 : Ref sig .tc := ⟨.smem, 0, rfl⟩
abbrev main_v3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18

abbrev nD : Nat := 1
abbrev τ : Topo := Topo.v7x

variable {F : FTy → Type} [FloatOps F]

abbrev grid0 : Pipeline.Grid := ⟨1, ![128], ![false]⟩

abbrev pre0 : Pipeline.Prefetch sig := ⟨2, ![main_v1.idx, main_v3.idx], fun | 0 => main_v1.names | 1 => main_v3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

class Facts₀ : Prop where
  slices_S128x2048_S128x1_0_2047 : S128x2048.Slices ![0, 2047] S128x1
  shapeCasts_S128x1_S128 : S128x1.ShapeCasts S128
  slices_S128x2048_S128x1_0_0 : S128x2048.Slices ![0, 0] S128x1
  shapeCasts_S50257x128_S50257x1x128 : S50257x128.ShapeCasts S50257x1x128
  numel1_S1 : S1.numel = 1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S128x1x128_S128x128 : S128x1x128.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  slices_S128x1024_o0_0_S128x256 : S128x1024.Slices ![0, 0] S128x256
  slices_S128x1024_o0_256_S128x256 : S128x1024.Slices ![0, 256] S128x256
  slices_S128x1024_o0_512_S128x256 : S128x1024.Slices ![0, 512] S128x256
  slices_S128x1024_o0_768_S128x256 : S128x1024.Slices ![0, 768] S128x256
  inb_S32x256_S32x256_0_0 : ∀ a, (![0, 0] : Fin 2 → Nat) a + S32x256.size a ≤ S32x256.size a
  h_S32x256 : 0 < S32x256.numel
  inb_S32_S32_0 : ∀ a, (![0] : Fin 1 → Nat) a + S32.size a ≤ S32.size a
  h_S32 : 0 < S32.numel
  shapeCasts_S32_S1x32 : S32.ShapeCasts S1x32
  broadcasts_S1x32_S128x32 : S1x32.Broadcasts S128x32
  reduces_S128x32_S128 : S128x32.Reduces [1] S128
  shapeCasts_S128_S128x1 : S128.ShapeCasts S128x1
  broadcasts_S128x1_S128x32 : S128x1.Broadcasts S128x32
  inb_S128x32_S128x32_0_0 : ∀ a, (![0, 0] : Fin 2 → Nat) a + S128x32.size a ≤ S128x32.size a
  h_S128x32 : 0 < S128x32.numel
  dot_S128x128_S1024x128_S128x1024_1_1_0_0_n_n_wf : DotDims.WF S128x128 S1024x128 S128x1024 [1] [1] [0] [0] [] []
  dot_S128x256_S32x256_S128x32_1_1_0_0_n_n_wf : DotDims.WF S128x256 S32x256 S128x32 [1] [1] [0] [0] [] []
  hrank0 : 0 < grid0.rank
  k0_off1_inb : ∀ i : grid0.Coords, ∀ a, (k0_off1 i) a + S1.size a ≤ S128.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S128x1x128.size a
  hwx0_2 : ∀ i : grid0.Coords, EltTy.bits .f32 = 32 ∨ (Rect.block (s := S128x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S128x1x128.size a
  hwx0_3 : ∀ i : grid0.Coords, EltTy.bits .f32 = 32 ∨ (Rect.block (s := S128x1x128) S1x1x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S128x128.size a
  hwx1_0 : ∀ i : grid1.Coords, EltTy.bits .f32 = 32 ∨ (Rect.block (s := S128x128) S128x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x128.size a
  hwx1_2 : ∀ i : grid1.Coords, EltTy.bits .f32 = 32 ∨ (Rect.block (s := S1024x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S1024.size a
  hwx1_3 : ∀ i : grid1.Coords, EltTy.bits .f32 = 32 ∨ (Rect.block (s := S1024) S1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S1024x128.size a
  hwx1_5 : ∀ i : grid1.Coords, EltTy.bits .f32 = 32 ∨ (Rect.block (s := S1024x128) S1024x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024.size a ≤ S1024.size a
  hwx1_6 : ∀ i : grid1.Coords, EltTy.bits .f32 = 32 ∨ (Rect.block (s := S1024) S1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024.size a ≤ S1024.size a
  hwx1_7 : ∀ i : grid1.Coords, EltTy.bits .f32 = 32 ∨ (Rect.block (s := S1024) S1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32x256.size a ≤ S32x256.size a
  hwx1_8 : ∀ i : grid1.Coords, EltTy.bits .f32 = 32 ∨ (Rect.block (s := S32x256) S32x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32.size a ≤ S32.size a
  hwx1_9 : ∀ i : grid1.Coords, EltTy.bits .f32 = 32 ∨ (Rect.block (s := S32) S32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x32.size a ≤ S128x32.size a
  hwx1_10 : ∀ i : grid1.Coords, EltTy.bits .f32 = 32 ∨ (Rect.block (s := S128x32) S128x32.size (cc1_transform_10 i) (hinb1_10 i)).WholeWords (EltTy.packing .f32)

variable [Facts₀]

def dot_S128x128_S1024x128_S128x1024_1_1_0_0_n_n : DotDims S128x128 S1024x128 S128x1024 where
  lhsContracting := [1]
  rhsContracting := [1]
  lhsNonContracting := [0]
  rhsNonContracting := [0]
  lhsBatch := []
  rhsBatch := []
  wf := dot_S128x128_S1024x128_S128x1024_1_1_0_0_n_n_wf
def dot_S128x256_S32x256_S128x32_1_1_0_0_n_n : DotDims S128x256 S32x256 S128x32 where
  lhsContracting := [1]
  rhsContracting := [1]
  lhsNonContracting := [0]
  rhsNonContracting := [0]
  lhsBatch := []
  rhsBatch := []
  wf := dot_S128x256_S32x256_S128x32_1_1_0_0_n_n_wf

abbrev spec0_0 : Pipeline.WinSpec sig grid0.rank :=
  Pipeline.WinSpec.ofSpec (Memref.whole main_v4) S1x1x128.size reads0_0 false false 2 stage0_0 sem0_0 nbuf0_0 hstage0_0

abbrev spec0_1 : Pipeline.WinSpec sig grid0.rank :=
  Pipeline.WinSpec.ofSpec (Memref.whole main_v4) S1x1x128.size reads0_1 false false 2 stage0_1 sem0_1 nbuf0_1 hstage0_1

abbrev spec0_2 : Pipeline.WinSpec sig grid0.rank :=
  Pipeline.WinSpec.ofSpec (Memref.whole main_v5_0) S1x1x128.size reads0_2 true false 2 stage0_2 sem0_2 nbuf0_2 hstage0_2

abbrev spec0_3 : Pipeline.WinSpec sig grid0.rank :=
  Pipeline.WinSpec.ofSpec (Memref.whole main_v5_1) S1x1x128.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x128.size a ≤ S50257x1x128.size a), EltTy.bits .f32 = 32 ∨ (Rect.block (s := S50257x1x128) S1x1x128.size (cc0_transform_0 k0_off1_inb numel1_S1 pf i) h).WholeWords (EltTy.packing .f32)) ∧
  (∀ i : grid0.Coords, ∃ h : (∀ a, (cc0_transform_1 k0_off1_inb numel1_S1 pf i a + 1) * S1x1x128.size a ≤ S50257x1x128.size a), EltTy.bits .f32 = 32 ∨ (Rect.block (s := S50257x1x128) S1x1x128.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | 3 => hwx0_3 | ⟨_ + 4, h⟩ => absurd h (Nat.not_lt.2 (Nat.le_add_left _ _))
abbrev win1_0 : Pipeline.Window sig grid1 :=
  Pipeline.Window.ofSpec (Memref.whole main_v6) S128x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S1024x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S32x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg11) S32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v8) S128x32.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where
  harr0 : ∀ w, (spec0 w).arr.IsWhole

variable [Facts]
-- ==== ReferenceIdeal.lean ====
abbrev S128x2048 : Shape := ⟨2, ![128, 2048]⟩
abbrev S50257x128 : Shape := ⟨2, ![50257, 128]⟩
abbrev S1024x128 : Shape := ⟨2, ![1024, 128]⟩
abbrev S1024 : Shape := ⟨1, ![1024]⟩
abbrev S1024x256 : Shape := ⟨2, ![1024, 256]⟩
abbrev S32x256 : Shape := ⟨2, ![32, 256]⟩
abbrev S32 : Shape := ⟨1, ![32]⟩
abbrev S_ : Shape := ⟨0, ![]⟩
abbrev S128x2048x1 : Shape := ⟨3, ![128, 2048, 1]⟩
abbrev S128x2048x128 : Shape := ⟨3, ![128, 2048, 128]⟩
abbrev S128x1x128 : Shape := ⟨3, ![128, 1, 128]⟩
abbrev S128x128 : Shape := ⟨2, ![128, 128]⟩
abbrev S128x1024 : Shape := ⟨2, ![128, 1024]⟩
abbrev S1x1024 : Shape := ⟨2, ![1, 1024]⟩
abbrev S128x256 : Shape := ⟨2, ![128, 256]⟩
abbrev S256x32 : Shape := ⟨2, ![256, 32]⟩
abbrev S128x32 : Shape := ⟨2, ![128, 32]⟩
abbrev S1x32 : Shape := ⟨2, ![1, 32]⟩
abbrev S128 : Shape := ⟨1, ![128]⟩
abbrev S128x1 : Shape := ⟨2, ![128, 1]⟩

abbrev nBuf : Space → Nat
  | .hbm => 110
  | .vmem => 0
  | .smem => 0
  | _ => 0

abbrev bufTy : (tb : Table) → Fin (tcTables nBuf tb) → BufTy
  | .hbm, ⟨0, _⟩ => ⟨S128x2048, .i32⟩
  | .hbm, ⟨1, _⟩ => ⟨S50257x128, .f32⟩
  | .hbm, ⟨2, _⟩ => ⟨S1024x128, .f32⟩
  | .hbm, ⟨3, _⟩ => ⟨S1024, .f32⟩
  | .hbm, ⟨4, _⟩ => ⟨S1024x256, .f32⟩
  | .hbm, ⟨5, _⟩ => ⟨S1024, .f32⟩
  | .hbm, ⟨6, _⟩ => ⟨S1024x128, .f32⟩
  | .hbm, ⟨7, _⟩ => ⟨S1024, .f32⟩
  | .hbm, ⟨8, _⟩ => ⟨S1024x256, .f32⟩
  | .hbm, ⟨9, _⟩ => ⟨S1024, .f32⟩
  | .hbm, ⟨10, _⟩ => ⟨S32x256, .f32⟩
  | .hbm, ⟨11, _⟩ => ⟨S32, .f32⟩
  | .hbm, ⟨12, _⟩ => ⟨S_, .i32⟩
  | .hbm, ⟨13, _⟩ => ⟨S128x2048, .i32⟩
  | .hbm, ⟨14, _⟩ => ⟨S128x2048, .i1⟩
  | .hbm, ⟨15, _⟩ => ⟨S_, .i32⟩
  | .hbm, ⟨16, _⟩ => ⟨S128x2048, .i32⟩
  | .hbm, ⟨17, _⟩ => ⟨S128x2048, .i32⟩
  | .hbm, ⟨18, _⟩ => ⟨S128x2048, .i32⟩
  | .hbm, ⟨19, _⟩ => ⟨S128x2048x1, .i32⟩
  | .hbm, ⟨20, _⟩ => ⟨S128x2048x128, .f32⟩
  | .hbm, ⟨21, _⟩ => ⟨S128x1x128, .f32⟩
  | .hbm, ⟨22, _⟩ => ⟨S128x128, .f32⟩
  | .hbm, ⟨23, _⟩ => ⟨S128x1024, .f32⟩
  | .hbm, ⟨24, _⟩ => ⟨S128x1024, .f32⟩
  | .hbm, ⟨25, _⟩ => ⟨S1x1024, .f32⟩
  | .hbm, ⟨26, _⟩ => ⟨S128x1024, .f32⟩
  | .hbm, ⟨27, _⟩ => ⟨S128x1024, .f32⟩
  | .hbm, ⟨28, _⟩ => ⟨S1x1024, .f32⟩
  | .hbm, ⟨29, _⟩ => ⟨S128x1024, .f32⟩
  | .hbm, ⟨30, _⟩ => ⟨S128x1024, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | .hbm, ⟨40, _⟩ => ⟨S_, .f32⟩
  | .hbm, ⟨41, _⟩ => ⟨S128x256, .f32⟩
  | .hbm, ⟨42, _⟩ => ⟨S128x256, .f32⟩
  | .hbm, ⟨43, _⟩ => ⟨S128x256, .f32⟩
  | .hbm, ⟨44, _⟩ => ⟨S128x256, .f32⟩
  | .hbm, ⟨45, _⟩ => ⟨S128x256, .f32⟩
  | .hbm, ⟨46, _⟩ => ⟨S128x256, .f32⟩
  | .hbm, ⟨47, _⟩ => ⟨S_, .f32⟩
  | .hbm, ⟨48, _⟩ => ⟨S128x256, .f32⟩
  | .hbm, ⟨49, _⟩ => ⟨S128x256, .f32⟩
  | .hbm, ⟨50, _⟩ => ⟨S_, .f32⟩
  | .hbm, ⟨51, _⟩ => ⟨S128x256, .f32⟩
  | .hbm, ⟨52, _⟩ => ⟨S128x256, .f32⟩
  | .hbm, ⟨53, _⟩ => ⟨S128x256, .f32⟩
  | .hbm, ⟨54, _⟩ => ⟨S128x256, .f32⟩
  | .hbm, ⟨55, _⟩ => ⟨S128x1x128, .f32⟩
  | .hbm, ⟨56, _⟩ => ⟨S128x128, .f32⟩
  | .hbm, ⟨57, _⟩ => ⟨S128x1024, .f32⟩
  | .hbm, ⟨58, _⟩ => ⟨S128x1024, .f32⟩
  | .hbm, ⟨59, _⟩ => ⟨S1x1024, .f32⟩
  | .hbm, ⟨60, _⟩ => ⟨S128x1024, .f32⟩
  | .hbm, ⟨61, _⟩ => ⟨S128x1024, .f32⟩
  | .hbm, ⟨62, _⟩ => ⟨S1x1024, .f32⟩
  | .hbm, ⟨63, _⟩ => ⟨S128x1024, .f32⟩
  | .hbm, ⟨64, _⟩ => ⟨S128x1024, .f32⟩
  | .hbm, ⟨65, _⟩ => ⟨S128x256, .f32⟩
  | .hbm, ⟨66, _⟩ => ⟨S128x256, .f32⟩
  | .hbm, ⟨67, _⟩ => ⟨S128x256, .f32⟩
  | .hbm, ⟨68, _⟩ => ⟨S128x256, .f32⟩
  | .hbm, ⟨69, _⟩ => ⟨S128x256, .f32⟩
  | .hbm, ⟨70, _⟩ => ⟨S128x256, .f32⟩
  | .hbm, ⟨71, _⟩ => ⟨S_, .f32⟩
  | .hbm, ⟨72, _⟩ => ⟨S128x256, .f32⟩
  | .hbm, ⟨73, _⟩ => ⟨S128x256, .f32⟩
  | .hbm, ⟨74, _⟩ => ⟨S_, .f32⟩
  | .hbm, ⟨75, _⟩ => ⟨S128x256, .f32⟩
  | .hbm, ⟨76, _⟩ => ⟨S128x256, .f32⟩
  | .hbm, ⟨77, _⟩ => ⟨S128x256, .f32⟩
  | .hbm, ⟨78, _⟩ => ⟨S128x256, .f32⟩
  | .hbm, ⟨79, _⟩ => ⟨S128x256, .f32⟩
  | .hbm, ⟨80, _⟩ => ⟨S128x256, .f32⟩
  | .hbm, ⟨81, _⟩ => ⟨S_, .f32⟩
  | .hbm, ⟨82, _⟩ => ⟨S128x256, .f32⟩
  | .hbm, ⟨83, _⟩ => ⟨S128x256, .f32⟩
  | .hbm, ⟨84, _⟩ => ⟨S_, .f32⟩
  | .hbm, ⟨85, _⟩ => ⟨S128x256, .f32⟩
  | .hbm, ⟨86, _⟩ => ⟨S128x256, .f32⟩
  | .hbm, ⟨87, _⟩ => ⟨S128x256, .f32⟩
  | .hbm, ⟨88, _⟩ => ⟨S128x256, .f32⟩
  | .hbm, ⟨89, _⟩ => ⟨S128x256, .f32⟩
  | .hbm, ⟨90, _⟩ => ⟨S256x32, .f32⟩
  | .hbm, ⟨91, _⟩ => ⟨S128x32, .f32⟩
  | .hbm, ⟨92, _⟩ => ⟨S1x32, .f32⟩
  | .hbm, ⟨93, _⟩ => ⟨S128x32, .f32⟩
  | .hbm, ⟨94, _⟩ => ⟨S128x32, .f32⟩
  | .hbm, ⟨95, _⟩ => ⟨S_, .f32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128x1, .f32⟩
  | .hbm, ⟨101, _⟩ => ⟨S128x32, .f32⟩
  | .hbm, ⟨102, _⟩ => ⟨S128x32, .f32⟩
  | .hbm, ⟨103, _⟩ => ⟨S128x32, .f32⟩
  | .hbm, ⟨104, _⟩ => ⟨S_, .f32⟩
  | .hbm, ⟨105, _⟩ => ⟨S128, .f32⟩
  | .hbm, ⟨106, _⟩ => ⟨S128x1, .f32⟩
  | .hbm, ⟨107, _⟩ => ⟨S128x1, .f32⟩
  | .hbm, ⟨108, _⟩ => ⟨S128x32, .f32⟩
  | .hbm, ⟨109, _⟩ => ⟨S128x32, .f32⟩
  | _, _ => ⟨S128x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_4 : Ref sig .tc := ⟨.hbm, 71, rfl⟩
abbrev main_v53 : Ref sig .tc := ⟨.hbm, 72, rfl⟩
abbrev main_v54 : Ref sig .tc := ⟨.hbm, 73, rfl⟩
abbrev main_cst_5 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_6 : Ref sig .tc := ⟨.hbm, 81, rfl⟩
abbrev main_v61 : Ref sig .tc := ⟨.hbm, 82, rfl⟩
abbrev main_v62 : Ref sig .tc := ⟨.hbm, 83, rfl⟩
abbrev main_cst_7 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call0_cst : Ref sig .tc := ⟨.hbm, 95, rfl⟩
abbrev main_call0_v0 : Ref sig .tc := ⟨.hbm, 96, rfl⟩
abbrev main_call0_cst_0 : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_v5 : Ref sig .tc := ⟨.hbm, 102, rfl⟩
abbrev main_call0_v6 : Ref sig .tc := ⟨.hbm, 103, rfl⟩
abbrev main_call0_cst_1 : Ref sig .tc := ⟨.hbm, 104, rfl⟩
abbrev main_call0_v7 : Ref sig .tc := ⟨.hbm, 105, rfl⟩
abbrev main_call0_v8 : Ref sig .tc := ⟨.hbm, 106, rfl⟩
abbrev main_call0_v9 : Ref sig .tc := ⟨.hbm, 107, rfl⟩
abbrev main_call0_v10 : Ref sig .tc := ⟨.hbm, 108, rfl⟩
abbrev main_v73 : Ref sig .tc := ⟨.hbm, 109, rfl⟩

abbrev nD : Nat := 1
abbrev τ : Topo := Topo.v7x

variable {F : FTy → Type} [FloatOps F]

class Facts₀ : Prop where
  bcast_S_S128x2048 : S_.BroadcastsInDim S128x2048 (![] : Fin 0 → Fin S128x2048.rank)
  bcast_S128x2048_S128x2048x1_0_1 : S128x2048.BroadcastsInDim S128x2048x1 (![0, 1] : Fin 2 → Fin S128x2048x1.rank)
  slices_S128x2048x128_S128x1x128_0_2047_0 : S128x2048x128.Slices ![0, 2047, 0] S128x1x128
  shapeCasts_S128x1x128_S128x128 : S128x1x128.ShapeCasts S128x128
  transposes_S1024x128_S128x1024_1_0 : S1024x128.Transposes [1, 0] S128x1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  slices_S128x1024_S128x256_0_0 : S128x1024.Slices ![0, 0] S128x256
  slices_S128x1024_S128x256_0_256 : S128x1024.Slices ![0, 256] S128x256
  slices_S128x1024_S128x256_0_512 : S128x1024.Slices ![0, 512] S128x256
  slices_S128x1024_S128x256_0_768 : S128x1024.Slices ![0, 768] S128x256
  bcast_S_S128x256 : S_.BroadcastsInDim S128x256 (![] : Fin 0 → Fin S128x256.rank)
  slices_S128x2048x128_S128x1x128_0_0_0 : S128x2048x128.Slices ![0, 0, 0] S128x1x128
  transposes_S32x256_S256x32_1_0 : S32x256.Transposes [1, 0] S256x32
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  reducesTo_S128x32_S128_d1 : S128x32.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  gather_S50257x128_S128x2048x1_S128x2048x128_2_0_n_n_0_2_1128_wf : GatherDims.WF S50257x128 S128x2048x1 S128x2048x128 [2] [0] [] [0] [] 2 ![1, 128]
  dot_S128x128_S128x1024_S128x1024_1_0_0_1_n_n_wf : DotDims.WF S128x128 S128x1024 S128x1024 [1] [0] [0] [1] [] []
  dot_S128x256_S256x32_S128x32_1_0_0_1_n_n_wf : DotDims.WF S128x256 S256x32 S128x32 [1] [0] [0] [1] [] []

variable [Facts₀]

def gather_S50257x128_S128x2048x1_S128x2048x128_2_0_n_n_0_2_1128 : GatherDims S50257x128 S128x2048x1 S128x2048x128 where
  offsetDims := [2]
  collapsedSliceDims := [0]
  operandBatchingDims := []
  startIndicesBatchingDims := []
  startIndexMap := [0]
  indexVectorDim := 2
  sliceSizes := ![1, 128]
  wf := gather_S50257x128_S128x2048x1_S128x2048x128_2_0_n_n_0_2_1128_wf
def dot_S128x128_S128x1024_S128x1024_1_0_0_1_n_n : DotDims S128x128 S128x1024 S128x1024 where
  lhsContracting := [1]
  rhsContracting := [0]
  lhsNonContracting := [0]
  rhsNonContracting := [1]
  lhsBatch := []
  rhsBatch := []
  wf := dot_S128x128_S128x1024_S128x1024_1_0_0_1_n_n_wf
def dot_S128x256_S256x32_S128x32_1_0_0_1_n_n : DotDims S128x256 S256x32 S128x32 where
  lhsContracting := [1]
  rhsContracting := [0]
  lhsNonContracting := [0]
  rhsNonContracting := [1]
  lhsBatch := []
  rhsBatch := []
  wf := dot_S128x256_S256x32_S128x32_1_0_0_1_n_n_wf

class Facts : Prop extends Facts₀ where

variable [Facts]
-- ==== Proof.GatherBody.lean ====
/-
  Region 0 of the program: the row gather.  Its grid has 128 points; at point t the pipeline fetches, through two
  input windows on ONE array (the embedding table viewed as 50257 × 1 × 128), the row whose number the first
  prefetched table holds at t and the row whose number the second holds at t, and the body copies each into the
  block of its own output array that point t writes back (row t of a 128 × 1 × 128 array).  Everything here is
  stated at a parameter `V`, the buffer contents when the region is entered, and at admissible contents `a0` of the two
  prefetched tables (every row number inside the table).  The body reads neither table.
-/
import proofs.«417286_j68719477196_2_alg».proof.Proof.Gen.KernelIdeal.Launch
import proofs.«417286_j68719477196_2_alg».proof.Proof.Gen.KernelIdeal.Skeleton
import proofs.«417286_j68719477196_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a0 : (pcfg0 (F := F)).Adm)
variable (V : (c : Dev nD) → (b : Ref sig .tc) → Buf (Elt F) ((c : Thread nD τ).loc b))

/-! ## The windows' blocks -/

/-- Window `w`'s block at point `t`, read off its array as the region finds it: for the two input windows the table's
    row the prefetched table names at `t`. -/
def iblk0 (c : Dev nD) (w : Fin (cfg0 a0).W) (t : Fin (cfg0 a0).N) : (((cfg0 a0).win w).xblock ((cfg0 a0).grid.coords t)).Idx → Elt F ((cfg0 a0).win w).elt :=
  (((cfg0 a0).win w).blk t).view.read (Elt F) (V c (Pipeline.arrRef spec0 w))

/-- An input window's current staging buffer holds its block at every point, fetched there or not (unfetched, the
    row number has not changed), for any proof data whose array is `V`'s and whose body leaves the block in place. -/
theorem before0_0_of {c : Dev nD} (dat : Dat τ (Elt F) Unit ℕ (UR sig nD τ) ℕ (cfg0 a0) c) (hA : dat.A 0 = V c (Pipeline.arrRef spec0 0))
    (hafter : ∀ t, dat.after 0 t = iblk0 a0 V c 0 t) (t : Fin (cfg0 a0).N) (d) : dat.before 0 t d = iblk0 a0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ (cfg0 a0) c) (hA : dat.A 1 = V c (Pipeline.arrRef spec0 1))
    (hafter : ∀ t, dat.after 1 t = iblk0 a0 V c 1 t) (t : Fin (cfg0 a0).N) (d) : dat.before 1 t d = iblk0 a0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window's buffer -/

/-- The one rectangle the body accesses: a whole 1 × 1 × 128 buffer. -/
abbrev r0_0 : Rect S1x1x128 := Rect.unit (s := S1x1x128) ![0, 0, 0] S1x1x128.size inb_S1x1x128_S1x1x128_0_0_0

/-- Output window 2's buffer after the body: its one store, the first input block. -/
def out0_2 (x0 : Vec F S1x1x128 .f32) : Vec F S1x1x128 .f32 :=
  View.canon [⟨r0_0, k0_pay1 (View.ld x0 r0_0)⟩]

/-- Output window 3's buffer after the body: its one store, the second input block. -/
def out0_3 (x1 : Vec F S1x1x128 .f32) : Vec F S1x1x128 .f32 :=
  View.canon [⟨r0_0, k0_pay2 (View.ld x1 r0_0)⟩]

/-- A store of the whole buffer covers it. -/
theorem cover0 (p0 : Vec F S1x1x128 .f32) (y : S1x1x128.Idx) :
    ∃ pc ∈ ([⟨r0_0, p0⟩] : List (View.Piece (Elt F) S1x1x128 .f32)), y ∈ pc.1.set :=
  View.cover_of_tiled [⟨r0_0, p0⟩] S1x1x128.size (by rfl) y

/-! ## The body's triple -/

set_option maxHeartbeats 1000000 in
/-- The body on whole staging memrefs, the inputs' at contents `x0`, `x1` and the outputs' at anything, runs to the
    continuation holding the inputs' as they were and each output's at the copy of its input. It touches neither table. -/
theorem sound_kernel0 (c : Dev nD) (E : Set ℕ) (i : grid0.Coords)
    (arg1 : Memref sig .tc .smem S128 .i32) (harg1 : arg1.IsWhole) (arg2 : Memref sig .tc .smem S128 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole) (arg6 : Memref sig .tc .vmem S1x1x128 .f32) (harg6 : arg6.IsWhole)
    (x0 x1 : Vec F S1x1x128 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (out0_2 x0) ∗ owns (c : Thread nD τ) arg6 fullShare (out0_3 x1)) -∗ K ⟨⟩))
      ⊢ wp frame (wpE (defs₀ (F := F)) Variants.none c none) E (cc0__gather_kernel i arg1 harg1 arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-! ## The pipeline's proof data -/

/-- The proof data of the gather pipeline on core `c`: the arrays as the region finds them; after the body at point
    `t` each input's buffer at its block (the named row) and each output's at the copy of it; the invariant is the
    scoped rest and the generator register, untouched, beside the two prefetched tables, which pass through unread;
    nothing owed. The two input windows read ONE array, the table: each holds half of it. -/
def dat0 (c : Dev nD) : Dat τ (Elt F) Unit ℕ (UR sig nD τ) ℕ (cfg0 a0) c where
  A w := V c (Pipeline.arrRef spec0 w)
  after w t := match w with
    | ⟨0, _⟩ => iblk0 a0 V c 0 t
    | ⟨1, _⟩ => iblk0 a0 V c 1 t
    | ⟨2, _⟩ => out0_2 (iblk0 a0 V c 0 t)
    | ⟨3, _⟩ => out0_3 (iblk0 a0 V c 1 t)
  Φ _ := iprop(Pipeline.ΦA spec0 c ∗ Pipeline.prefHeld pre0 c (fun _ => fullShare) a0.1)
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq0 (c : Dev nD) (w : Fin (cfg0 a0).W) : (dat0 a0 V c).A w = V c (Pipeline.arrRef spec0 w) := by
  dsimp only [dat0]

/-- What the body leaves, window by window. -/
theorem after0_0 (c : Dev nD) (t : Fin (cfg0 a0).N) : (dat0 a0 V c).after 0 t = iblk0 a0 V c 0 t := by dsimp only [dat0]; try rfl
theorem after0_1 (c : Dev nD) (t : Fin (cfg0 a0).N) : (dat0 a0 V c).after 1 t = iblk0 a0 V c 1 t := by dsimp only [dat0]; try rfl
theorem after0_2 (c : Dev nD) (t : Fin (cfg0 a0).N) : (dat0 a0 V c).after 2 t = out0_2 (iblk0 a0 V c 0 t) := by dsimp only [dat0]; try rfl
theorem after0_3 (c : Dev nD) (t : Fin (cfg0 a0).N) : (dat0 a0 V c).after 3 t = out0_3 (iblk0 a0 V c 1 t) := by dsimp only [dat0]; try rfl

/-- Each input's current staging buffer holds its block at every point. -/
theorem before0_0 (c : Dev nD) (t : Fin (cfg0 a0).N) (d) : (dat0 a0 V c).before 0 t d = iblk0 a0 V c 0 t :=
  before0_0_of a0 V (dat0 a0 V c) (A_eq0 a0 V c 0) (after0_0 a0 V c) t d
theorem before0_1 (c : Dev nD) (t : Fin (cfg0 a0).N) (d) : (dat0 a0 V c).before 1 t d = iblk0 a0 V c 1 t :=
  before0_1_of a0 V (dat0 a0 V c) (A_eq0 a0 V c 1) (after0_1 a0 V c) t d

/-! ## The body obligation, at a generic point -/

/-- Each window's current staging memref at point `t`, spelled as the pipeline passes it to the body, and its wholeness. -/
abbrev ms0_0 (t : Fin (cfg0 a0).N) : Memref sig .tc .vmem S1x1x128 .f32 := spec0_0.stage ((cfg0 a0).slots t 0)
abbrev hs0_0 (t : Fin (cfg0 a0).N) : (ms0_0 a0 t).IsWhole := hstage0_0 (((cfg0 a0).slots t 0).cast nbuf0_0)
abbrev ms0_1 (t : Fin (cfg0 a0).N) : Memref sig .tc .vmem S1x1x128 .f32 := spec0_1.stage ((cfg0 a0).slots t 1)
abbrev hs0_1 (t : Fin (cfg0 a0).N) : (ms0_1 a0 t).IsWhole := hstage0_1 (((cfg0 a0).slots t 1).cast nbuf0_1)
abbrev ms0_2 (t : Fin (cfg0 a0).N) : Memref sig .tc .vmem S1x1x128 .f32 := spec0_2.stage ((cfg0 a0).slots t 2)
abbrev hs0_2 (t : Fin (cfg0 a0).N) : (ms0_2 a0 t).IsWhole := hstage0_2 (((cfg0 a0).slots t 2).cast nbuf0_2)
abbrev ms0_3 (t : Fin (cfg0 a0).N) : Memref sig .tc .vmem S1x1x128 .f32 := spec0_3.stage ((cfg0 a0).slots t 3)
abbrev hs0_3 (t : Fin (cfg0 a0).N) : (ms0_3 a0 t).IsWhole := hstage0_3 (((cfg0 a0).slots t 3).cast nbuf0_3)

/-- The body at point `t`, on what the pipeline calls it with. -/
abbrev bodyAt0 (t : Fin (cfg0 a0).N) : Prog (TpuEff nD τ sig (Elt F) Λ₀ .tc) PUnit :=
  cc0__gather_kernel (grid0.coords t) (Memref.whole main_v1) (Memref.isWhole_whole _) (Memref.whole main_v3) (Memref.isWhole_whole _)
    (ms0_0 a0 t) (hs0_0 a0 t) (ms0_1 a0 t) (hs0_1 a0 t) (ms0_2 a0 t) (hs0_2 a0 t) (ms0_3 a0 t) (hs0_3 a0 t)

/-- What the body is called with at point `t`, the windows one by one, -/
def bodyPre0 (c : Dev nD) (t : Fin (cfg0 a0).N) : sProp 𝕄 :=
  iprop((dat0 a0 V c).Φ t.castSucc ∗ (dat0 a0 V c).owesAt () t.castSucc
    ∗ (∃ d, owns (c : Thread nD τ) (ms0_0 a0 t) fullShare ((dat0 a0 V c).before 0 t d))
    ∗ (∃ d, owns (c : Thread nD τ) (ms0_1 a0 t) fullShare ((dat0 a0 V c).before 1 t d))
    ∗ (∃ d, owns (c : Thread nD τ) (ms0_2 a0 t) fullShare ((dat0 a0 V c).before 2 t d))
    ∗ (∃ d, owns (c : Thread nD τ) (ms0_3 a0 t) fullShare ((dat0 a0 V c).before 3 t d)))

/-- and what it returns. -/
def bodyPost0 (c : Dev nD) (t : Fin (cfg0 a0).N) : sProp 𝕄 :=
  iprop((dat0 a0 V c).Φ t.succ ∗ (dat0 a0 V c).owesAt () t.succ
    ∗ owns (c : Thread nD τ) (ms0_0 a0 t) fullShare ((dat0 a0 V c).after 0 t)
    ∗ owns (c : Thread nD τ) (ms0_1 a0 t) fullShare ((dat0 a0 V c).after 1 t)
    ∗ owns (c : Thread nD τ) (ms0_2 a0 t) fullShare ((dat0 a0 V c).after 2 t)
    ∗ owns (c : Thread nD τ) (ms0_3 a0 t) fullShare ((dat0 a0 V c).after 3 t))

/-- The body at any point: the inputs' memrefs hold their blocks, so the triple applies; the invariant and the core's
    `owes` pass through unread. -/
theorem sound_body0 (c : Dev nD) (t : Fin (cfg0 a0).N) :
    bodyPre0 a0 V c t ⊢ wp frame (wpE (defs₀ (F := F)) Variants.none c none) Set.univ (bodyAt0 a0 t) (fun _ => bodyPost0 a0 V c t) := by
  unfold bodyPre0 bodyPost0 bodyAt0
  simp only [before0_0, before0_1]
  rw [show (dat0 a0 V c).Φ t.succ = (dat0 a0 V c).Φ t.castSucc from rfl,
    show (dat0 a0 V c).owesAt () t.succ = (dat0 a0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ _ _ _ _ (iblk0 a0 V c 0 t) (iblk0 a0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) a0 V c) (defs₀ (F := F)) Variants.none () Set.univ := fun t => by
  rw [bigSep_W0, bigSep_W0]
  exact sound_body0 a0 V c t

end Cert.KernelIdeal.Hand

end
-- ==== Proof.HeadBody.lean ====
/-
  The head region of the program (its second kernel call): a pipeline over a grid of ONE point whose eleven windows are
  each a whole array as one block. Stated at a parameter `V`, the TensorCore's buffer contents when the region is entered:
  each window's block, what the body leaves in the output buffer (one store through the whole rectangle, its payload the
  log-softmax of the head's logits over the sum of the forward and the backward cell), the body's triple, the pipeline's
  proof data and its body obligation; then the value the region leaves: every block is its whole array, so the output
  array ends holding the payload of the ten input arrays.
-/
import proofs.«417286_j68719477196_2_alg».proof.Proof.Gen.KernelIdeal.Launch
import proofs.«417286_j68719477196_2_alg».proof.Proof.Gen.KernelIdeal.Skeleton
import proofs.«417286_j68719477196_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes through: each the whole of its buffer -/

abbrev rEmb : Rect S128x128 := Rect.unit (s := S128x128) ![0, 0] S128x128.size inb_S128x128_S128x128_0_0
abbrev rWx : Rect S1024x128 := Rect.unit (s := S1024x128) ![0, 0] S1024x128.size inb_S1024x128_S1024x128_0_0
abbrev rBias : Rect S1024 := Rect.unit (s := S1024) ![0] S1024.size inb_S1024_S1024_0
abbrev rWhy : Rect S32x256 := Rect.unit (s := S32x256) ![0, 0] S32x256.size inb_S32x256_S32x256_0_0
abbrev rBy : Rect S32 := Rect.unit (s := S32) ![0] S32.size inb_S32_S32_0
abbrev rOut : Rect S128x32 := Rect.unit (s := S128x32) ![0, 0] S128x32.size inb_S128x32_S128x32_0_0

/-! ## What the body leaves in the output window's buffer -/

/-- The output buffer after the body, from the ten input blocks: one store through the whole rectangle, its payload
    the log-softmax of the head's logits over the sum of the two cells, each cell from one embedding, its input
    weights and its two biases. -/
def out1_10 (x0 x1 : Vec F S128x128 .f32) (x2 : Vec F S1024x128 .f32) (x3 x4 : Vec F S1024 .f32) (x5 : Vec F S1024x128 .f32)
    (x6 x7 : Vec F S1024 .f32) (x8 : Vec F S32x256 .f32) (x9 : Vec F S32 .f32) : Vec F S128x32 .f32 :=
  View.canon [⟨rOut, k1_pay1
    (k1_pay3 (View.ld x1 rEmb) (View.ld x5 rWx) (View.ld x6 rBias) (View.ld x7 rBias))
    (k1_pay4 (View.ld x0 rEmb) (View.ld x2 rWx) (View.ld x3 rBias) (View.ld x4 rBias))
    (k1_pay5 (View.ld x1 rEmb) (View.ld x5 rWx) (View.ld x6 rBias) (View.ld x7 rBias))
    (View.ld x8 rWhy) (View.ld x9 rBy)⟩]

/-- The one store's rectangle is the whole buffer, so it covers it. -/
theorem cover1_10 (p0 : Vec F S128x32 .f32) (y : S128x32.Idx) :
    ∃ pc ∈ ([⟨rOut, p0⟩] : List (View.Piece (Elt F) S128x32 .f32)), y ∈ pc.1.set :=
  View.cover_of_tiled [⟨rOut, p0⟩] S128x32.size (by rfl) y

/-! ## The body's triple -/

set_option maxHeartbeats 1000000 in
/-- The body on whole staging memrefs, the ten inputs' at read contents `x0 … x9` and the output's at anything, runs to
    the continuation holding the inputs' as they were and the output's at `out1_10` of the inputs'. -/
theorem sound_kernel1 (c : Dev nD) (E : Set ℕ) (i : grid1.Coords)
    (arg1 : Memref sig .tc .vmem S128x128 .f32) (harg1 : arg1.IsWhole) (arg2 : Memref sig .tc .vmem S128x128 .f32) (harg2 : arg2.IsWhole)
    (arg3 : Memref sig .tc .vmem S1024x128 .f32) (harg3 : arg3.IsWhole) (arg4 : Memref sig .tc .vmem S1024 .f32) (harg4 : arg4.IsWhole)
    (arg5 : Memref sig .tc .vmem S1024 .f32) (harg5 : arg5.IsWhole) (arg6 : Memref sig .tc .vmem S1024x128 .f32) (harg6 : arg6.IsWhole)
    (arg7 : Memref sig .tc .vmem S1024 .f32) (harg7 : arg7.IsWhole) (arg8 : Memref sig .tc .vmem S1024 .f32) (harg8 : arg8.IsWhole)
    (arg9 : Memref sig .tc .vmem S32x256 .f32) (harg9 : arg9.IsWhole) (arg10 : Memref sig .tc .vmem S32 .f32) (harg10 : arg10.IsWhole)
    (arg11 : Memref sig .tc .vmem S128x32 .f32) (harg11 : arg11.IsWhole)
    (x0 x1 : Vec F S128x128 .f32) (x2 : Vec F S1024x128 .f32) (x3 x4 : Vec F S1024 .f32) (x5 : Vec F S1024x128 .f32)
    (x6 x7 : Vec F S1024 .f32) (x8 : Vec F S32x256 .f32) (x9 : Vec F S32 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ (∃ d, owns (c : Thread nD τ) arg11 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare (out1_10 x0 x1 x2 x3 x4 x5 x6 x7 x8 x9)) -∗ K ⟨⟩))
      ⊢ wp frame (wpE (defs₀ (F := F)) Variants.none c none) E
          (cc1__head_kernel i arg1 harg1 arg2 harg2 arg3 harg3 arg4 harg4 arg5 harg5 arg6 harg6 arg7 harg7 arg8 harg8
            arg9 harg9 arg10 harg10 arg11 harg11) K := by
  simp only [cc1__head_kernel_eq_skeleton]; unfold cc1__head_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The pipeline's proof data -/

/-- The proof data of the pipeline on core `c`: the arrays at the entry contents; after the body each input's buffer
    at its block and the output's at `out1_10` of the ten input blocks; the invariant the scoped rest and the
    generator register, untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t)
        (iblk1 V c 5 t) (iblk1 V c 6 t) (iblk1 V c 7 t) (iblk1 V c 8 t) (iblk1 V c 9 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t
    = out1_10 (iblk1 V c 0 t) (iblk1 V c 1 t) (iblk1 V c 2 t) (iblk1 V c 3 t) (iblk1 V c 4 t)
        (iblk1 V c 5 t) (iblk1 V c 6 t) (iblk1 V c 7 t) (iblk1 V c 8 t) (iblk1 V c 9 t) := by dsimp only [dat1]

/-! ## The inputs' buffers when the body runs -/

/-- Each input window is uncut, never idle, and its body leaves its block in place: so at every point its current
    staging buffer holds the array's block there, fetched at that point or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
      (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
      (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
      (fun t => by rw [after1_9]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩⟩
  iapply (sound_kernel1 c Set.univ _ _ _ _ _ _ _ _ _ _ _ _ _ _ _ _ _ _ _ _ _ _ _
    (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The value the region leaves -/

theorem hz2 : (![0, 0] : Fin 2 → Nat) = fun _ => 0 := funext fun a => by fin_cases a <;> rfl
theorem hz1 : (![0] : Fin 1 → Nat) = fun _ => 0 := funext fun a => by fin_cases a; rfl

/-- One store through the whole rectangle leaves its payload, and a load through a whole rectangle reads the contents:
    the output buffer is the payload of the ten inputs themselves. -/
theorem out1_10_eq (x0 x1 : Vec F S128x128 .f32) (x2 : Vec F S1024x128 .f32) (x3 x4 : Vec F S1024 .f32) (x5 : Vec F S1024x128 .f32)
    (x6 x7 : Vec F S1024 .f32) (x8 : Vec F S32x256 .f32) (x9 : Vec F S32 .f32) :
    out1_10 x0 x1 x2 x3 x4 x5 x6 x7 x8 x9
      = k1_pay1 (k1_pay3 x1 x5 x6 x7) (k1_pay4 x0 x2 x3 x4) (k1_pay5 x1 x5 x6 x7) x8 x9 := by
  unfold out1_10
  rw [View.canon_unit_zero hz2]
  simp only [View.ld_unit_zero (S := S128x128) hz2, View.ld_unit_zero (S := S1024x128) hz2,
    View.ld_unit_zero (S := S1024) hz1, View.ld_unit_zero (S := S32x256) hz2, View.ld_unit_zero (S := S32) hz1]

/-! ### Every block is its whole array

The grid has one point, and there every window's block index is zero on every axis (decided over the grid); a block
of the array's own shape at index zero reads the array. -/

theorem idx1_0 : ∀ (t : Fin cfg1.N) (a : Fin 2), win1_0.index t a * S128x128.size a = 0 :=
  (by decide +kernel : ∀ (t : Fin grid1.N) (a : Fin 2), win1_0.index t a * S128x128.size a = 0)
theorem idx1_1 : ∀ (t : Fin cfg1.N) (a : Fin 2), win1_1.index t a * S128x128.size a = 0 :=
  (by decide +kernel : ∀ (t : Fin grid1.N) (a : Fin 2), win1_1.index t a * S128x128.size a = 0)
theorem idx1_2 : ∀ (t : Fin cfg1.N) (a : Fin 2), win1_2.index t a * S1024x128.size a = 0 :=
  (by decide +kernel : ∀ (t : Fin grid1.N) (a : Fin 2), win1_2.index t a * S1024x128.size a = 0)
theorem idx1_3 : ∀ (t : Fin cfg1.N) (a : Fin 1), win1_3.index t a * S1024.size a = 0 :=
  (by decide +kernel : ∀ (t : Fin grid1.N) (a : Fin 1), win1_3.index t a * S1024.size a = 0)
theorem idx1_4 : ∀ (t : Fin cfg1.N) (a : Fin 1), win1_4.index t a * S1024.size a = 0 :=
  (by decide +kernel : ∀ (t : Fin grid1.N) (a : Fin 1), win1_4.index t a * S1024.size a = 0)
theorem idx1_5 : ∀ (t : Fin cfg1.N) (a : Fin 2), win1_5.index t a * S1024x128.size a = 0 :=
  (by decide +kernel : ∀ (t : Fin grid1.N) (a : Fin 2), win1_5.index t a * S1024x128.size a = 0)
theorem idx1_6 : ∀ (t : Fin cfg1.N) (a : Fin 1), win1_6.index t a * S1024.size a = 0 :=
  (by decide +kernel : ∀ (t : Fin grid1.N) (a : Fin 1), win1_6.index t a * S1024.size a = 0)
theorem idx1_7 : ∀ (t : Fin cfg1.N) (a : Fin 1), win1_7.index t a * S1024.size a = 0 :=
  (by decide +kernel : ∀ (t : Fin grid1.N) (a : Fin 1), win1_7.index t a * S1024.size a = 0)
theorem idx1_8 : ∀ (t : Fin cfg1.N) (a : Fin 2), win1_8.index t a * S32x256.size a = 0 :=
  (by decide +kernel : ∀ (t : Fin grid1.N) (a : Fin 2), win1_8.index t a * S32x256.size a = 0)
theorem idx1_9 : ∀ (t : Fin cfg1.N) (a : Fin 1), win1_9.index t a * S32.size a = 0 :=
  (by decide +kernel : ∀ (t : Fin grid1.N) (a : Fin 1), win1_9.index t a * S32.size a = 0)
theorem idx1_10 : ∀ (t : Fin cfg1.N) (a : Fin 2), win1_10.index t a * S128x32.size a = 0 :=
  (by decide +kernel : ∀ (t : Fin grid1.N) (a : Fin 2), win1_10.index t a * S128x32.size a = 0)

/-- The last token's embedding rows. -/
theorem iblk1_0 (c : Dev nD) (t : Fin cfg1.N) : iblk1 V c 0 t = V c main_v6 := by
  have hz' : (fun a => win1_0.index t a * main_v6.ty.shape.size a) = fun _ => 0 := funext (idx1_0 t)
  exact Memref.read_access_unit_zero (Elt F) main_v6 hz' (fun a => by rw [congrFun hz' a]; simp) (V c main_v6)
/-- The first token's embedding rows. -/
theorem iblk1_1 (c : Dev nD) (t : Fin cfg1.N) : iblk1 V c 1 t = V c main_v7 := by
  have hz' : (fun a => win1_1.index t a * main_v7.ty.shape.size a) = fun _ => 0 := funext (idx1_1 t)
  exact Memref.read_access_unit_zero (Elt F) main_v7 hz' (fun a => by rw [congrFun hz' a]; simp) (V c main_v7)
/-- The forward cell's input weights. -/
theorem iblk1_2 (c : Dev nD) (t : Fin cfg1.N) : iblk1 V c 2 t = V c main_arg2 := by
  have hz' : (fun a => win1_2.index t a * main_arg2.ty.shape.size a) = fun _ => 0 := funext (idx1_2 t)
  exact Memref.read_access_unit_zero (Elt F) main_arg2 hz' (fun a => by rw [congrFun hz' a]; simp) (V c main_arg2)
/-- The forward cell's input bias. -/
theorem iblk1_3 (c : Dev nD) (t : Fin cfg1.N) : iblk1 V c 3 t = V c main_arg3 := by
  have hz' : (fun a => win1_3.index t a * main_arg3.ty.shape.size a) = fun _ => 0 := funext (idx1_3 t)
  exact Memref.read_access_unit_zero (Elt F) main_arg3 hz' (fun a => by rw [congrFun hz' a]; simp) (V c main_arg3)
/-- The forward cell's hidden bias. -/
theorem iblk1_4 (c : Dev nD) (t : Fin cfg1.N) : iblk1 V c 4 t = V c main_arg5 := by
  have hz' : (fun a => win1_4.index t a * main_arg5.ty.shape.size a) = fun _ => 0 := funext (idx1_4 t)
  exact Memref.read_access_unit_zero (Elt F) main_arg5 hz' (fun a => by rw [congrFun hz' a]; simp) (V c main_arg5)
/-- The backward cell's input weights. -/
theorem iblk1_5 (c : Dev nD) (t : Fin cfg1.N) : iblk1 V c 5 t = V c main_arg6 := by
  have hz' : (fun a => win1_5.index t a * main_arg6.ty.shape.size a) = fun _ => 0 := funext (idx1_5 t)
  exact Memref.read_access_unit_zero (Elt F) main_arg6 hz' (fun a => by rw [congrFun hz' a]; simp) (V c main_arg6)
/-- The backward cell's input bias. -/
theorem iblk1_6 (c : Dev nD) (t : Fin cfg1.N) : iblk1 V c 6 t = V c main_arg7 := by
  have hz' : (fun a => win1_6.index t a * main_arg7.ty.shape.size a) = fun _ => 0 := funext (idx1_6 t)
  exact Memref.read_access_unit_zero (Elt F) main_arg7 hz' (fun a => by rw [congrFun hz' a]; simp) (V c main_arg7)
/-- The backward cell's hidden bias. -/
theorem iblk1_7 (c : Dev nD) (t : Fin cfg1.N) : iblk1 V c 7 t = V c main_arg9 := by
  have hz' : (fun a => win1_7.index t a * main_arg9.ty.shape.size a) = fun _ => 0 := funext (idx1_7 t)
  exact Memref.read_access_unit_zero (Elt F) main_arg9 hz' (fun a => by rw [congrFun hz' a]; simp) (V c main_arg9)
/-- The head's weights. -/
theorem iblk1_8 (c : Dev nD) (t : Fin cfg1.N) : iblk1 V c 8 t = V c main_arg10 := by
  have hz' : (fun a => win1_8.index t a * main_arg10.ty.shape.size a) = fun _ => 0 := funext (idx1_8 t)
  exact Memref.read_access_unit_zero (Elt F) main_arg10 hz' (fun a => by rw [congrFun hz' a]; simp) (V c main_arg10)
/-- The head's bias. -/
theorem iblk1_9 (c : Dev nD) (t : Fin cfg1.N) : iblk1 V c 9 t = V c main_arg11 := by
  have hz' : (fun a => win1_9.index t a * main_arg11.ty.shape.size a) = fun _ => 0 := funext (idx1_9 t)
  exact Memref.read_access_unit_zero (Elt F) main_arg11 hz' (fun a => by rw [congrFun hz' a]; simp) (V c main_arg11)

/-! ### From the one block to the array -/

/-- The head's result from the arrays as the region finds them: the log-softmax of the logits over the sum of the two
    cells. -/
abbrev head1 (c : Dev nD) : Vec F S128x32 .f32 :=
  k1_pay1 (k1_pay3 (V c main_v7) (V c main_arg6) (V c main_arg7) (V c main_arg9))
    (k1_pay4 (V c main_v6) (V c main_arg2) (V c main_arg3) (V c main_arg5))
    (k1_pay5 (V c main_v7) (V c main_arg6) (V c main_arg7) (V c main_arg9))
    (V c main_arg10) (V c main_arg11)

/-- What the one point writes back is the block of `head1` there, which is all of it. -/
theorem flushed1_10_eq (c : Dev nD) (t : Fin cfg1.N) :
    (dat1 V c).flushed 10 t = ((cfg1.win 10).blk t).view.read (Elt F) (head1 V c) := by
  show (cfg1.win 10).cut (grid1.coords t) ((dat1 V c).after 10 t) = _
  rw [after1_10, out1_10_eq, iblk1_0, iblk1_1, iblk1_2, iblk1_3, iblk1_4, iblk1_5, iblk1_6, iblk1_7, iblk1_8, iblk1_9]
  have hz' : (fun a => win1_10.index t a * main_v8.ty.shape.size a) = fun _ => 0 := funext (idx1_10 t)
  exact (Memref.read_access_unit_zero (Elt F) main_v8 hz' (fun a => by rw [congrFun hz' a]; simp) (head1 V c)).symm

/-- The one point's block covers the output array, so after the run the array holds `head1`. -/
theorem final1 (c : Dev nD) : (dat1 V c).arrAt 10 cfg1.N
    = k1_pay1 (k1_pay3 (V c main_v7) (V c main_arg6) (V c main_arg7) (V c main_arg9))
        (k1_pay4 (V c main_v6) (V c main_arg2) (V c main_arg3) (V c main_arg5))
        (k1_pay5 (V c main_v7) (V c main_arg6) (V c main_arg7) (V c main_arg9))
        (V c main_arg10) (V c main_arg11) :=
  (dat1 V c).arrAt_eq_of_cover 10 (head1 V c) (fun t _ => flushed1_10_eq V c t) fun i =>
    ⟨t1_0, flush1_10 t1_0, by
      show i ∈ ((View.whole main_v8).slice (win1_10.rect t1_0)).set
      rw [View.set_slice_whole, Rect.mem_set_unit]
      intro a
      have h0 : (i 0 : Nat) < 128 := (i 0).isLt
      have h1 : (i 1 : Nat) < 32 := (i 1).isLt
      match a with
      | ⟨0, _⟩ =>
        show win1_10.index t1_0 0 * win1_10.size 0 ≤ (i 0 : Nat) ∧ (i 0 : Nat) < win1_10.index t1_0 0 * win1_10.size 0 + win1_10.xsize (grid1.coords t1_0) 0
        rw [show win1_10.index t1_0 0 * win1_10.size 0 = 0 from by decide +kernel, show win1_10.xsize (grid1.coords t1_0) 0 = 128 from by decide +kernel]; omega
      | ⟨1, _⟩ =>
        show win1_10.index t1_0 1 * win1_10.size 1 ≤ (i 1 : Nat) ∧ (i 1 : Nat) < win1_10.index t1_0 1 * win1_10.size 1 + win1_10.xsize (grid1.coords t1_0) 1
        rw [show win1_10.index t1_0 1 * win1_10.size 1 = 0 from by decide +kernel, show win1_10.xsize (grid1.coords t1_0) 1 = 32 from by decide +kernel]; omega⟩

end Cert.KernelIdeal.Hand

end
-- ==== Proof.RunDefs.lean ====
/-
  The buffer contents at every boundary between @main's four segments (host operations, the gather region, host
  operations, the head region), the two prefetched tables read off the gather's entry contents, the condition
  `Ok` that every row number they hold lies inside the table, and every pipeline's proof data at its entry contents.
-/
import proofs.«417286_j68719477196_2_alg».proof.Proof.GatherBody
import proofs.«417286_j68719477196_2_alg».proof.Proof.HeadBody
import proofs.«417286_j68719477196_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the gather region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-! ## The prefetched tables -/

/-- The two tables' contents when the gather region is entered (one device). -/
def tbl : pre0.Contents (Elt F) := fun j => V1 m ρ (0 : Dev nD) (pre0.ref j)
/-- On every device the tables hold those contents (there is one device). -/
theorem V1_pre (c : Dev nD) (j : Fin 2) : V1 m ρ c (pre0.ref j) = tbl m ρ j := by
  obtain rfl : c = 0 := Subsingleton.elim _ _; rfl
/-- Every row number in the tables is inside the embedding table. -/
abbrev Ok : Prop := ok0 (F := F) (tbl m ρ)
/-- The tables' contents as admissible contents. -/
abbrev adm0 (hO : Ok m ρ) : (pcfg0 (F := F)).Adm := ⟨tbl m ρ, hO⟩
/-- Admissible contents for every pipeline: the head pipeline has no table. -/
abbrev adm (hO : Ok m ρ) : (p : Fin 2) → (pcfgs (F := F) p).Adm := fun
  | ⟨0, _⟩ => adm0 m ρ hO
  | ⟨1, _⟩ => cfg1.toPCfg_adm
  | ⟨_ + 2, h⟩ => absurd h (Nat.not_lt.2 (Nat.le_add_left _ _))

/-! ## The gather region's exit, and on -/

variable (hO : Ok m ρ)

/-- The gather pipeline's proof data at its entry contents. -/
abbrev d0 (c : Dev nD) : Dat τ (Elt F) Unit ℕ (UR sig nD τ) ℕ (cfg0 (adm0 m ρ hO)) c := dat0 (adm0 m ρ hO) (V1 m ρ) c

/-- At the gather region's exit: its two result arrays at what the write-backs leave, every other buffer as entered
    (the table is only read). -/
def res0_2 (c : Dev nD) : (Proc.devRef .tc main_v5_0 : DevRef τ sig).ty.Contents (Elt F) := (d0 m ρ hO c).arrAt 2 (cfg0 (adm0 m ρ hO)).N
def res0_3 (c : Dev nD) : (Proc.devRef .tc main_v5_1 : DevRef τ sig).ty.Contents (Elt F) := (d0 m ρ hO c).arrAt 3 (cfg0 (adm0 m ρ hO)).N
def W2 (c : Dev nD) : Valuation τ sig (Elt F) :=
  Function.update (Function.update (W1 m ρ c) (Proc.devRef .tc main_v5_0) (res0_2 m ρ hO c))
    (Proc.devRef .tc main_v5_1) (res0_3 m ρ hO c)
theorem W2_v5_0 (c : Dev nD) : W2 m ρ hO c (Proc.devRef .tc main_v5_0) = (d0 m ρ hO c).arrAt 2 (cfg0 (adm0 m ρ hO)).N := by
  unfold W2; rw [Function.update_of_ne (by decide), Function.update_self]; rfl
theorem W2_v5_1 (c : Dev nD) : W2 m ρ hO c (Proc.devRef .tc main_v5_1) = (d0 m ρ hO c).arrAt 3 (cfg0 (adm0 m ρ hO)).N := by
  unfold W2; rw [Function.update_self]; rfl
theorem W2_of_ne (c : Dev nD) (b : Ref sig .tc) (h0 : b ≠ main_v5_0) (h1 : b ≠ main_v5_1) :
    W2 m ρ hO c (Proc.devRef .tc b) = W1 m ρ c (Proc.devRef .tc b) := by
  unfold W2
  rw [Function.update_of_ne (StableHlo.devRef_ne_of_ne h1), Function.update_of_ne (StableHlo.devRef_ne_of_ne h0)]
/-- The same read at the TensorCore's references. -/
abbrev V2 : (c : Dev nD) → (b : Ref sig .tc) → Buf (Elt F) ((c : Thread nD τ).loc b) := fun c b => W2 m ρ hO c b

/-- After the second host stretch (the head region's entry). -/
abbrev W3 : Dev nD → Valuation τ sig (Elt F) := fun c => StableHlo.after hostOps1 (W2 m ρ hO c)
abbrev V3 : (c : Dev nD) → (b : Ref sig .tc) → Buf (Elt F) ((c : Thread nD τ).loc b) := fun c b => W3 m ρ hO c b
/-- At the head region's exit: its arrays at what the pipeline leaves, every other buffer as entered. -/
def W4 (c : Dev nD) : Valuation τ sig (Elt F) :=
  Pipeline.withArrays spec1 c (W3 m ρ hO c) fun w => (dat1 (V3 m ρ hO) c).arrAt w cfg1.N
theorem W4_arr (c : Dev nD) (w : Fin cfg1.W) :
    W4 m ρ hO c (Proc.devRef .tc (Pipeline.arrRef spec1 w)) = (dat1 (V3 m ρ hO) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ hO c (Proc.devRef .tc b) = W3 m ρ hO c (Proc.devRef .tc b) := by
  unfold W4; exact Pipeline.withArrays_of_ne spec1 c _ _ b hb
abbrev V4 : (c : Dev nD) → (b : Ref sig .tc) → Buf (Elt F) ((c : Thread nD τ).loc b) := fun c b => W4 m ρ hO c b
theorem hF1 (c : Dev nD) (w : Fin cfg1.W) : (dat1 (V3 m ρ hO) c).arrAt w cfg1.N = V4 m ρ hO c (Pipeline.arrRef spec1 w) :=
  (W4_arr m ρ hO c w).symm
theorem hrest1 (c : Dev nD) : ∀ b, b ∉ Finset.univ.image (Pipeline.arrRef spec1) → V4 m ρ hO c b = V3 m ρ hO c b :=
  fun b hb => W4_of_ne m ρ hO c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) (adm m ρ hO) p) c
  | ⟨0, _⟩ => fun c => d0 m ρ hO c
  | ⟨1, _⟩ => fun c => dat1 (V3 m ρ hO) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ hO c) ∗ ∃ r, prngReg c r)

end Cert.KernelIdeal.Hand

end
-- ==== Proof.Run.lean ====
/-
  The run of the whole program: @main is four segments — the host operations that slice the token ids and reshape
  the table, the gather region, the two reshapes of its results, the head region — composed over the buffer contents
  at each boundary.  Stated under the one condition the gather needs: every row number the two prefetched tables
  hold lies inside the table (`Ok`).
-/
import proofs.«417286_j68719477196_2_alg».proof.Proof.RunDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m ρ)

/-! ## The regions as segments -/

set_option backward.isDefEq.respectTransparency.types false in
/-- THE HEAD REGION over the thread state: entered from every unscoped buffer at `W3`, left at `W4`. Its arrays are split
    out of the unscoped buffers and put back at the exit contents; the generator register goes into the invariant and
    comes out; nothing is owed. -/
def reg1 : Pipeline.RegionSeg (pcfgs (F := F)) (adm m ρ hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ hO) c).loose
  hwaits := Pipeline.hwaits_of_owed_zero _ _ _ _ L lv 1 fun _ _ => rfl
  pre c := iprop(StableHlo.held (c : Thread nD τ) (Pipeline.ucRefs τ sig) (W3 m ρ hO c) ∗ R c)
  post c := iprop(Tₙ m ρ hO c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ hO c)
  hentry c := by
    rw [Pipeline.ownSems0_none]
    have hsplit := Pipeline.arrays_of_unscopedBufs (p := 1) (pcfgs (F := F)) (adm m ρ hO) (pdats m ρ hO) (launch1 (F := F)).win (launch1 (F := F)).arr_whole c
      ((pdats m ρ hO 1 c).share_full fun _ => rfl) (V3 m ρ hO c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hO 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ hO) (Ix := Unit) (Name := ℕ) (U := UR sig nD τ) (Lvl := ℕ)
      (launch1 (F := F)).win (launch1 (F := F)).arr_whole c (pdats m ρ hO) ((pdats m ρ hO 1 c).share_full fun _ => rfl)
      (V3 m ρ hO c) (V4 m ρ hO c) ((pdats m ρ hO 1 c).arrAt · cfg1.N) (hF1 m ρ hO c) (hrest1 m ρ hO c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ### The gather region's arrays, one by one -/

/-- The three buffers behind the gather's four windows. -/
theorem arrImage0 : Finset.univ.image (Pipeline.arrRef spec0) = ({main_v4, main_v5_0, main_v5_1} : Finset (Ref sig .tc)) := by decide

/-- The gather pipeline's arrays, window by window: the table twice, at the two halves of the full share, and the two result arrays whole. -/
theorem arrays0_eq (c : Dev nD) (Fa : (w : Fin (cfg0 (adm0 m ρ hO)).W) → Buf (Elt F) (((cfg0 (adm0 m ρ hO)).win w).arr.view.loc (c : Thread nD τ))) :
    ((d0 m ρ hO c).arrays Fa : sProp 𝕄)
      = iprop((((c : Thread nD τ).loc main_v4) ↦{fullShare.left} Fa 0) ∗ (((c : Thread nD τ).loc main_v4) ↦{fullShare.right} Fa 1)
          ∗ (((c : Thread nD τ).loc main_v5_0) ↦{fullShare} Fa 2) ∗ (((c : Thread nD τ).loc main_v5_1) ↦{fullShare} Fa 3)) := by
  have hs : ∀ w : Fin 4, ((cfg0 (adm0 m ρ hO)).win w).arr.view.set = Finset.univ := fun w => (arr_whole0 w).set_eq_univ
  unfold Dat.arrays
  rw [bigSep_W0, hs 0, hs 2, hs 3]
  refine congrArg₂ _ ?_ (congrArg₂ _ ?_ (congrArg₂ _ ?_ ?_)) <;> rfl

/-- The buffers behind the arrays, each whole at contents `V`, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v4) ↦{fullShare} V main_v4) ∗ (((c : Thread nD τ).loc main_v5_0) ↦{fullShare} V main_v5_0)
          ∗ (((c : Thread nD τ).loc main_v5_1) ↦{fullShare} V main_v5_1)) := by
  unfold Pipeline.arrBufs
  rw [arrImage0, BI.bigSep_insert (by decide), BI.bigSep_insert (by decide), BI.bigSep_singleton]
  rfl

/-- A core's unscoped buffers at contents `W`: the three array buffers, the two tables, and the rest. -/
theorem held_split0 (a : (p : Fin 2) → (pcfgs (F := F) p).Adm) (c : Dev nD) (W : Valuation τ sig (Elt F)) :
    (StableHlo.held (c : Thread nD τ) (Pipeline.ucRefs τ sig) W : sProp 𝕄)
      = iprop(((((c : Thread nD τ).loc main_v4) ↦{fullShare} W main_v4) ∗ (((c : Thread nD τ).loc main_v5_0) ↦{fullShare} W main_v5_0)
            ∗ (((c : Thread nD τ).loc main_v5_1) ↦{fullShare} W main_v5_1))
          ∗ Pipeline.prefHeld pre0 c (fun _ => fullShare) (fun k => W (pre0.ref k))
          ∗ Pipeline.unscopedRestP pre0 spec0 c (fun b => W b)) := by
  rw [← Pipeline.unscopedBufs_held c W,
    Pipeline.unscopedBufs_split₀ (Pipeline.pin (pcfgs (F := F)) a) 0 (winFacts₀0).arr_unscoped c (fun b => W b)]
  show iprop((Pipeline.arrBufs (Ix := Unit) (Name := ℕ) (U := UR sig nD τ) (Lvl := ℕ) spec0 c (fun b => W b) : sProp 𝕄)
      ∗ Pipeline.unscopedRest (Ix := Unit) (Name := ℕ) (U := UR sig nD τ) (Lvl := ℕ) spec0 c (fun b => W b)) = _
  rw [Pipeline.unscopedRest_split preFacts0 c (fun b => W b), arrBufs0_eq]

/-- The two tables' contents at the gather's entry and at its exit are `tbl`, and the unscoped rest is untouched. -/
theorem pref_W1 (c : Dev nD) : (fun k => W1 m ρ c (pre0.ref k) : pre0.Contents (Elt F)) = tbl m ρ := funext fun k => V1_pre m ρ c k
theorem pref_W2 (c : Dev nD) : (fun k => W2 m ρ hO c (pre0.ref k) : pre0.Contents (Elt F)) = tbl m ρ := funext fun k =>
  (W2_of_ne m ρ hO c (pre0.ref k) (by revert k; decide) (by revert k; decide)).trans (V1_pre m ρ c k)
theorem restP_W2 (c : Dev nD) :
    (Pipeline.unscopedRestP (Ix := Unit) (Name := ℕ) (U := UR sig nD τ) (Lvl := ℕ) pre0 spec0 c (fun b => W2 m ρ hO c b) : sProp 𝕄)
      = Pipeline.unscopedRestP pre0 spec0 c (fun b => W1 m ρ c b) := by
  unfold Pipeline.unscopedRestP
  exact bigSep_congr fun b hb => by
    have hnot : b ∉ Finset.univ.image (Pipeline.arrRef spec0) := (Finset.mem_sdiff.mp (Finset.mem_sdiff.mp hb).1).2
    dsimp only
    rw [W2_of_ne m ρ hO c b (fun e => hnot (e ▸ Finset.mem_image.mpr ⟨2, Finset.mem_univ _, rfl⟩))
      (fun e => hnot (e ▸ Finset.mem_image.mpr ⟨3, Finset.mem_univ _, rfl⟩))]

set_option backward.isDefEq.respectTransparency.types false in
/-- THE GATHER REGION over the thread state: entered from every unscoped buffer at `W1`, left at `W2`. The table is
    split in two halves, one per input window, and made whole again at the exit; the two prefetched tables go into the
    invariant and come out; the generator register likewise; nothing is owed. -/
def reg0 : Pipeline.RegionSeg (pcfgs (F := F)) (adm m ρ hO) (pdats m ρ hO) () defs₀ 𝒱₀ L lv 0 where
  win := winFacts₀0
  block_pos := block_pos0
  stage_whole := stage_whole0
  K := PEmpty
  osem k := k.elim
  ho := Pipeline.OwnSemFacts.none _
  hbody c := (body_obligation0 (adm0 m ρ hO) (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ hO c) ∗ R c)
  X c := iprop(∃ r, prngReg c r)
  Y c := iprop((∃ r, prngReg c r) ∗ Pipeline.prefHeld pre0 c (fun _ => fullShare) (tbl m ρ))
  Z c := Pipeline.unscopedRestP (Ix := Unit) (Name := ℕ) (U := UR sig nD τ) (Lvl := ℕ) pre0 spec0 c (V1 m ρ c)
  hentry c := by
    rw [Pipeline.ownSems0_none, held_split0 (adm m ρ hO) c (W1 m ρ c), pref_W1]
    rw [show ((pdats m ρ hO 0 c).arrays ((pdats m ρ hO 0 c).arrAt · 0) : sProp 𝕄) = (d0 m ρ hO c).arrays ((d0 m ρ hO c).arrAt · 0) from rfl, arrays0_eq]
    iintro ⟨⟨⟨⟨H4, H50, H51⟩, Hpf, Hrest⟩, Hp, HO⟩, -, -⟩
    ihave H4' := (pointsTo_share (PosShare.mem_left_op_right fullShare)).1 $$ H4
    icases H4' with ⟨H4l, H4r⟩
    imodintro
    isplitl [H4l H4r H50 H51]
    · isplitl [H4l]; · iexact H4l
      isplitl [H4r]; · iexact H4r
      isplitl [H50]; · iexact H50
      iexact H51
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = iprop(Pipeline.ΦA spec0 c ∗ Pipeline.prefHeld pre0 c (fun _ => fullShare) (tbl m ρ)) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m ρ hO 0 c).Φ (Fin.last _) = iprop(Pipeline.ΦA spec0 c ∗ Pipeline.prefHeld pre0 c (fun _ => fullShare) (tbl m ρ)) from rfl]; unfold Pipeline.ΦA
    iintro ⟨⟨Hr, Hp⟩, Ht⟩
    isplitl [Hp Ht]
    · isplitl [Hp]; · iexact Hp
      iexact Ht
    isplitr; · iempintro
    iexact Hr
  hexit c := by
    have e0 : (d0 m ρ hO c).arrAt 0 (cfg0 (adm0 m ρ hO)).N = V1 m ρ c main_v4 := ((d0 m ρ hO c).arrAt_in 0 rfl _).trans (A_eq0 _ _ c 0)
    have e1 : (d0 m ρ hO c).arrAt 1 (cfg0 (adm0 m ρ hO)).N = V1 m ρ c main_v4 := ((d0 m ρ hO c).arrAt_in 1 rfl _).trans (A_eq0 _ _ c 1)
    rw [show ((pdats m ρ hO 0 c).arrays ((pdats m ρ hO 0 c).arrAt · (Pipeline.pin (pcfgs (F := F)) (adm m ρ hO) 0).N) : sProp 𝕄)
        = (d0 m ρ hO c).arrays ((d0 m ρ hO c).arrAt · (cfg0 (adm0 m ρ hO)).N) from rfl, arrays0_eq,
      held_split0 (adm m ρ hO) c (W2 m ρ hO c), pref_W2, restP_W2,
      W2_of_ne m ρ hO c main_v4 (by decide) (by decide), W2_v5_0, W2_v5_1, e0, e1]
    iintro ⟨⟨H4l, H4r, H50, H51⟩, HO, ⟨Hp, Hpf⟩, Hrest⟩
    ihave H4 := (pointsTo_share (PosShare.mem_left_op_right fullShare)).2 $$ [H4l H4r]
    · isplitl [H4l]; · iexact H4l
      iexact H4r
    imodintro
    isplitl [H4 H50 H51 Hpf Hrest]
    · isplitl [H4 H50 H51]
      · isplitl [H4]; · iexact H4
        isplitl [H50]; · iexact H50
        iexact H51
      isplitl [Hpf]; · iexact Hpf
      iexact Hrest
    isplitl [Hp]; · iexact Hp
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) (adm m ρ hO) (pdats m ρ hO) () defs₀ 𝒱₀ L lv) :=
  [ .host (hseg hostOps0 hostOps0_sub hostOps0_fresh (W0 m ρ)),
    .region (reg0 m ρ hO),
    .host (hseg hostOps1 hostOps1_sub hostOps1_fresh (W2 m ρ hO)),
    .region (reg1 m ρ hO) ]
/-- @main is the run of the segments. -/
theorem main_run (c : Dev nD) : main (F := F) c = Pipeline.Seg.run (segs m ρ hO) := (main_chain c).trans (by chain_rfl)

set_option backward.isDefEq.respectTransparency.types false in
/-- THE RUN: from any memory with zero counters, every weakly fair execution of @main terminates, nothing faulting, and every
    final state holds every unscoped buffer at the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ hO c b) :=
  Pipeline.θ_run_regions_kit (pcfgs (F := F)) (adm m ρ hO) (pdats m ρ hO) () (cellOf_inj (adm m ρ hO)) emb₁ defs₀ 𝒱₀ L lv m ρ main (segs m ρ hO)
    (fun c Q => by rw [main_run m ρ hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ hO)) (cellOf_inj (adm m ρ hO))) (Pipeline.launchToks (Pipeline.pin (pcfgs (F := F)) (adm m ρ hO)) (cellOf_inj (adm m ρ hO))))
    (hu₀ := by
      iintro Hu; imodintro
      isplitl [Hu]
      · iapply (show (ownU (initOf (Pipeline.cells (Pipeline.pin (pcfgs (F := F)) (adm m ρ hO)) (cellOf_inj (adm m ρ hO))) (Pipeline.launchToks (Pipeline.pin (pcfgs (F := F)) (adm m ρ hO)) (cellOf_inj (adm m ρ hO)))) : sProp 𝕄)
            ⊢ BI.own (emb₁ (initOf (Pipeline.cells (Pipeline.pin (pcfgs (F := F)) (adm m ρ hO)) (cellOf_inj (adm m ρ hO))) (Pipeline.launchToks (Pipeline.pin (pcfgs (F := F)) (adm m ρ hO)) (cellOf_inj (adm m ρ hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hO)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ hO c) s')
      isplitl [Hh] <;> iassumption)
    (hQ := fun s h c => h c)

end Cert.KernelIdeal.Hand

end
-- ==== Proof.HostReads.lean ====
/-
  What the host operations around the two kernel regions leave in the buffers, read back. Before the gather region:
  the two prefetched tables are columns 2047 and 0 of the token ids, flattened to vectors, so entry b of a table is the
  token id at (b, 2047), resp. (b, 0); the gather's source is the embedding table with a unit axis inserted. Token ids
  below 50257 make every row number the gather's index maps read lie inside that 50257-row array. After the gather
  region: the two gathered 128 × 1 × 128 arrays reshaped to 128 × 128. No segment writes an argument, so each argument
  is as launched when the head region is entered.
-/
import proofs.«417286_j68719477196_2_alg».proof.Proof.RunDefs
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem

variable {F : FTy → Type} [FloatOps F]

variable (m : (ℓ : Loc nD τ sig) → Buf (Elt F) ℓ) (ρ : Dev nD → PrngReg)

/-! ## The first host stretch: the tables and the reshaped embedding table -/

/-- The gather's source array is the embedding table with a unit axis inserted. -/
theorem V1_main_v4 (c : Dev nD) :
    V1 m ρ c main_v4 = shapeCast S50257x1x128 (m ((c : Thread nD τ).loc main_arg1)) shapeCasts_S50257x128_S50257x1x128 := by
  show StableHlo.after hostOps0 (W0 m ρ c) (Proc.devRef .tc main_v4) = _
  after_results
  rfl

/-- The token ids are as launched when the gather region is entered. -/
theorem V1_main_arg0 (c : Dev nD) : V1 m ρ c main_arg0 = m ((c : Thread nD τ).loc main_arg0) :=
  (StableHlo.after_of_writes_sub hostOps0 _ hostOps0_writes (by decide)).trans rfl

/-- Table 0 is column 2047 of the token ids, as a vector. -/
theorem tbl_last :
    (tbl m ρ 0 : S128.Idx → BitVec 32)
      = shapeCast S128 (extractStridedSlice S128x1 ![0, 2047] (m (((0 : Dev nD) : Thread nD τ).loc main_arg0)) slices_S128x2048_S128x1_0_2047) shapeCasts_S128x1_S128 := by
  show StableHlo.after hostOps0 (W0 m ρ (0 : Dev nD)) (Proc.devRef .tc main_v1) = _
  after_results
  rfl

/-- Table 1 is column 0 of the token ids, as a vector. -/
theorem tbl_first :
    (tbl m ρ 1 : S128.Idx → BitVec 32)
      = shapeCast S128 (extractStridedSlice S128x1 ![0, 0] (m (((0 : Dev nD) : Thread nD τ).loc main_arg0)) slices_S128x2048_S128x1_0_0) shapeCasts_S128x1_S128 := by
  show StableHlo.after hostOps0 (W0 m ρ (0 : Dev nD)) (Proc.devRef .tc main_v3) = _
  after_results
  rfl

/-- A column of a [128, 2048] array, sliced out and flattened, read at b: the array at (b, col). -/
theorem col_apply {α : Type} (x : S128x2048.Idx → α) (col : Fin 2048) (hs : S128x2048.Slices ![0, col.val] S128x1) (b : Fin 128) :
    shapeCast S128 (extractStridedSlice S128x1 ![0, col.val] x hs) shapeCasts_S128x1_S128 (ix1 b) = x (ix2 b col) := by
  rw [shapeCast_apply _ shapeCasts_S128x1_S128 (ix1 b) (ix2 b (0 : Fin 1)) (by
    rewrite [Shape.rowMajor_val_two, Shape.rowMajor_val_one]
    show b.val * 1 + 0 = b.val
    omega)]
  exact extractStridedSlice_apply _ _ hs (ix2 b (0 : Fin 1)) (ix2 b col) (fun a => match a with
    | ⟨0, _⟩ => by show b.val = 0 + b.val; omega
    | ⟨1, _⟩ => by show col.val = col.val + 0; omega)

theorem tbl_last_apply (b : Fin 128) :
    (tbl m ρ 0 : S128.Idx → BitVec 32) (ix1 b) = m (((0 : Dev nD) : Thread nD τ).loc main_arg0) (ix2 b ⟨2047, by decide⟩) := by
  rw [tbl_last]
  exact col_apply _ ⟨2047, by decide⟩ slices_S128x2048_S128x1_0_2047 b

theorem tbl_first_apply (b : Fin 128) :
    (tbl m ρ 1 : S128.Idx → BitVec 32) (ix1 b) = m (((0 : Dev nD) : Thread nD τ).loc main_arg0) (ix2 b ⟨0, by decide⟩) := by
  rw [tbl_first]
  exact col_apply _ ⟨0, by decide⟩ slices_S128x2048_S128x1_0_0 b

/-! ## The tables' row numbers are inside the embedding table -/

/-- For any contents of the two tables whose every word is below 50257: at every grid point each gather window's block,
    one row (n, 0, 0) of shape 1 × 1 × 128 in the 50257 × 1 × 128 array, lies inside it, and the element type is a word wide. -/
theorem ok0_of_lt (pf : pre0.Contents (Elt F))
    (h0 : ∀ j : S128.Idx, ((pf 0 : S128.Idx → BitVec 32) j).toNat < 50257)
    (h1 : ∀ j : S128.Idx, ((pf 1 : S128.Idx → BitVec 32) j).toNat < 50257) : ok0 pf := by
  have key : ∀ n : Nat, n < 50257 → (n + 1) * 1 ≤ 50257 := fun n h => by omega
  unfold ok0
  refine ⟨fun i => ⟨fun a => ?_, .inl rfl⟩, fun i => ⟨fun a => ?_, .inl rfl⟩⟩
  · match a with
    | ⟨0, _⟩ => exact key _ (h0 _)
    | ⟨1, _⟩ => show ((0#32 : BitVec 32).toNat + 1) * 1 ≤ 1; decide
    | ⟨2, _⟩ => show ((0#32 : BitVec 32).toNat + 1) * 128 ≤ 128; decide
  · match a with
    | ⟨0, _⟩ => exact key _ (h1 _)
    | ⟨1, _⟩ => show ((0#32 : BitVec 32).toNat + 1) * 1 ≤ 1; decide
    | ⟨2, _⟩ => show ((0#32 : BitVec 32).toNat + 1) * 128 ≤ 128; decide

theorem ok_of_range (hr : ∀ i, (m (((0 : Dev nD) : Thread nD τ).loc main_arg0) i).toNat < 50257) : Ok m ρ :=
  ok0_of_lt (tbl m ρ)
    (fun j => by
      have e : (tbl m ρ 0 : S128.Idx → BitVec 32) j = _ :=
        (congrArg (tbl m ρ 0 : S128.Idx → BitVec 32) (eq_ix1 j)).trans (tbl_last_apply m ρ (j 0))
      rw [e]; exact hr _)
    (fun j => by
      have e : (tbl m ρ 1 : S128.Idx → BitVec 32) j = _ :=
        (congrArg (tbl m ρ 1 : S128.Idx → BitVec 32) (eq_ix1 j)).trans (tbl_first_apply m ρ (j 0))
      rw [e]; exact hr _)

/-! ## The second host stretch: the gathered rows as matrices; no segment writes an argument -/

variable (hO : Ok m ρ)

theorem V3_main_v6 (c : Dev nD) :
    V3 m ρ hO c main_v6 = shapeCast S128x128 (V2 m ρ hO c main_v5_0) shapeCasts_S128x1x128_S128x128 := by
  show StableHlo.after hostOps1 (W2 m ρ hO c) (Proc.devRef .tc main_v6) = _
  after_results
  rfl

theorem V3_main_v7 (c : Dev nD) :
    V3 m ρ hO c main_v7 = shapeCast S128x128 (V2 m ρ hO c main_v5_1) shapeCasts_S128x1x128_S128x128 := by
  show StableHlo.after hostOps1 (W2 m ρ hO c) (Proc.devRef .tc main_v7) = _
  after_results
  rfl

theorem V3_main_arg0 (c : Dev nD) : V3 m ρ hO c main_arg0 = m ((c : Thread nD τ).loc main_arg0) :=
  (StableHlo.after_of_writes_sub hostOps1 _ hostOps1_writes (by decide)).trans <|
    (W2_of_ne m ρ hO c main_arg0 (by decide) (by decide)).trans <|
      (StableHlo.after_of_writes_sub hostOps0 _ hostOps0_writes (by decide)).trans rfl
theorem V3_main_arg1 (c : Dev nD) : V3 m ρ hO c main_arg1 = m ((c : Thread nD τ).loc main_arg1) :=
  (StableHlo.after_of_writes_sub hostOps1 _ hostOps1_writes (by decide)).trans <|
    (W2_of_ne m ρ hO c main_arg1 (by decide) (by decide)).trans <|
      (StableHlo.after_of_writes_sub hostOps0 _ hostOps0_writes (by decide)).trans rfl
theorem V3_main_arg2 (c : Dev nD) : V3 m ρ hO c main_arg2 = m ((c : Thread nD τ).loc main_arg2) :=
  (StableHlo.after_of_writes_sub hostOps1 _ hostOps1_writes (by decide)).trans <|
    (W2_of_ne m ρ hO c main_arg2 (by decide) (by decide)).trans <|
      (StableHlo.after_of_writes_sub hostOps0 _ hostOps0_writes (by decide)).trans rfl
theorem V3_main_arg3 (c : Dev nD) : V3 m ρ hO c main_arg3 = m ((c : Thread nD τ).loc main_arg3) :=
  (StableHlo.after_of_writes_sub hostOps1 _ hostOps1_writes (by decide)).trans <|
    (W2_of_ne m ρ hO c main_arg3 (by decide) (by decide)).trans <|
      (StableHlo.after_of_writes_sub hostOps0 _ hostOps0_writes (by decide)).trans rfl
theorem V3_main_arg4 (c : Dev nD) : V3 m ρ hO c main_arg4 = m ((c : Thread nD τ).loc main_arg4) :=
  (StableHlo.after_of_writes_sub hostOps1 _ hostOps1_writes (by decide)).trans <|
    (W2_of_ne m ρ hO c main_arg4 (by decide) (by decide)).trans <|
      (StableHlo.after_of_writes_sub hostOps0 _ hostOps0_writes (by decide)).trans rfl
theorem V3_main_arg5 (c : Dev nD) : V3 m ρ hO c main_arg5 = m ((c : Thread nD τ).loc main_arg5) :=
  (StableHlo.after_of_writes_sub hostOps1 _ hostOps1_writes (by decide)).trans <|
    (W2_of_ne m ρ hO c main_arg5 (by decide) (by decide)).trans <|
      (StableHlo.after_of_writes_sub hostOps0 _ hostOps0_writes (by decide)).trans rfl
theorem V3_main_arg6 (c : Dev nD) : V3 m ρ hO c main_arg6 = m ((c : Thread nD τ).loc main_arg6) :=
  (StableHlo.after_of_writes_sub hostOps1 _ hostOps1_writes (by decide)).trans <|
    (W2_of_ne m ρ hO c main_arg6 (by decide) (by decide)).trans <|
      (StableHlo.after_of_writes_sub hostOps0 _ hostOps0_writes (by decide)).trans rfl
theorem V3_main_arg7 (c : Dev nD) : V3 m ρ hO c main_arg7 = m ((c : Thread nD τ).loc main_arg7) :=
  (StableHlo.after_of_writes_sub hostOps1 _ hostOps1_writes (by decide)).trans <|
    (W2_of_ne m ρ hO c main_arg7 (by decide) (by decide)).trans <|
      (StableHlo.after_of_writes_sub hostOps0 _ hostOps0_writes (by decide)).trans rfl
theorem V3_main_arg8 (c : Dev nD) : V3 m ρ hO c main_arg8 = m ((c : Thread nD τ).loc main_arg8) :=
  (StableHlo.after_of_writes_sub hostOps1 _ hostOps1_writes (by decide)).trans <|
    (W2_of_ne m ρ hO c main_arg8 (by decide) (by decide)).trans <|
      (StableHlo.after_of_writes_sub hostOps0 _ hostOps0_writes (by decide)).trans rfl
theorem V3_main_arg9 (c : Dev nD) : V3 m ρ hO c main_arg9 = m ((c : Thread nD τ).loc main_arg9) :=
  (StableHlo.after_of_writes_sub hostOps1 _ hostOps1_writes (by decide)).trans <|
    (W2_of_ne m ρ hO c main_arg9 (by decide) (by decide)).trans <|
      (StableHlo.after_of_writes_sub hostOps0 _ hostOps0_writes (by decide)).trans rfl
theorem V3_main_arg10 (c : Dev nD) : V3 m ρ hO c main_arg10 = m ((c : Thread nD τ).loc main_arg10) :=
  (StableHlo.after_of_writes_sub hostOps1 _ hostOps1_writes (by decide)).trans <|
    (W2_of_ne m ρ hO c main_arg10 (by decide) (by decide)).trans <|
      (StableHlo.after_of_writes_sub hostOps0 _ hostOps0_writes (by decide)).trans rfl
theorem V3_main_arg11 (c : Dev nD) : V3 m ρ hO c main_arg11 = m ((c : Thread nD τ).loc main_arg11) :=
  (StableHlo.after_of_writes_sub hostOps1 _ hostOps1_writes (by decide)).trans <|
    (W2_of_ne m ρ hO c main_arg11 (by decide) (by decide)).trans <|
      (StableHlo.after_of_writes_sub hostOps0 _ hostOps0_writes (by decide)).trans rfl

end Cert.KernelIdeal.Hand

end
-- ==== Proof.RunFrame.lean ====
/-
  What the run leaves: every argument array as launched (no host operation and no region writes one: the gather reads
  the table, the head region reads its operands through input windows), and the result array at what the head
  pipeline's one write-back leaves.
-/
import proofs.«417286_j68719477196_2_alg».proof.Proof.Run
import proofs.«417286_j68719477196_2_alg».proof.Proof.HostReads

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m ρ)

/-! ## The arguments at the last boundary -/
theorem W4_main_arg0 (c : Dev nD) : W4 m ρ hO c (Proc.devRef .tc main_arg0) = m ((c : Thread nD τ).loc main_arg0) :=
  (W4_of_ne m ρ hO c main_arg0 (by decide)).trans (V3_main_arg0 m ρ hO c)
theorem W4_main_arg1 (c : Dev nD) : W4 m ρ hO c (Proc.devRef .tc main_arg1) = m ((c : Thread nD τ).loc main_arg1) :=
  (W4_of_ne m ρ hO c main_arg1 (by decide)).trans (V3_main_arg1 m ρ hO c)
theorem W4_main_arg2 (c : Dev nD) : W4 m ρ hO c (Proc.devRef .tc main_arg2) = m ((c : Thread nD τ).loc main_arg2) :=
  (W4_arr m ρ hO c 2).trans (((dat1 (V3 m ρ hO) c).arrAt_in 2 rfl _).trans ((A_eq1 (V3 m ρ hO) c 2).trans (V3_main_arg2 m ρ hO c)))
theorem W4_main_arg3 (c : Dev nD) : W4 m ρ hO c (Proc.devRef .tc main_arg3) = m ((c : Thread nD τ).loc main_arg3) :=
  (W4_arr m ρ hO c 3).trans (((dat1 (V3 m ρ hO) c).arrAt_in 3 rfl _).trans ((A_eq1 (V3 m ρ hO) c 3).trans (V3_main_arg3 m ρ hO c)))
theorem W4_main_arg4 (c : Dev nD) : W4 m ρ hO c (Proc.devRef .tc main_arg4) = m ((c : Thread nD τ).loc main_arg4) :=
  (W4_of_ne m ρ hO c main_arg4 (by decide)).trans (V3_main_arg4 m ρ hO c)
theorem W4_main_arg5 (c : Dev nD) : W4 m ρ hO c (Proc.devRef .tc main_arg5) = m ((c : Thread nD τ).loc main_arg5) :=
  (W4_arr m ρ hO c 4).trans (((dat1 (V3 m ρ hO) c).arrAt_in 4 rfl _).trans ((A_eq1 (V3 m ρ hO) c 4).trans (V3_main_arg5 m ρ hO c)))
theorem W4_main_arg6 (c : Dev nD) : W4 m ρ hO c (Proc.devRef .tc main_arg6) = m ((c : Thread nD τ).loc main_arg6) :=
  (W4_arr m ρ hO c 5).trans (((dat1 (V3 m ρ hO) c).arrAt_in 5 rfl _).trans ((A_eq1 (V3 m ρ hO) c 5).trans (V3_main_arg6 m ρ hO c)))
theorem W4_main_arg7 (c : Dev nD) : W4 m ρ hO c (Proc.devRef .tc main_arg7) = m ((c : Thread nD τ).loc main_arg7) :=
  (W4_arr m ρ hO c 6).trans (((dat1 (V3 m ρ hO) c).arrAt_in 6 rfl _).trans ((A_eq1 (V3 m ρ hO) c 6).trans (V3_main_arg7 m ρ hO c)))
theorem W4_main_arg8 (c : Dev nD) : W4 m ρ hO c (Proc.devRef .tc main_arg8) = m ((c : Thread nD τ).loc main_arg8) :=
  (W4_of_ne m ρ hO c main_arg8 (by decide)).trans (V3_main_arg8 m ρ hO c)
theorem W4_main_arg9 (c : Dev nD) : W4 m ρ hO c (Proc.devRef .tc main_arg9) = m ((c : Thread nD τ).loc main_arg9) :=
  (W4_arr m ρ hO c 7).trans (((dat1 (V3 m ρ hO) c).arrAt_in 7 rfl _).trans ((A_eq1 (V3 m ρ hO) c 7).trans (V3_main_arg9 m ρ hO c)))
theorem W4_main_arg10 (c : Dev nD) : W4 m ρ hO c (Proc.devRef .tc main_arg10) = m ((c : Thread nD τ).loc main_arg10) :=
  (W4_arr m ρ hO c 8).trans (((dat1 (V3 m ρ hO) c).arrAt_in 8 rfl _).trans ((A_eq1 (V3 m ρ hO) c 8).trans (V3_main_arg10 m ρ hO c)))
theorem W4_main_arg11 (c : Dev nD) : W4 m ρ hO c (Proc.devRef .tc main_arg11) = m ((c : Thread nD τ).loc main_arg11) :=
  (W4_arr m ρ hO c 9).trans (((dat1 (V3 m ρ hO) c).arrAt_in 9 rfl _).trans ((A_eq1 (V3 m ρ hO) c 9).trans (V3_main_arg11 m ρ hO c)))

/-- The result array at the last boundary: what the head pipeline's write-back leaves. -/
theorem W4_main_v8 (c : Dev nD) : W4 m ρ hO c (Proc.devRef .tc main_v8) = (dat1 (V3 m ρ hO) c).arrAt 10 cfg1.N := W4_arr m ρ hO c 10

/-! ## The frame and the valued run -/

include hO in
/-- THE FRAME at any float instance: every weakly fair execution terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c _ (mem_uc main_arg0 (by decide))).trans (W4_main_arg0 m ρ hO c),
      (h c _ (mem_uc main_arg1 (by decide))).trans (W4_main_arg1 m ρ hO c),
      (h c _ (mem_uc main_arg2 (by decide))).trans (W4_main_arg2 m ρ hO c),
      (h c _ (mem_uc main_arg3 (by decide))).trans (W4_main_arg3 m ρ hO c),
      (h c _ (mem_uc main_arg4 (by decide))).trans (W4_main_arg4 m ρ hO c),
      (h c _ (mem_uc main_arg5 (by decide))).trans (W4_main_arg5 m ρ hO c),
      (h c _ (mem_uc main_arg6 (by decide))).trans (W4_main_arg6 m ρ hO c),
      (h c _ (mem_uc main_arg7 (by decide))).trans (W4_main_arg7 m ρ hO c),
      (h c _ (mem_uc main_arg8 (by decide))).trans (W4_main_arg8 m ρ hO c),
      (h c _ (mem_uc main_arg9 (by decide))).trans (W4_main_arg9 m ρ hO c),
      (h c _ (mem_uc main_arg10 (by decide))).trans (W4_main_arg10 m ρ hO c),
      (h c _ (mem_uc main_arg11 (by decide))).trans (W4_main_arg11 m ρ hO c)⟩) (run_main m ρ hO)

/-- THE VALUED RUN: moreover the result array ends at the head pipeline's write-back. -/
theorem run_value : θ_run defs (onTc (τ := τ) (main (F := F))) ⟨m, fun _ => 0, ρ⟩ (fun r => ∀ c : Dev nD,
      r.2.mem ((c.tc : Thread nD τ).loc main_v8) = W4 m ρ hO c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨h c _ (mem_uc main_v8 (by decide)), (h c _ (mem_uc main_arg0 (by decide))).trans (W4_main_arg0 m ρ hO c),
      (h c _ (mem_uc main_arg1 (by decide))).trans (W4_main_arg1 m ρ hO c),
      (h c _ (mem_uc main_arg2 (by decide))).trans (W4_main_arg2 m ρ hO c),
      (h c _ (mem_uc main_arg3 (by decide))).trans (W4_main_arg3 m ρ hO c),
      (h c _ (mem_uc main_arg4 (by decide))).trans (W4_main_arg4 m ρ hO c),
      (h c _ (mem_uc main_arg5 (by decide))).trans (W4_main_arg5 m ρ hO c),
      (h c _ (mem_uc main_arg6 (by decide))).trans (W4_main_arg6 m ρ hO c),
      (h c _ (mem_uc main_arg7 (by decide))).trans (W4_main_arg7 m ρ hO c),
      (h c _ (mem_uc main_arg8 (by decide))).trans (W4_main_arg8 m ρ hO c),
      (h c _ (mem_uc main_arg9 (by decide))).trans (W4_main_arg9 m ρ hO c),
      (h c _ (mem_uc main_arg10 (by decide))).trans (W4_main_arg10 m ρ hO c),
      (h c _ (mem_uc main_arg11 (by decide))).trans (W4_main_arg11 m ρ hO c)⟩) (run_main m ρ hO)

end Cert.KernelIdeal.Hand

end
-- ==== Proof.Bits.GatherBody.lean ====
/-
  Region 0 of the program: the row gather.  Its grid has 128 points; at point t the pipeline fetches, through two
  input windows on ONE array (the embedding table viewed as 50257 × 1 × 128), the row whose number the first
  prefetched table holds at t and the row whose number the second holds at t, and the body copies each into the
  block of its own output array that point t writes back (row t of a 128 × 1 × 128 array).  Everything here is
  stated at a parameter `V`, the buffer contents when the region is entered, and at admissible contents `a0` of the two
  prefetched tables (every row number inside the table).  The body reads neither table.
-/
import proofs.«417286_j68719477196_2_alg».proof.Proof.Gen.Kernel.Launch
import proofs.«417286_j68719477196_2_alg».proof.Proof.Gen.Kernel.Skeleton
import proofs.«417286_j68719477196_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a0 : (pcfg0 (F := F)).Adm)
variable (V : (c : Dev nD) → (b : Ref sig .tc) → Buf (Elt F) ((c : Thread nD τ).loc b))

/-! ## The windows' blocks -/

/-- Window `w`'s block at point `t`, read off its array as the region finds it: for the two input windows the table's
    row the prefetched table names at `t`. -/
def iblk0 (c : Dev nD) (w : Fin (cfg0 a0).W) (t : Fin (cfg0 a0).N) : (((cfg0 a0).win w).xblock ((cfg0 a0).grid.coords t)).Idx → Elt F ((cfg0 a0).win w).elt :=
  (((cfg0 a0).win w).blk t).view.read (Elt F) (V c (Pipeline.arrRef spec0 w))

/-- An input window's current staging buffer holds its block at every point, fetched there or not (unfetched, the
    row number has not changed), for any proof data whose array is `V`'s and whose body leaves the block in place. -/
theorem before0_0_of {c : Dev nD} (dat : Dat τ (Elt F) Unit ℕ (UR sig nD τ) ℕ (cfg0 a0) c) (hA : dat.A 0 = V c (Pipeline.arrRef spec0 0))
    (hafter : ∀ t, dat.after 0 t = iblk0 a0 V c 0 t) (t : Fin (cfg0 a0).N) (d) : dat.before 0 t d = iblk0 a0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ (cfg0 a0) c) (hA : dat.A 1 = V c (Pipeline.arrRef spec0 1))
    (hafter : ∀ t, dat.after 1 t = iblk0 a0 V c 1 t) (t : Fin (cfg0 a0).N) (d) : dat.before 1 t d = iblk0 a0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window's buffer -/

/-- The one rectangle the body accesses: a whole 1 × 1 × 128 buffer. -/
abbrev r0_0 : Rect S1x1x128 := Rect.unit (s := S1x1x128) ![0, 0, 0] S1x1x128.size inb_S1x1x128_S1x1x128_0_0_0

/-- Output window 2's buffer after the body: its one store, the first input block. -/
def out0_2 (x0 : Vec F S1x1x128 .f32) : Vec F S1x1x128 .f32 :=
  View.canon [⟨r0_0, k0_pay1 (View.ld x0 r0_0)⟩]

/-- Output window 3's buffer after the body: its one store, the second input block. -/
def out0_3 (x1 : Vec F S1x1x128 .f32) : Vec F S1x1x128 .f32 :=
  View.canon [⟨r0_0, k0_pay2 (View.ld x1 r0_0)⟩]

/-- A store of the whole buffer covers it. -/
theorem cover0 (p0 : Vec F S1x1x128 .f32) (y : S1x1x128.Idx) :
    ∃ pc ∈ ([⟨r0_0, p0⟩] : List (View.Piece (Elt F) S1x1x128 .f32)), y ∈ pc.1.set :=
  View.cover_of_tiled [⟨r0_0, p0⟩] S1x1x128.size (by rfl) y

/-! ## The body's triple -/

set_option maxHeartbeats 1000000 in
/-- The body on whole staging memrefs, the inputs' at contents `x0`, `x1` and the outputs' at anything, runs to the
    continuation holding the inputs' as they were and each output's at the copy of its input. It touches neither table. -/
theorem sound_kernel0 (c : Dev nD) (E : Set ℕ) (i : grid0.Coords)
    (arg1 : Memref sig .tc .smem S128 .i32) (harg1 : arg1.IsWhole) (arg2 : Memref sig .tc .smem S128 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole) (arg6 : Memref sig .tc .vmem S1x1x128 .f32) (harg6 : arg6.IsWhole)
    (x0 x1 : Vec F S1x1x128 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (out0_2 x0) ∗ owns (c : Thread nD τ) arg6 fullShare (out0_3 x1)) -∗ K ⟨⟩))
      ⊢ wp frame (wpE (defs₀ (F := F)) Variants.none c none) E (cc0__gather_kernel i arg1 harg1 arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-! ## The pipeline's proof data -/

/-- The proof data of the gather pipeline on core `c`: the arrays as the region finds them; after the body at point
    `t` each input's buffer at its block (the named row) and each output's at the copy of it; the invariant is the
    scoped rest and the generator register, untouched, beside the two prefetched tables, which pass through unread;
    nothing owed. The two input windows read ONE array, the table: each holds half of it. -/
def dat0 (c : Dev nD) : Dat τ (Elt F) Unit ℕ (UR sig nD τ) ℕ (cfg0 a0) c where
  A w := V c (Pipeline.arrRef spec0 w)
  after w t := match w with
    | ⟨0, _⟩ => iblk0 a0 V c 0 t
    | ⟨1, _⟩ => iblk0 a0 V c 1 t
    | ⟨2, _⟩ => out0_2 (iblk0 a0 V c 0 t)
    | ⟨3, _⟩ => out0_3 (iblk0 a0 V c 1 t)
  Φ _ := iprop(Pipeline.ΦA spec0 c ∗ Pipeline.prefHeld pre0 c (fun _ => fullShare) a0.1)
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq0 (c : Dev nD) (w : Fin (cfg0 a0).W) : (dat0 a0 V c).A w = V c (Pipeline.arrRef spec0 w) := by
  dsimp only [dat0]

/-- What the body leaves, window by window. -/
theorem after0_0 (c : Dev nD) (t : Fin (cfg0 a0).N) : (dat0 a0 V c).after 0 t = iblk0 a0 V c 0 t := by dsimp only [dat0]; try rfl
theorem after0_1 (c : Dev nD) (t : Fin (cfg0 a0).N) : (dat0 a0 V c).after 1 t = iblk0 a0 V c 1 t := by dsimp only [dat0]; try rfl
theorem after0_2 (c : Dev nD) (t : Fin (cfg0 a0).N) : (dat0 a0 V c).after 2 t = out0_2 (iblk0 a0 V c 0 t) := by dsimp only [dat0]; try rfl
theorem after0_3 (c : Dev nD) (t : Fin (cfg0 a0).N) : (dat0 a0 V c).after 3 t = out0_3 (iblk0 a0 V c 1 t) := by dsimp only [dat0]; try rfl

/-- Each input's current staging buffer holds its block at every point. -/
theorem before0_0 (c : Dev nD) (t : Fin (cfg0 a0).N) (d) : (dat0 a0 V c).before 0 t d = iblk0 a0 V c 0 t :=
  before0_0_of a0 V (dat0 a0 V c) (A_eq0 a0 V c 0) (after0_0 a0 V c) t d
theorem before0_1 (c : Dev nD) (t : Fin (cfg0 a0).N) (d) : (dat0 a0 V c).before 1 t d = iblk0 a0 V c 1 t :=
  before0_1_of a0 V (dat0 a0 V c) (A_eq0 a0 V c 1) (after0_1 a0 V c) t d

/-! ## The body obligation, at a generic point -/

/-- Each window's current staging memref at point `t`, spelled as the pipeline passes it to the body, and its wholeness. -/
abbrev ms0_0 (t : Fin (cfg0 a0).N) : Memref sig .tc .vmem S1x1x128 .f32 := spec0_0.stage ((cfg0 a0).slots t 0)
abbrev hs0_0 (t : Fin (cfg0 a0).N) : (ms0_0 a0 t).IsWhole := hstage0_0 (((cfg0 a0).slots t 0).cast nbuf0_0)
abbrev ms0_1 (t : Fin (cfg0 a0).N) : Memref sig .tc .vmem S1x1x128 .f32 := spec0_1.stage ((cfg0 a0).slots t 1)
abbrev hs0_1 (t : Fin (cfg0 a0).N) : (ms0_1 a0 t).IsWhole := hstage0_1 (((cfg0 a0).slots t 1).cast nbuf0_1)
abbrev ms0_2 (t : Fin (cfg0 a0).N) : Memref sig .tc .vmem S1x1x128 .f32 := spec0_2.stage ((cfg0 a0).slots t 2)
abbrev hs0_2 (t : Fin (cfg0 a0).N) : (ms0_2 a0 t).IsWhole := hstage0_2 (((cfg0 a0).slots t 2).cast nbuf0_2)
abbrev ms0_3 (t : Fin (cfg0 a0).N) : Memref sig .tc .vmem S1x1x128 .f32 := spec0_3.stage ((cfg0 a0).slots t 3)
abbrev hs0_3 (t : Fin (cfg0 a0).N) : (ms0_3 a0 t).IsWhole := hstage0_3 (((cfg0 a0).slots t 3).cast nbuf0_3)

/-- The body at point `t`, on what the pipeline calls it with. -/
abbrev bodyAt0 (t : Fin (cfg0 a0).N) : Prog (TpuEff nD τ sig (Elt F) Λ₀ .tc) PUnit :=
  cc0__gather_kernel (grid0.coords t) (Memref.whole main_v1) (Memref.isWhole_whole _) (Memref.whole main_v3) (Memref.isWhole_whole _)
    (ms0_0 a0 t) (hs0_0 a0 t) (ms0_1 a0 t) (hs0_1 a0 t) (ms0_2 a0 t) (hs0_2 a0 t) (ms0_3 a0 t) (hs0_3 a0 t)

/-- What the body is called with at point `t`, the windows one by one, -/
def bodyPre0 (c : Dev nD) (t : Fin (cfg0 a0).N) : sProp 𝕄 :=
  iprop((dat0 a0 V c).Φ t.castSucc ∗ (dat0 a0 V c).owesAt () t.castSucc
    ∗ (∃ d, owns (c : Thread nD τ) (ms0_0 a0 t) fullShare ((dat0 a0 V c).before 0 t d))
    ∗ (∃ d, owns (c : Thread nD τ) (ms0_1 a0 t) fullShare ((dat0 a0 V c).before 1 t d))
    ∗ (∃ d, owns (c : Thread nD τ) (ms0_2 a0 t) fullShare ((dat0 a0 V c).before 2 t d))
    ∗ (∃ d, owns (c : Thread nD τ) (ms0_3 a0 t) fullShare ((dat0 a0 V c).before 3 t d)))

/-- and what it returns. -/
def bodyPost0 (c : Dev nD) (t : Fin (cfg0 a0).N) : sProp 𝕄 :=
  iprop((dat0 a0 V c).Φ t.succ ∗ (dat0 a0 V c).owesAt () t.succ
    ∗ owns (c : Thread nD τ) (ms0_0 a0 t) fullShare ((dat0 a0 V c).after 0 t)
    ∗ owns (c : Thread nD τ) (ms0_1 a0 t) fullShare ((dat0 a0 V c).after 1 t)
    ∗ owns (c : Thread nD τ) (ms0_2 a0 t) fullShare ((dat0 a0 V c).after 2 t)
    ∗ owns (c : Thread nD τ) (ms0_3 a0 t) fullShare ((dat0 a0 V c).after 3 t))

/-- The body at any point: the inputs' memrefs hold their blocks, so the triple applies; the invariant and the core's
    `owes` pass through unread. -/
theorem sound_body0 (c : Dev nD) (t : Fin (cfg0 a0).N) :
    bodyPre0 a0 V c t ⊢ wp frame (wpE (defs₀ (F := F)) Variants.none c none) Set.univ (bodyAt0 a0 t) (fun _ => bodyPost0 a0 V c t) := by
  unfold bodyPre0 bodyPost0 bodyAt0
  simp only [before0_0, before0_1]
  rw [show (dat0 a0 V c).Φ t.succ = (dat0 a0 V c).Φ t.castSucc from rfl,
    show (dat0 a0 V c).owesAt () t.succ = (dat0 a0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ _ _ _ _ (iblk0 a0 V c 0 t) (iblk0 a0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) a0 V c) (defs₀ (F := F)) Variants.none () Set.univ := fun t => by
  rw [bigSep_W0, bigSep_W0]
  exact sound_body0 a0 V c t

end Cert.Kernel.Hand

end
-- ==== Proof.Bits.HeadBody.lean ====
/-
  The head region of the program (its second kernel call): a pipeline over a grid of ONE point whose eleven windows are
  each a whole array as one block. Stated at a parameter `V`, the TensorCore's buffer contents when the region is entered:
  each window's block, what the body leaves in the output buffer (one store through the whole rectangle, its payload the
  log-softmax of the head's logits over the sum of the forward and the backward cell), the body's triple, the pipeline's
  proof data and its body obligation; then the value the region leaves: every block is its whole array, so the output
  array ends holding the payload of the ten input arrays.
-/
import proofs.«417286_j68719477196_2_alg».proof.Proof.Gen.Kernel.Launch
import proofs.«417286_j68719477196_2_alg».proof.Proof.Gen.Kernel.Skeleton
import proofs.«417286_j68719477196_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes through: each the whole of its buffer -/

abbrev rEmb : Rect S128x128 := Rect.unit (s := S128x128) ![0, 0] S128x128.size inb_S128x128_S128x128_0_0
abbrev rWx : Rect S1024x128 := Rect.unit (s := S1024x128) ![0, 0] S1024x128.size inb_S1024x128_S1024x128_0_0
abbrev rBias : Rect S1024 := Rect.unit (s := S1024) ![0] S1024.size inb_S1024_S1024_0
abbrev rWhy : Rect S32x256 := Rect.unit (s := S32x256) ![0, 0] S32x256.size inb_S32x256_S32x256_0_0
abbrev rBy : Rect S32 := Rect.unit (s := S32) ![0] S32.size inb_S32_S32_0
abbrev rOut : Rect S128x32 := Rect.unit (s := S128x32) ![0, 0] S128x32.size inb_S128x32_S128x32_0_0

/-! ## What the body leaves in the output window's buffer -/

/-- The output buffer after the body, from the ten input blocks: one store through the whole rectangle, its payload
    the log-softmax of the head's logits over the sum of the two cells, each cell from one embedding, its input
    weights and its two biases. -/
def out1_10 (x0 x1 : Vec F S128x128 .f32) (x2 : Vec F S1024x128 .f32) (x3 x4 : Vec F S1024 .f32) (x5 : Vec F S1024x128 .f32)
    (x6 x7 : Vec F S1024 .f32) (x8 : Vec F S32x256 .f32) (x9 : Vec F S32 .f32) : Vec F S128x32 .f32 :=
  View.canon [⟨rOut, k1_pay1
    (k1_pay3 (View.ld x1 rEmb) (View.ld x5 rWx) (View.ld x6 rBias) (View.ld x7 rBias))
    (k1_pay4 (View.ld x0 rEmb) (View.ld x2 rWx) (View.ld x3 rBias) (View.ld x4 rBias))
    (k1_pay5 (View.ld x1 rEmb) (View.ld x5 rWx) (View.ld x6 rBias) (View.ld x7 rBias))
    (View.ld x8 rWhy) (View.ld x9 rBy)⟩]

/-- The one store's rectangle is the whole buffer, so it covers it. -/
theorem cover1_10 (p0 : Vec F S128x32 .f32) (y : S128x32.Idx) :
    ∃ pc ∈ ([⟨rOut, p0⟩] : List (View.Piece (Elt F) S128x32 .f32)), y ∈ pc.1.set :=
  View.cover_of_tiled [⟨rOut, p0⟩] S128x32.size (by rfl) y

/-! ## The body's triple -/

set_option maxHeartbeats 1000000 in
/-- The body on whole staging memrefs, the ten inputs' at read contents `x0 … x9` and the output's at anything, runs to
    the continuation holding the inputs' as they were and the output's at `out1_10` of the inputs'. -/
theorem sound_kernel1 (c : Dev nD) (E : Set ℕ) (i : grid1.Coords)
    (arg1 : Memref sig .tc .vmem S128x128 .f32) (harg1 : arg1.IsWhole) (arg2 : Memref sig .tc .vmem S128x128 .f32) (harg2 : arg2.IsWhole)
    (arg3 : Memref sig .tc .vmem S1024x128 .f32) (harg3 : arg3.IsWhole) (arg4 : Memref sig .tc .vmem S1024 .f32) (harg4 : arg4.IsWhole)
    (arg5 : Memref sig .tc .vmem S1024 .f32) (harg5 : arg5.IsWhole) (arg6 : Memref sig .tc .vmem S1024x128 .f32) (harg6 : arg6.IsWhole)
    (arg7 : Memref sig .tc .vmem S1024 .f32) (harg7 : arg7.IsWhole) (arg8 : Memref sig .tc .vmem S1024 .f32) (harg8 : arg8.IsWhole)
    (arg9 : Memref sig .tc .vmem S32x256 .f32) (harg9 : arg9.IsWhole) (arg10 : Memref sig .tc .vmem S32 .f32) (harg10 : arg10.IsWhole)
    (arg11 : Memref sig .tc .vmem S128x32 .f32) (harg11 : arg11.IsWhole)
    (x0 x1 : Vec F S128x128 .f32) (x2 : Vec F S1024x128 .f32) (x3 x4 : Vec F S1024 .f32) (x5 : Vec F S1024x128 .f32)
    (x6 x7 : Vec F S1024 .f32) (x8 : Vec F S32x256 .f32) (x9 : Vec F S32 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ (∃ d, owns (c : Thread nD τ) arg11 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare (out1_10 x0 x1 x2 x3 x4 x5 x6 x7 x8 x9)) -∗ K ⟨⟩))
      ⊢ wp frame (wpE (defs₀ (F := F)) Variants.none c none) E
          (cc1__head_kernel i arg1 harg1 arg2 harg2 arg3 harg3 arg4 harg4 arg5 harg5 arg6 harg6 arg7 harg7 arg8 harg8
            arg9 harg9 arg10 harg10 arg11 harg11) K := by
  simp only [cc1__head_kernel_eq_skeleton]; unfold cc1__head_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The pipeline's proof data -/

/-- The proof data of the pipeline on core `c`: the arrays at the entry contents; after the body each input's buffer
    at its block and the output's at `out1_10` of the ten input blocks; the invariant the scoped rest and the
    generator register, untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t)
        (iblk1 V c 5 t) (iblk1 V c 6 t) (iblk1 V c 7 t) (iblk1 V c 8 t) (iblk1 V c 9 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t
    = out1_10 (iblk1 V c 0 t) (iblk1 V c 1 t) (iblk1 V c 2 t) (iblk1 V c 3 t) (iblk1 V c 4 t)
        (iblk1 V c 5 t) (iblk1 V c 6 t) (iblk1 V c 7 t) (iblk1 V c 8 t) (iblk1 V c 9 t) := by dsimp only [dat1]

/-! ## The inputs' buffers when the body runs -/

/-- Each input window is uncut, never idle, and its body leaves its block in place: so at every point its current
    staging buffer holds the array's block there, fetched at that point or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
      (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
      (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
      (fun t => by rw [after1_9]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩⟩
  iapply (sound_kernel1 c Set.univ _ _ _ _ _ _ _ _ _ _ _ _ _ _ _ _ _ _ _ _ _ _ _
    (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The value the region leaves -/

theorem hz2 : (![0, 0] : Fin 2 → Nat) = fun _ => 0 := funext fun a => by fin_cases a <;> rfl
theorem hz1 : (![0] : Fin 1 → Nat) = fun _ => 0 := funext fun a => by fin_cases a; rfl

/-- One store through the whole rectangle leaves its payload, and a load through a whole rectangle reads the contents:
    the output buffer is the payload of the ten inputs themselves. -/
theorem out1_10_eq (x0 x1 : Vec F S128x128 .f32) (x2 : Vec F S1024x128 .f32) (x3 x4 : Vec F S1024 .f32) (x5 : Vec F S1024x128 .f32)
    (x6 x7 : Vec F S1024 .f32) (x8 : Vec F S32x256 .f32) (x9 : Vec F S32 .f32) :
    out1_10 x0 x1 x2 x3 x4 x5 x6 x7 x8 x9
      = k1_pay1 (k1_pay3 x1 x5 x6 x7) (k1_pay4 x0 x2 x3 x4) (k1_pay5 x1 x5 x6 x7) x8 x9 := by
  unfold out1_10
  rw [View.canon_unit_zero hz2]
  simp only [View.ld_unit_zero (S := S128x128) hz2, View.ld_unit_zero (S := S1024x128) hz2,
    View.ld_unit_zero (S := S1024) hz1, View.ld_unit_zero (S := S32x256) hz2, View.ld_unit_zero (S := S32) hz1]

/-! ### Every block is its whole array

The grid has one point, and there every window's block index is zero on every axis (decided over the grid); a block
of the array's own shape at index zero reads the array. -/

theorem idx1_0 : ∀ (t : Fin cfg1.N) (a : Fin 2), win1_0.index t a * S128x128.size a = 0 :=
  (by decide +kernel : ∀ (t : Fin grid1.N) (a : Fin 2), win1_0.index t a * S128x128.size a = 0)
theorem idx1_1 : ∀ (t : Fin cfg1.N) (a : Fin 2), win1_1.index t a * S128x128.size a = 0 :=
  (by decide +kernel : ∀ (t : Fin grid1.N) (a : Fin 2), win1_1.index t a * S128x128.size a = 0)
theorem idx1_2 : ∀ (t : Fin cfg1.N) (a : Fin 2), win1_2.index t a * S1024x128.size a = 0 :=
  (by decide +kernel : ∀ (t : Fin grid1.N) (a : Fin 2), win1_2.index t a * S1024x128.size a = 0)
theorem idx1_3 : ∀ (t : Fin cfg1.N) (a : Fin 1), win1_3.index t a * S1024.size a = 0 :=
  (by decide +kernel : ∀ (t : Fin grid1.N) (a : Fin 1), win1_3.index t a * S1024.size a = 0)
theorem idx1_4 : ∀ (t : Fin cfg1.N) (a : Fin 1), win1_4.index t a * S1024.size a = 0 :=
  (by decide +kernel : ∀ (t : Fin grid1.N) (a : Fin 1), win1_4.index t a * S1024.size a = 0)
theorem idx1_5 : ∀ (t : Fin cfg1.N) (a : Fin 2), win1_5.index t a * S1024x128.size a = 0 :=
  (by decide +kernel : ∀ (t : Fin grid1.N) (a : Fin 2), win1_5.index t a * S1024x128.size a = 0)
theorem idx1_6 : ∀ (t : Fin cfg1.N) (a : Fin 1), win1_6.index t a * S1024.size a = 0 :=
  (by decide +kernel : ∀ (t : Fin grid1.N) (a : Fin 1), win1_6.index t a * S1024.size a = 0)
theorem idx1_7 : ∀ (t : Fin cfg1.N) (a : Fin 1), win1_7.index t a * S1024.size a = 0 :=
  (by decide +kernel : ∀ (t : Fin grid1.N) (a : Fin 1), win1_7.index t a * S1024.size a = 0)
theorem idx1_8 : ∀ (t : Fin cfg1.N) (a : Fin 2), win1_8.index t a * S32x256.size a = 0 :=
  (by decide +kernel : ∀ (t : Fin grid1.N) (a : Fin 2), win1_8.index t a * S32x256.size a = 0)
theorem idx1_9 : ∀ (t : Fin cfg1.N) (a : Fin 1), win1_9.index t a * S32.size a = 0 :=
  (by decide +kernel : ∀ (t : Fin grid1.N) (a : Fin 1), win1_9.index t a * S32.size a = 0)
theorem idx1_10 : ∀ (t : Fin cfg1.N) (a : Fin 2), win1_10.index t a * S128x32.size a = 0 :=
  (by decide +kernel : ∀ (t : Fin grid1.N) (a : Fin 2), win1_10.index t a * S128x32.size a = 0)

/-- The last token's embedding rows. -/
theorem iblk1_0 (c : Dev nD) (t : Fin cfg1.N) : iblk1 V c 0 t = V c main_v6 := by
  have hz' : (fun a => win1_0.index t a * main_v6.ty.shape.size a) = fun _ => 0 := funext (idx1_0 t)
  exact Memref.read_access_unit_zero (Elt F) main_v6 hz' (fun a => by rw [congrFun hz' a]; simp) (V c main_v6)
/-- The first token's embedding rows. -/
theorem iblk1_1 (c : Dev nD) (t : Fin cfg1.N) : iblk1 V c 1 t = V c main_v7 := by
  have hz' : (fun a => win1_1.index t a * main_v7.ty.shape.size a) = fun _ => 0 := funext (idx1_1 t)
  exact Memref.read_access_unit_zero (Elt F) main_v7 hz' (fun a => by rw [congrFun hz' a]; simp) (V c main_v7)
/-- The forward cell's input weights. -/
theorem iblk1_2 (c : Dev nD) (t : Fin cfg1.N) : iblk1 V c 2 t = V c main_arg2 := by
  have hz' : (fun a => win1_2.index t a * main_arg2.ty.shape.size a) = fun _ => 0 := funext (idx1_2 t)
  exact Memref.read_access_unit_zero (Elt F) main_arg2 hz' (fun a => by rw [congrFun hz' a]; simp) (V c main_arg2)
/-- The forward cell's input bias. -/
theorem iblk1_3 (c : Dev nD) (t : Fin cfg1.N) : iblk1 V c 3 t = V c main_arg3 := by
  have hz' : (fun a => win1_3.index t a * main_arg3.ty.shape.size a) = fun _ => 0 := funext (idx1_3 t)
  exact Memref.read_access_unit_zero (Elt F) main_arg3 hz' (fun a => by rw [congrFun hz' a]; simp) (V c main_arg3)
/-- The forward cell's hidden bias. -/
theorem iblk1_4 (c : Dev nD) (t : Fin cfg1.N) : iblk1 V c 4 t = V c main_arg5 := by
  have hz' : (fun a => win1_4.index t a * main_arg5.ty.shape.size a) = fun _ => 0 := funext (idx1_4 t)
  exact Memref.read_access_unit_zero (Elt F) main_arg5 hz' (fun a => by rw [congrFun hz' a]; simp) (V c main_arg5)
/-- The backward cell's input weights. -/
theorem iblk1_5 (c : Dev nD) (t : Fin cfg1.N) : iblk1 V c 5 t = V c main_arg6 := by
  have hz' : (fun a => win1_5.index t a * main_arg6.ty.shape.size a) = fun _ => 0 := funext (idx1_5 t)
  exact Memref.read_access_unit_zero (Elt F) main_arg6 hz' (fun a => by rw [congrFun hz' a]; simp) (V c main_arg6)
/-- The backward cell's input bias. -/
theorem iblk1_6 (c : Dev nD) (t : Fin cfg1.N) : iblk1 V c 6 t = V c main_arg7 := by
  have hz' : (fun a => win1_6.index t a * main_arg7.ty.shape.size a) = fun _ => 0 := funext (idx1_6 t)
  exact Memref.read_access_unit_zero (Elt F) main_arg7 hz' (fun a => by rw [congrFun hz' a]; simp) (V c main_arg7)
/-- The backward cell's hidden bias. -/
theorem iblk1_7 (c : Dev nD) (t : Fin cfg1.N) : iblk1 V c 7 t = V c main_arg9 := by
  have hz' : (fun a => win1_7.index t a * main_arg9.ty.shape.size a) = fun _ => 0 := funext (idx1_7 t)
  exact Memref.read_access_unit_zero (Elt F) main_arg9 hz' (fun a => by rw [congrFun hz' a]; simp) (V c main_arg9)
/-- The head's weights. -/
theorem iblk1_8 (c : Dev nD) (t : Fin cfg1.N) : iblk1 V c 8 t = V c main_arg10 := by
  have hz' : (fun a => win1_8.index t a * main_arg10.ty.shape.size a) = fun _ => 0 := funext (idx1_8 t)
  exact Memref.read_access_unit_zero (Elt F) main_arg10 hz' (fun a => by rw [congrFun hz' a]; simp) (V c main_arg10)
/-- The head's bias. -/
theorem iblk1_9 (c : Dev nD) (t : Fin cfg1.N) : iblk1 V c 9 t = V c main_arg11 := by
  have hz' : (fun a => win1_9.index t a * main_arg11.ty.shape.size a) = fun _ => 0 := funext (idx1_9 t)
  exact Memref.read_access_unit_zero (Elt F) main_arg11 hz' (fun a => by rw [congrFun hz' a]; simp) (V c main_arg11)

/-! ### From the one block to the array -/

/-- The head's result from the arrays as the region finds them: the log-softmax of the logits over the sum of the two
    cells. -/
abbrev head1 (c : Dev nD) : Vec F S128x32 .f32 :=
  k1_pay1 (k1_pay3 (V c main_v7) (V c main_arg6) (V c main_arg7) (V c main_arg9))
    (k1_pay4 (V c main_v6) (V c main_arg2) (V c main_arg3) (V c main_arg5))
    (k1_pay5 (V c main_v7) (V c main_arg6) (V c main_arg7) (V c main_arg9))
    (V c main_arg10) (V c main_arg11)

/-- What the one point writes back is the block of `head1` there, which is all of it. -/
theorem flushed1_10_eq (c : Dev nD) (t : Fin cfg1.N) :
    (dat1 V c).flushed 10 t = ((cfg1.win 10).blk t).view.read (Elt F) (head1 V c) := by
  show (cfg1.win 10).cut (grid1.coords t) ((dat1 V c).after 10 t) = _
  rw [after1_10, out1_10_eq, iblk1_0, iblk1_1, iblk1_2, iblk1_3, iblk1_4, iblk1_5, iblk1_6, iblk1_7, iblk1_8, iblk1_9]
  have hz' : (fun a => win1_10.index t a * main_v8.ty.shape.size a) = fun _ => 0 := funext (idx1_10 t)
  exact (Memref.read_access_unit_zero (Elt F) main_v8 hz' (fun a => by rw [congrFun hz' a]; simp) (head1 V c)).symm

/-- The one point's block covers the output array, so after the run the array holds `head1`. -/
theorem final1 (c : Dev nD) : (dat1 V c).arrAt 10 cfg1.N
    = k1_pay1 (k1_pay3 (V c main_v7) (V c main_arg6) (V c main_arg7) (V c main_arg9))
        (k1_pay4 (V c main_v6) (V c main_arg2) (V c main_arg3) (V c main_arg5))
        (k1_pay5 (V c main_v7) (V c main_arg6) (V c main_arg7) (V c main_arg9))
        (V c main_arg10) (V c main_arg11) :=
  (dat1 V c).arrAt_eq_of_cover 10 (head1 V c) (fun t _ => flushed1_10_eq V c t) fun i =>
    ⟨t1_0, flush1_10 t1_0, by
      show i ∈ ((View.whole main_v8).slice (win1_10.rect t1_0)).set
      rw [View.set_slice_whole, Rect.mem_set_unit]
      intro a
      have h0 : (i 0 : Nat) < 128 := (i 0).isLt
      have h1 : (i 1 : Nat) < 32 := (i 1).isLt
      match a with
      | ⟨0, _⟩ =>
        show win1_10.index t1_0 0 * win1_10.size 0 ≤ (i 0 : Nat) ∧ (i 0 : Nat) < win1_10.index t1_0 0 * win1_10.size 0 + win1_10.xsize (grid1.coords t1_0) 0
        rw [show win1_10.index t1_0 0 * win1_10.size 0 = 0 from by decide +kernel, show win1_10.xsize (grid1.coords t1_0) 0 = 128 from by decide +kernel]; omega
      | ⟨1, _⟩ =>
        show win1_10.index t1_0 1 * win1_10.size 1 ≤ (i 1 : Nat) ∧ (i 1 : Nat) < win1_10.index t1_0 1 * win1_10.size 1 + win1_10.xsize (grid1.coords t1_0) 1
        rw [show win1_10.index t1_0 1 * win1_10.size 1 = 0 from by decide +kernel, show win1_10.xsize (grid1.coords t1_0) 1 = 32 from by decide +kernel]; omega⟩

end Cert.Kernel.Hand

end
-- ==== Proof.Bits.RunDefs.lean ====
/-
  The buffer contents at every boundary between @main's four segments (host operations, the gather region, host
  operations, the head region), the two prefetched tables read off the gather's entry contents, the condition
  `Ok` that every row number they hold lies inside the table, and every pipeline's proof data at its entry contents.
-/
import proofs.«417286_j68719477196_2_alg».proof.Proof.Bits.GatherBody
import proofs.«417286_j68719477196_2_alg».proof.Proof.Bits.HeadBody
import proofs.«417286_j68719477196_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the gather region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-! ## The prefetched tables -/

/-- The two tables' contents when the gather region is entered (one device). -/
def tbl : pre0.Contents (Elt F) := fun j => V1 m ρ (0 : Dev nD) (pre0.ref j)
/-- On every device the tables hold those contents (there is one device). -/
theorem V1_pre (c : Dev nD) (j : Fin 2) : V1 m ρ c (pre0.ref j) = tbl m ρ j := by
  obtain rfl : c = 0 := Subsingleton.elim _ _; rfl
/-- Every row number in the tables is inside the embedding table. -/
abbrev Ok : Prop := ok0 (F := F) (tbl m ρ)
/-- The tables' contents as admissible contents. -/
abbrev adm0 (hO : Ok m ρ) : (pcfg0 (F := F)).Adm := ⟨tbl m ρ, hO⟩
/-- Admissible contents for every pipeline: the head pipeline has no table. -/
abbrev adm (hO : Ok m ρ) : (p : Fin 2) → (pcfgs (F := F) p).Adm := fun
  | ⟨0, _⟩ => adm0 m ρ hO
  | ⟨1, _⟩ => cfg1.toPCfg_adm
  | ⟨_ + 2, h⟩ => absurd h (Nat.not_lt.2 (Nat.le_add_left _ _))

/-! ## The gather region's exit, and on -/

variable (hO : Ok m ρ)

/-- The gather pipeline's proof data at its entry contents. -/
abbrev d0 (c : Dev nD) : Dat τ (Elt F) Unit ℕ (UR sig nD τ) ℕ (cfg0 (adm0 m ρ hO)) c := dat0 (adm0 m ρ hO) (V1 m ρ) c

/-- At the gather region's exit: its two result arrays at what the write-backs leave, every other buffer as entered
    (the table is only read). -/
def res0_2 (c : Dev nD) : (Proc.devRef .tc main_v5_0 : DevRef τ sig).ty.Contents (Elt F) := (d0 m ρ hO c).arrAt 2 (cfg0 (adm0 m ρ hO)).N
def res0_3 (c : Dev nD) : (Proc.devRef .tc main_v5_1 : DevRef τ sig).ty.Contents (Elt F) := (d0 m ρ hO c).arrAt 3 (cfg0 (adm0 m ρ hO)).N
def W2 (c : Dev nD) : Valuation τ sig (Elt F) :=
  Function.update (Function.update (W1 m ρ c) (Proc.devRef .tc main_v5_0) (res0_2 m ρ hO c))
    (Proc.devRef .tc main_v5_1) (res0_3 m ρ hO c)
theorem W2_v5_0 (c : Dev nD) : W2 m ρ hO c (Proc.devRef .tc main_v5_0) = (d0 m ρ hO c).arrAt 2 (cfg0 (adm0 m ρ hO)).N := by
  unfold W2; rw [Function.update_of_ne (by decide), Function.update_self]; rfl
theorem W2_v5_1 (c : Dev nD) : W2 m ρ hO c (Proc.devRef .tc main_v5_1) = (d0 m ρ hO c).arrAt 3 (cfg0 (adm0 m ρ hO)).N := by
  unfold W2; rw [Function.update_self]; rfl
theorem W2_of_ne (c : Dev nD) (b : Ref sig .tc) (h0 : b ≠ main_v5_0) (h1 : b ≠ main_v5_1) :
    W2 m ρ hO c (Proc.devRef .tc b) = W1 m ρ c (Proc.devRef .tc b) := by
  unfold W2
  rw [Function.update_of_ne (StableHlo.devRef_ne_of_ne h1), Function.update_of_ne (StableHlo.devRef_ne_of_ne h0)]
/-- The same read at the TensorCore's references. -/
abbrev V2 : (c : Dev nD) → (b : Ref sig .tc) → Buf (Elt F) ((c : Thread nD τ).loc b) := fun c b => W2 m ρ hO c b

/-- After the second host stretch (the head region's entry). -/
abbrev W3 : Dev nD → Valuation τ sig (Elt F) := fun c => StableHlo.after hostOps1 (W2 m ρ hO c)
abbrev V3 : (c : Dev nD) → (b : Ref sig .tc) → Buf (Elt F) ((c : Thread nD τ).loc b) := fun c b => W3 m ρ hO c b
/-- At the head region's exit: its arrays at what the pipeline leaves, every other buffer as entered. -/
def W4 (c : Dev nD) : Valuation τ sig (Elt F) :=
  Pipeline.withArrays spec1 c (W3 m ρ hO c) fun w => (dat1 (V3 m ρ hO) c).arrAt w cfg1.N
theorem W4_arr (c : Dev nD) (w : Fin cfg1.W) :
    W4 m ρ hO c (Proc.devRef .tc (Pipeline.arrRef spec1 w)) = (dat1 (V3 m ρ hO) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ hO c (Proc.devRef .tc b) = W3 m ρ hO c (Proc.devRef .tc b) := by
  unfold W4; exact Pipeline.withArrays_of_ne spec1 c _ _ b hb
abbrev V4 : (c : Dev nD) → (b : Ref sig .tc) → Buf (Elt F) ((c : Thread nD τ).loc b) := fun c b => W4 m ρ hO c b
theorem hF1 (c : Dev nD) (w : Fin cfg1.W) : (dat1 (V3 m ρ hO) c).arrAt w cfg1.N = V4 m ρ hO c (Pipeline.arrRef spec1 w) :=
  (W4_arr m ρ hO c w).symm
theorem hrest1 (c : Dev nD) : ∀ b, b ∉ Finset.univ.image (Pipeline.arrRef spec1) → V4 m ρ hO c b = V3 m ρ hO c b :=
  fun b hb => W4_of_ne m ρ hO c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) (adm m ρ hO) p) c
  | ⟨0, _⟩ => fun c => d0 m ρ hO c
  | ⟨1, _⟩ => fun c => dat1 (V3 m ρ hO) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ hO c) ∗ ∃ r, prngReg c r)

end Cert.Kernel.Hand

end
-- ==== Proof.Bits.Run.lean ====
/-
  The run of the whole program: @main is four segments — the host operations that slice the token ids and reshape
  the table, the gather region, the two reshapes of its results, the head region — composed over the buffer contents
  at each boundary.  Stated under the one condition the gather needs: every row number the two prefetched tables
  hold lies inside the table (`Ok`).
-/
import proofs.«417286_j68719477196_2_alg».proof.Proof.Bits.RunDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m ρ)

/-! ## The regions as segments -/

set_option backward.isDefEq.respectTransparency.types false in
/-- THE HEAD REGION over the thread state: entered from every unscoped buffer at `W3`, left at `W4`. Its arrays are split
    out of the unscoped buffers and put back at the exit contents; the generator register goes into the invariant and
    comes out; nothing is owed. -/
def reg1 : Pipeline.RegionSeg (pcfgs (F := F)) (adm m ρ hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ hO) c).loose
  hwaits := Pipeline.hwaits_of_owed_zero _ _ _ _ L lv 1 fun _ _ => rfl
  pre c := iprop(StableHlo.held (c : Thread nD τ) (Pipeline.ucRefs τ sig) (W3 m ρ hO c) ∗ R c)
  post c := iprop(Tₙ m ρ hO c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ hO c)
  hentry c := by
    rw [Pipeline.ownSems0_none]
    have hsplit := Pipeline.arrays_of_unscopedBufs (p := 1) (pcfgs (F := F)) (adm m ρ hO) (pdats m ρ hO) (launch1 (F := F)).win (launch1 (F := F)).arr_whole c
      ((pdats m ρ hO 1 c).share_full fun _ => rfl) (V3 m ρ hO c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hO 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ hO) (Ix := Unit) (Name := ℕ) (U := UR sig nD τ) (Lvl := ℕ)
      (launch1 (F := F)).win (launch1 (F := F)).arr_whole c (pdats m ρ hO) ((pdats m ρ hO 1 c).share_full fun _ => rfl)
      (V3 m ρ hO c) (V4 m ρ hO c) ((pdats m ρ hO 1 c).arrAt · cfg1.N) (hF1 m ρ hO c) (hrest1 m ρ hO c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ### The gather region's arrays, one by one -/

/-- The three buffers behind the gather's four windows. -/
theorem arrImage0 : Finset.univ.image (Pipeline.arrRef spec0) = ({main_v4, main_v5_0, main_v5_1} : Finset (Ref sig .tc)) := by decide

/-- The gather pipeline's arrays, window by window: the table twice, at the two halves of the full share, and the two result arrays whole. -/
theorem arrays0_eq (c : Dev nD) (Fa : (w : Fin (cfg0 (adm0 m ρ hO)).W) → Buf (Elt F) (((cfg0 (adm0 m ρ hO)).win w).arr.view.loc (c : Thread nD τ))) :
    ((d0 m ρ hO c).arrays Fa : sProp 𝕄)
      = iprop((((c : Thread nD τ).loc main_v4) ↦{fullShare.left} Fa 0) ∗ (((c : Thread nD τ).loc main_v4) ↦{fullShare.right} Fa 1)
          ∗ (((c : Thread nD τ).loc main_v5_0) ↦{fullShare} Fa 2) ∗ (((c : Thread nD τ).loc main_v5_1) ↦{fullShare} Fa 3)) := by
  have hs : ∀ w : Fin 4, ((cfg0 (adm0 m ρ hO)).win w).arr.view.set = Finset.univ := fun w => (arr_whole0 w).set_eq_univ
  unfold Dat.arrays
  rw [bigSep_W0, hs 0, hs 2, hs 3]
  refine congrArg₂ _ ?_ (congrArg₂ _ ?_ (congrArg₂ _ ?_ ?_)) <;> rfl

/-- The buffers behind the arrays, each whole at contents `V`, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v4) ↦{fullShare} V main_v4) ∗ (((c : Thread nD τ).loc main_v5_0) ↦{fullShare} V main_v5_0)
          ∗ (((c : Thread nD τ).loc main_v5_1) ↦{fullShare} V main_v5_1)) := by
  unfold Pipeline.arrBufs
  rw [arrImage0, BI.bigSep_insert (by decide), BI.bigSep_insert (by decide), BI.bigSep_singleton]
  rfl

/-- A core's unscoped buffers at contents `W`: the three array buffers, the two tables, and the rest. -/
theorem held_split0 (a : (p : Fin 2) → (pcfgs (F := F) p).Adm) (c : Dev nD) (W : Valuation τ sig (Elt F)) :
    (StableHlo.held (c : Thread nD τ) (Pipeline.ucRefs τ sig) W : sProp 𝕄)
      = iprop(((((c : Thread nD τ).loc main_v4) ↦{fullShare} W main_v4) ∗ (((c : Thread nD τ).loc main_v5_0) ↦{fullShare} W main_v5_0)
            ∗ (((c : Thread nD τ).loc main_v5_1) ↦{fullShare} W main_v5_1))
          ∗ Pipeline.prefHeld pre0 c (fun _ => fullShare) (fun k => W (pre0.ref k))
          ∗ Pipeline.unscopedRestP pre0 spec0 c (fun b => W b)) := by
  rw [← Pipeline.unscopedBufs_held c W,
    Pipeline.unscopedBufs_split₀ (Pipeline.pin (pcfgs (F := F)) a) 0 (winFacts₀0).arr_unscoped c (fun b => W b)]
  show iprop((Pipeline.arrBufs (Ix := Unit) (Name := ℕ) (U := UR sig nD τ) (Lvl := ℕ) spec0 c (fun b => W b) : sProp 𝕄)
      ∗ Pipeline.unscopedRest (Ix := Unit) (Name := ℕ) (U := UR sig nD τ) (Lvl := ℕ) spec0 c (fun b => W b)) = _
  rw [Pipeline.unscopedRest_split preFacts0 c (fun b => W b), arrBufs0_eq]

/-- The two tables' contents at the gather's entry and at its exit are `tbl`, and the unscoped rest is untouched. -/
theorem pref_W1 (c : Dev nD) : (fun k => W1 m ρ c (pre0.ref k) : pre0.Contents (Elt F)) = tbl m ρ := funext fun k => V1_pre m ρ c k
theorem pref_W2 (c : Dev nD) : (fun k => W2 m ρ hO c (pre0.ref k) : pre0.Contents (Elt F)) = tbl m ρ := funext fun k =>
  (W2_of_ne m ρ hO c (pre0.ref k) (by revert k; decide) (by revert k; decide)).trans (V1_pre m ρ c k)
theorem restP_W2 (c : Dev nD) :
    (Pipeline.unscopedRestP (Ix := Unit) (Name := ℕ) (U := UR sig nD τ) (Lvl := ℕ) pre0 spec0 c (fun b => W2 m ρ hO c b) : sProp 𝕄)
      = Pipeline.unscopedRestP pre0 spec0 c (fun b => W1 m ρ c b) := by
  unfold Pipeline.unscopedRestP
  exact bigSep_congr fun b hb => by
    have hnot : b ∉ Finset.univ.image (Pipeline.arrRef spec0) := (Finset.mem_sdiff.mp (Finset.mem_sdiff.mp hb).1).2
    dsimp only
    rw [W2_of_ne m ρ hO c b (fun e => hnot (e ▸ Finset.mem_image.mpr ⟨2, Finset.mem_univ _, rfl⟩))
      (fun e => hnot (e ▸ Finset.mem_image.mpr ⟨3, Finset.mem_univ _, rfl⟩))]

set_option backward.isDefEq.respectTransparency.types false in
/-- THE GATHER REGION over the thread state: entered from every unscoped buffer at `W1`, left at `W2`. The table is
    split in two halves, one per input window, and made whole again at the exit; the two prefetched tables go into the
    invariant and come out; the generator register likewise; nothing is owed. -/
def reg0 : Pipeline.RegionSeg (pcfgs (F := F)) (adm m ρ hO) (pdats m ρ hO) () defs₀ 𝒱₀ L lv 0 where
  win := winFacts₀0
  block_pos := block_pos0
  stage_whole := stage_whole0
  K := PEmpty
  osem k := k.elim
  ho := Pipeline.OwnSemFacts.none _
  hbody c := (body_obligation0 (adm0 m ρ hO) (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ hO c) ∗ R c)
  X c := iprop(∃ r, prngReg c r)
  Y c := iprop((∃ r, prngReg c r) ∗ Pipeline.prefHeld pre0 c (fun _ => fullShare) (tbl m ρ))
  Z c := Pipeline.unscopedRestP (Ix := Unit) (Name := ℕ) (U := UR sig nD τ) (Lvl := ℕ) pre0 spec0 c (V1 m ρ c)
  hentry c := by
    rw [Pipeline.ownSems0_none, held_split0 (adm m ρ hO) c (W1 m ρ c), pref_W1]
    rw [show ((pdats m ρ hO 0 c).arrays ((pdats m ρ hO 0 c).arrAt · 0) : sProp 𝕄) = (d0 m ρ hO c).arrays ((d0 m ρ hO c).arrAt · 0) from rfl, arrays0_eq]
    iintro ⟨⟨⟨⟨H4, H50, H51⟩, Hpf, Hrest⟩, Hp, HO⟩, -, -⟩
    ihave H4' := (pointsTo_share (PosShare.mem_left_op_right fullShare)).1 $$ H4
    icases H4' with ⟨H4l, H4r⟩
    imodintro
    isplitl [H4l H4r H50 H51]
    · isplitl [H4l]; · iexact H4l
      isplitl [H4r]; · iexact H4r
      isplitl [H50]; · iexact H50
      iexact H51
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = iprop(Pipeline.ΦA spec0 c ∗ Pipeline.prefHeld pre0 c (fun _ => fullShare) (tbl m ρ)) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m ρ hO 0 c).Φ (Fin.last _) = iprop(Pipeline.ΦA spec0 c ∗ Pipeline.prefHeld pre0 c (fun _ => fullShare) (tbl m ρ)) from rfl]; unfold Pipeline.ΦA
    iintro ⟨⟨Hr, Hp⟩, Ht⟩
    isplitl [Hp Ht]
    · isplitl [Hp]; · iexact Hp
      iexact Ht
    isplitr; · iempintro
    iexact Hr
  hexit c := by
    have e0 : (d0 m ρ hO c).arrAt 0 (cfg0 (adm0 m ρ hO)).N = V1 m ρ c main_v4 := ((d0 m ρ hO c).arrAt_in 0 rfl _).trans (A_eq0 _ _ c 0)
    have e1 : (d0 m ρ hO c).arrAt 1 (cfg0 (adm0 m ρ hO)).N = V1 m ρ c main_v4 := ((d0 m ρ hO c).arrAt_in 1 rfl _).trans (A_eq0 _ _ c 1)
    rw [show ((pdats m ρ hO 0 c).arrays ((pdats m ρ hO 0 c).arrAt · (Pipeline.pin (pcfgs (F := F)) (adm m ρ hO) 0).N) : sProp 𝕄)
        = (d0 m ρ hO c).arrays ((d0 m ρ hO c).arrAt · (cfg0 (adm0 m ρ hO)).N) from rfl, arrays0_eq,
      held_split0 (adm m ρ hO) c (W2 m ρ hO c), pref_W2, restP_W2,
      W2_of_ne m ρ hO c main_v4 (by decide) (by decide), W2_v5_0, W2_v5_1, e0, e1]
    iintro ⟨⟨H4l, H4r, H50, H51⟩, HO, ⟨Hp, Hpf⟩, Hrest⟩
    ihave H4 := (pointsTo_share (PosShare.mem_left_op_right fullShare)).2 $$ [H4l H4r]
    · isplitl [H4l]; · iexact H4l
      iexact H4r
    imodintro
    isplitl [H4 H50 H51 Hpf Hrest]
    · isplitl [H4 H50 H51]
      · isplitl [H4]; · iexact H4
        isplitl [H50]; · iexact H50
        iexact H51
      isplitl [Hpf]; · iexact Hpf
      iexact Hrest
    isplitl [Hp]; · iexact Hp
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) (adm m ρ hO) (pdats m ρ hO) () defs₀ 𝒱₀ L lv) :=
  [ .host (hseg hostOps0 hostOps0_sub hostOps0_fresh (W0 m ρ)),
    .region (reg0 m ρ hO),
    .host (hseg hostOps1 hostOps1_sub hostOps1_fresh (W2 m ρ hO)),
    .region (reg1 m ρ hO) ]
/-- @main is the run of the segments. -/
theorem main_run (c : Dev nD) : main (F := F) c = Pipeline.Seg.run (segs m ρ hO) := (main_chain c).trans (by chain_rfl)

set_option backward.isDefEq.respectTransparency.types false in
/-- THE RUN: from any memory with zero counters, every weakly fair execution of @main terminates, nothing faulting, and every
    final state holds every unscoped buffer at the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ hO c b) :=
  Pipeline.θ_run_regions_kit (pcfgs (F := F)) (adm m ρ hO) (pdats m ρ hO) () (cellOf_inj (adm m ρ hO)) emb₁ defs₀ 𝒱₀ L lv m ρ main (segs m ρ hO)
    (fun c Q => by rw [main_run m ρ hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ hO)) (cellOf_inj (adm m ρ hO))) (Pipeline.launchToks (Pipeline.pin (pcfgs (F := F)) (adm m ρ hO)) (cellOf_inj (adm m ρ hO))))
    (hu₀ := by
      iintro Hu; imodintro
      isplitl [Hu]
      · iapply (show (ownU (initOf (Pipeline.cells (Pipeline.pin (pcfgs (F := F)) (adm m ρ hO)) (cellOf_inj (adm m ρ hO))) (Pipeline.launchToks (Pipeline.pin (pcfgs (F := F)) (adm m ρ hO)) (cellOf_inj (adm m ρ hO)))) : sProp 𝕄)
            ⊢ BI.own (emb₁ (initOf (Pipeline.cells (Pipeline.pin (pcfgs (F := F)) (adm m ρ hO)) (cellOf_inj (adm m ρ hO))) (Pipeline.launchToks (Pipeline.pin (pcfgs (F := F)) (adm m ρ hO)) (cellOf_inj (adm m ρ hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hO)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ hO c) s')
      isplitl [Hh] <;> iassumption)
    (hQ := fun s h c => h c)

end Cert.Kernel.Hand

end
-- ==== Proof.Bits.HostReads.lean ====
/-
  What the host operations around the two kernel regions leave in the buffers, read back. Before the gather region:
  the two prefetched tables are columns 2047 and 0 of the token ids, flattened to vectors, so entry b of a table is the
  token id at (b, 2047), resp. (b, 0); the gather's source is the embedding table with a unit axis inserted. Token ids
  below 50257 make every row number the gather's index maps read lie inside that 50257-row array. After the gather
  region: the two gathered 128 × 1 × 128 arrays reshaped to 128 × 128. No segment writes an argument, so each argument
  is as launched when the head region is entered.
-/
import proofs.«417286_j68719477196_2_alg».proof.Proof.Bits.RunDefs
import Idealize.ShloMosaic.Lib.StableHlo.Run
import Idealize.ShloMosaic.Lib.ValueIdx
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.StableHlo Idealize.ShloMosaic.ValueIdx
open Idealize.SL.Sem

variable {F : FTy → Type} [FloatOps F]

variable (m : (ℓ : Loc nD τ sig) → Buf (Elt F) ℓ) (ρ : Dev nD → PrngReg)

/-! ## The first host stretch: the tables and the reshaped embedding table -/

/-- The gather's source array is the embedding table with a unit axis inserted. -/
theorem V1_main_v4 (c : Dev nD) :
    V1 m ρ c main_v4 = shapeCast S50257x1x128 (m ((c : Thread nD τ).loc main_arg1)) shapeCasts_S50257x128_S50257x1x128 := by
  show StableHlo.after hostOps0 (W0 m ρ c) (Proc.devRef .tc main_v4) = _
  after_results
  rfl

/-- The token ids are as launched when the gather region is entered. -/
theorem V1_main_arg0 (c : Dev nD) : V1 m ρ c main_arg0 = m ((c : Thread nD τ).loc main_arg0) :=
  (StableHlo.after_of_writes_sub hostOps0 _ hostOps0_writes (by decide)).trans rfl

/-- Table 0 is column 2047 of the token ids, as a vector. -/
theorem tbl_last :
    (tbl m ρ 0 : S128.Idx → BitVec 32)
      = shapeCast S128 (extractStridedSlice S128x1 ![0, 2047] (m (((0 : Dev nD) : Thread nD τ).loc main_arg0)) slices_S128x2048_S128x1_0_2047) shapeCasts_S128x1_S128 := by
  show StableHlo.after hostOps0 (W0 m ρ (0 : Dev nD)) (Proc.devRef .tc main_v1) = _
  after_results
  rfl

/-- Table 1 is column 0 of the token ids, as a vector. -/
theorem tbl_first :
    (tbl m ρ 1 : S128.Idx → BitVec 32)
      = shapeCast S128 (extractStridedSlice S128x1 ![0, 0] (m (((0 : Dev nD) : Thread nD τ).loc main_arg0)) slices_S128x2048_S128x1_0_0) shapeCasts_S128x1_S128 := by
  show StableHlo.after hostOps0 (W0 m ρ (0 : Dev nD)) (Proc.devRef .tc main_v3) = _
  after_results
  rfl

/-- A column of a [128, 2048] array, sliced out and flattened, read at b: the array at (b, col). -/
theorem col_apply {α : Type} (x : S128x2048.Idx → α) (col : Fin 2048) (hs : S128x2048.Slices ![0, col.val] S128x1) (b : Fin 128) :
    shapeCast S128 (extractStridedSlice S128x1 ![0, col.val] x hs) shapeCasts_S128x1_S128 (ix1 b) = x (ix2 b col) := by
  rw [shapeCast_apply _ shapeCasts_S128x1_S128 (ix1 b) (ix2 b (0 : Fin 1)) (by
    rewrite [Shape.rowMajor_val_two, Shape.rowMajor_val_one]
    show b.val * 1 + 0 = b.val
    omega)]
  exact extractStridedSlice_apply _ _ hs (ix2 b (0 : Fin 1)) (ix2 b col) (fun a => match a with
    | ⟨0, _⟩ => by show b.val = 0 + b.val; omega
    | ⟨1, _⟩ => by show col.val = col.val + 0; omega)

theorem tbl_last_apply (b : Fin 128) :
    (tbl m ρ 0 : S128.Idx → BitVec 32) (ix1 b) = m (((0 : Dev nD) : Thread nD τ).loc main_arg0) (ix2 b ⟨2047, by decide⟩) := by
  rw [tbl_last]
  exact col_apply _ ⟨2047, by decide⟩ slices_S128x2048_S128x1_0_2047 b

theorem tbl_first_apply (b : Fin 128) :
    (tbl m ρ 1 : S128.Idx → BitVec 32) (ix1 b) = m (((0 : Dev nD) : Thread nD τ).loc main_arg0) (ix2 b ⟨0, by decide⟩) := by
  rw [tbl_first]
  exact col_apply _ ⟨0, by decide⟩ slices_S128x2048_S128x1_0_0 b

/-! ## The tables' row numbers are inside the embedding table -/

/-- For any contents of the two tables whose every word is below 50257: at every grid point each gather window's block,
    one row (n, 0, 0) of shape 1 × 1 × 128 in the 50257 × 1 × 128 array, lies inside it, and the element type is a word wide. -/
theorem ok0_of_lt (pf : pre0.Contents (Elt F))
    (h0 : ∀ j : S128.Idx, ((pf 0 : S128.Idx → BitVec 32) j).toNat < 50257)
    (h1 : ∀ j : S128.Idx, ((pf 1 : S128.Idx → BitVec 32) j).toNat < 50257) : ok0 pf := by
  have key : ∀ n : Nat, n < 50257 → (n + 1) * 1 ≤ 50257 := fun n h => by omega
  unfold ok0
  refine ⟨fun i => ⟨fun a => ?_, .inl rfl⟩, fun i => ⟨fun a => ?_, .inl rfl⟩⟩
  · match a with
    | ⟨0, _⟩ => exact key _ (h0 _)
    | ⟨1, _⟩ => show ((0#32 : BitVec 32).toNat + 1) * 1 ≤ 1; decide
    | ⟨2, _⟩ => show ((0#32 : BitVec 32).toNat + 1) * 128 ≤ 128; decide
  · match a with
    | ⟨0, _⟩ => exact key _ (h1 _)
    | ⟨1, _⟩ => show ((0#32 : BitVec 32).toNat + 1) * 1 ≤ 1; decide
    | ⟨2, _⟩ => show ((0#32 : BitVec 32).toNat + 1) * 128 ≤ 128; decide

theorem ok_of_range (hr : ∀ i, (m (((0 : Dev nD) : Thread nD τ).loc main_arg0) i).toNat < 50257) : Ok m ρ :=
  ok0_of_lt (tbl m ρ)
    (fun j => by
      have e : (tbl m ρ 0 : S128.Idx → BitVec 32) j = _ :=
        (congrArg (tbl m ρ 0 : S128.Idx → BitVec 32) (eq_ix1 j)).trans (tbl_last_apply m ρ (j 0))
      rw [e]; exact hr _)
    (fun j => by
      have e : (tbl m ρ 1 : S128.Idx → BitVec 32) j = _ :=
        (congrArg (tbl m ρ 1 : S128.Idx → BitVec 32) (eq_ix1 j)).trans (tbl_first_apply m ρ (j 0))
      rw [e]; exact hr _)

/-! ## The second host stretch: the gathered rows as matrices; no segment writes an argument -/

variable (hO : Ok m ρ)

theorem V3_main_v6 (c : Dev nD) :
    V3 m ρ hO c main_v6 = shapeCast S128x128 (V2 m ρ hO c main_v5_0) shapeCasts_S128x1x128_S128x128 := by
  show StableHlo.after hostOps1 (W2 m ρ hO c) (Proc.devRef .tc main_v6) = _
  after_results
  rfl

theorem V3_main_v7 (c : Dev nD) :
    V3 m ρ hO c main_v7 = shapeCast S128x128 (V2 m ρ hO c main_v5_1) shapeCasts_S128x1x128_S128x128 := by
  show StableHlo.after hostOps1 (W2 m ρ hO c) (Proc.devRef .tc main_v7) = _
  after_results
  rfl

theorem V3_main_arg0 (c : Dev nD) : V3 m ρ hO c main_arg0 = m ((c : Thread nD τ).loc main_arg0) :=
  (StableHlo.after_of_writes_sub hostOps1 _ hostOps1_writes (by decide)).trans <|
    (W2_of_ne m ρ hO c main_arg0 (by decide) (by decide)).trans <|
      (StableHlo.after_of_writes_sub hostOps0 _ hostOps0_writes (by decide)).trans rfl
theorem V3_main_arg1 (c : Dev nD) : V3 m ρ hO c main_arg1 = m ((c : Thread nD τ).loc main_arg1) :=
  (StableHlo.after_of_writes_sub hostOps1 _ hostOps1_writes (by decide)).trans <|
    (W2_of_ne m ρ hO c main_arg1 (by decide) (by decide)).trans <|
      (StableHlo.after_of_writes_sub hostOps0 _ hostOps0_writes (by decide)).trans rfl
theorem V3_main_arg2 (c : Dev nD) : V3 m ρ hO c main_arg2 = m ((c : Thread nD τ).loc main_arg2) :=
  (StableHlo.after_of_writes_sub hostOps1 _ hostOps1_writes (by decide)).trans <|
    (W2_of_ne m ρ hO c main_arg2 (by decide) (by decide)).trans <|
      (StableHlo.after_of_writes_sub hostOps0 _ hostOps0_writes (by decide)).trans rfl
theorem V3_main_arg3 (c : Dev nD) : V3 m ρ hO c main_arg3 = m ((c : Thread nD τ).loc main_arg3) :=
  (StableHlo.after_of_writes_sub hostOps1 _ hostOps1_writes (by decide)).trans <|
    (W2_of_ne m ρ hO c main_arg3 (by decide) (by decide)).trans <|
      (StableHlo.after_of_writes_sub hostOps0 _ hostOps0_writes (by decide)).trans rfl
theorem V3_main_arg4 (c : Dev nD) : V3 m ρ hO c main_arg4 = m ((c : Thread nD τ).loc main_arg4) :=
  (StableHlo.after_of_writes_sub hostOps1 _ hostOps1_writes (by decide)).trans <|
    (W2_of_ne m ρ hO c main_arg4 (by decide) (by decide)).trans <|
      (StableHlo.after_of_writes_sub hostOps0 _ hostOps0_writes (by decide)).trans rfl
theorem V3_main_arg5 (c : Dev nD) : V3 m ρ hO c main_arg5 = m ((c : Thread nD τ).loc main_arg5) :=
  (StableHlo.after_of_writes_sub hostOps1 _ hostOps1_writes (by decide)).trans <|
    (W2_of_ne m ρ hO c main_arg5 (by decide) (by decide)).trans <|
      (StableHlo.after_of_writes_sub hostOps0 _ hostOps0_writes (by decide)).trans rfl
theorem V3_main_arg6 (c : Dev nD) : V3 m ρ hO c main_arg6 = m ((c : Thread nD τ).loc main_arg6) :=
  (StableHlo.after_of_writes_sub hostOps1 _ hostOps1_writes (by decide)).trans <|
    (W2_of_ne m ρ hO c main_arg6 (by decide) (by decide)).trans <|
      (StableHlo.after_of_writes_sub hostOps0 _ hostOps0_writes (by decide)).trans rfl
theorem V3_main_arg7 (c : Dev nD) : V3 m ρ hO c main_arg7 = m ((c : Thread nD τ).loc main_arg7) :=
  (StableHlo.after_of_writes_sub hostOps1 _ hostOps1_writes (by decide)).trans <|
    (W2_of_ne m ρ hO c main_arg7 (by decide) (by decide)).trans <|
      (StableHlo.after_of_writes_sub hostOps0 _ hostOps0_writes (by decide)).trans rfl
theorem V3_main_arg8 (c : Dev nD) : V3 m ρ hO c main_arg8 = m ((c : Thread nD τ).loc main_arg8) :=
  (StableHlo.after_of_writes_sub hostOps1 _ hostOps1_writes (by decide)).trans <|
    (W2_of_ne m ρ hO c main_arg8 (by decide) (by decide)).trans <|
      (StableHlo.after_of_writes_sub hostOps0 _ hostOps0_writes (by decide)).trans rfl
theorem V3_main_arg9 (c : Dev nD) : V3 m ρ hO c main_arg9 = m ((c : Thread nD τ).loc main_arg9) :=
  (StableHlo.after_of_writes_sub hostOps1 _ hostOps1_writes (by decide)).trans <|
    (W2_of_ne m ρ hO c main_arg9 (by decide) (by decide)).trans <|
      (StableHlo.after_of_writes_sub hostOps0 _ hostOps0_writes (by decide)).trans rfl
theorem V3_main_arg10 (c : Dev nD) : V3 m ρ hO c main_arg10 = m ((c : Thread nD τ).loc main_arg10) :=
  (StableHlo.after_of_writes_sub hostOps1 _ hostOps1_writes (by decide)).trans <|
    (W2_of_ne m ρ hO c main_arg10 (by decide) (by decide)).trans <|
      (StableHlo.after_of_writes_sub hostOps0 _ hostOps0_writes (by decide)).trans rfl
theorem V3_main_arg11 (c : Dev nD) : V3 m ρ hO c main_arg11 = m ((c : Thread nD τ).loc main_arg11) :=
  (StableHlo.after_of_writes_sub hostOps1 _ hostOps1_writes (by decide)).trans <|
    (W2_of_ne m ρ hO c main_arg11 (by decide) (by decide)).trans <|
      (StableHlo.after_of_writes_sub hostOps0 _ hostOps0_writes (by decide)).trans rfl

end Cert.Kernel.Hand

end
-- ==== Proof.Bits.RunFrame.lean ====
/-
  What the run leaves: every argument array as launched (no host operation and no region writes one: the gather reads
  the table, the head region reads its operands through input windows), and the result array at what the head
  pipeline's one write-back leaves.
-/
import proofs.«417286_j68719477196_2_alg».proof.Proof.Bits.Run
import proofs.«417286_j68719477196_2_alg».proof.Proof.Bits.HostReads

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m ρ)

/-! ## The arguments at the last boundary -/
theorem W4_main_arg0 (c : Dev nD) : W4 m ρ hO c (Proc.devRef .tc main_arg0) = m ((c : Thread nD τ).loc main_arg0) :=
  (W4_of_ne m ρ hO c main_arg0 (by decide)).trans (V3_main_arg0 m ρ hO c)
theorem W4_main_arg1 (c : Dev nD) : W4 m ρ hO c (Proc.devRef .tc main_arg1) = m ((c : Thread nD τ).loc main_arg1) :=
  (W4_of_ne m ρ hO c main_arg1 (by decide)).trans (V3_main_arg1 m ρ hO c)
theorem W4_main_arg2 (c : Dev nD) : W4 m ρ hO c (Proc.devRef .tc main_arg2) = m ((c : Thread nD τ).loc main_arg2) :=
  (W4_arr m ρ hO c 2).trans (((dat1 (V3 m ρ hO) c).arrAt_in 2 rfl _).trans ((A_eq1 (V3 m ρ hO) c 2).trans (V3_main_arg2 m ρ hO c)))
theorem W4_main_arg3 (c : Dev nD) : W4 m ρ hO c (Proc.devRef .tc main_arg3) = m ((c : Thread nD τ).loc main_arg3) :=
  (W4_arr m ρ hO c 3).trans (((dat1 (V3 m ρ hO) c).arrAt_in 3 rfl _).trans ((A_eq1 (V3 m ρ hO) c 3).trans (V3_main_arg3 m ρ hO c)))
theorem W4_main_arg4 (c : Dev nD) : W4 m ρ hO c (Proc.devRef .tc main_arg4) = m ((c : Thread nD τ).loc main_arg4) :=
  (W4_of_ne m ρ hO c main_arg4 (by decide)).trans (V3_main_arg4 m ρ hO c)
theorem W4_main_arg5 (c : Dev nD) : W4 m ρ hO c (Proc.devRef .tc main_arg5) = m ((c : Thread nD τ).loc main_arg5) :=
  (W4_arr m ρ hO c 4).trans (((dat1 (V3 m ρ hO) c).arrAt_in 4 rfl _).trans ((A_eq1 (V3 m ρ hO) c 4).trans (V3_main_arg5 m ρ hO c)))
theorem W4_main_arg6 (c : Dev nD) : W4 m ρ hO c (Proc.devRef .tc main_arg6) = m ((c : Thread nD τ).loc main_arg6) :=
  (W4_arr m ρ hO c 5).trans (((dat1 (V3 m ρ hO) c).arrAt_in 5 rfl _).trans ((A_eq1 (V3 m ρ hO) c 5).trans (V3_main_arg6 m ρ hO c)))
theorem W4_main_arg7 (c : Dev nD) : W4 m ρ hO c (Proc.devRef .tc main_arg7) = m ((c : Thread nD τ).loc main_arg7) :=
  (W4_arr m ρ hO c 6).trans (((dat1 (V3 m ρ hO) c).arrAt_in 6 rfl _).trans ((A_eq1 (V3 m ρ hO) c 6).trans (V3_main_arg7 m ρ hO c)))
theorem W4_main_arg8 (c : Dev nD) : W4 m ρ hO c (Proc.devRef .tc main_arg8) = m ((c : Thread nD τ).loc main_arg8) :=
  (W4_of_ne m ρ hO c main_arg8 (by decide)).trans (V3_main_arg8 m ρ hO c)
theorem W4_main_arg9 (c : Dev nD) : W4 m ρ hO c (Proc.devRef .tc main_arg9) = m ((c : Thread nD τ).loc main_arg9) :=
  (W4_arr m ρ hO c 7).trans (((dat1 (V3 m ρ hO) c).arrAt_in 7 rfl _).trans ((A_eq1 (V3 m ρ hO) c 7).trans (V3_main_arg9 m ρ hO c)))
theorem W4_main_arg10 (c : Dev nD) : W4 m ρ hO c (Proc.devRef .tc main_arg10) = m ((c : Thread nD τ).loc main_arg10) :=
  (W4_arr m ρ hO c 8).trans (((dat1 (V3 m ρ hO) c).arrAt_in 8 rfl _).trans ((A_eq1 (V3 m ρ hO) c 8).trans (V3_main_arg10 m ρ hO c)))
theorem W4_main_arg11 (c : Dev nD) : W4 m ρ hO c (Proc.devRef .tc main_arg11) = m ((c : Thread nD τ).loc main_arg11) :=
  (W4_arr m ρ hO c 9).trans (((dat1 (V3 m ρ hO) c).arrAt_in 9 rfl _).trans ((A_eq1 (V3 m ρ hO) c 9).trans (V3_main_arg11 m ρ hO c)))

/-- The result array at the last boundary: what the head pipeline's write-back leaves. -/
theorem W4_main_v8 (c : Dev nD) : W4 m ρ hO c (Proc.devRef .tc main_v8) = (dat1 (V3 m ρ hO) c).arrAt 10 cfg1.N := W4_arr m ρ hO c 10

/-! ## The frame and the valued run -/

include hO in
/-- THE FRAME at any float instance: every weakly fair execution terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c _ (mem_uc main_arg0 (by decide))).trans (W4_main_arg0 m ρ hO c),
      (h c _ (mem_uc main_arg1 (by decide))).trans (W4_main_arg1 m ρ hO c),
      (h c _ (mem_uc main_arg2 (by decide))).trans (W4_main_arg2 m ρ hO c),
      (h c _ (mem_uc main_arg3 (by decide))).trans (W4_main_arg3 m ρ hO c),
      (h c _ (mem_uc main_arg4 (by decide))).trans (W4_main_arg4 m ρ hO c),
      (h c _ (mem_uc main_arg5 (by decide))).trans (W4_main_arg5 m ρ hO c),
      (h c _ (mem_uc main_arg6 (by decide))).trans (W4_main_arg6 m ρ hO c),
      (h c _ (mem_uc main_arg7 (by decide))).trans (W4_main_arg7 m ρ hO c),
      (h c _ (mem_uc main_arg8 (by decide))).trans (W4_main_arg8 m ρ hO c),
      (h c _ (mem_uc main_arg9 (by decide))).trans (W4_main_arg9 m ρ hO c),
      (h c _ (mem_uc main_arg10 (by decide))).trans (W4_main_arg10 m ρ hO c),
      (h c _ (mem_uc main_arg11 (by decide))).trans (W4_main_arg11 m ρ hO c)⟩) (run_main m ρ hO)

/-- THE VALUED RUN: moreover the result array ends at the head pipeline's write-back. -/
theorem run_value : θ_run defs (onTc (τ := τ) (main (F := F))) ⟨m, fun _ => 0, ρ⟩ (fun r => ∀ c : Dev nD,
      r.2.mem ((c.tc : Thread nD τ).loc main_v8) = W4 m ρ hO c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨h c _ (mem_uc main_v8 (by decide)), (h c _ (mem_uc main_arg0 (by decide))).trans (W4_main_arg0 m ρ hO c),
      (h c _ (mem_uc main_arg1 (by decide))).trans (W4_main_arg1 m ρ hO c),
      (h c _ (mem_uc main_arg2 (by decide))).trans (W4_main_arg2 m ρ hO c),
      (h c _ (mem_uc main_arg3 (by decide))).trans (W4_main_arg3 m ρ hO c),
      (h c _ (mem_uc main_arg4 (by decide))).trans (W4_main_arg4 m ρ hO c),
      (h c _ (mem_uc main_arg5 (by decide))).trans (W4_main_arg5 m ρ hO c),
      (h c _ (mem_uc main_arg6 (by decide))).trans (W4_main_arg6 m ρ hO c),
      (h c _ (mem_uc main_arg7 (by decide))).trans (W4_main_arg7 m ρ hO c),
      (h c _ (mem_uc main_arg8 (by decide))).trans (W4_main_arg8 m ρ hO c),
      (h c _ (mem_uc main_arg9 (by decide))).trans (W4_main_arg9 m ρ hO c),
      (h c _ (mem_uc main_arg10 (by decide))).trans (W4_main_arg10 m ρ hO c),
      (h c _ (mem_uc main_arg11 (by decide))).trans (W4_main_arg11 m ρ hO c)⟩) (run_main m ρ hO)

end Cert.Kernel.Hand

end
-- ==== Proof.GatherValue.lean ====
/-
  The value region 0 leaves: each of its two result arrays (128 × 1 × 128) as one function of the table (50257 × 1 × 128)
  as the region finds it and of the two prefetched tables of row numbers. At point t the pipeline fetches, for result k,
  the table's row whose number prefetched table k holds at t (the printed index map reads that word; the admissible
  contents' side condition puts the row inside the table), the body copies the block, and the write-back puts it at
  row t of the result. Row b of a result is written by point b alone, so the 128 blocks cover the array and the array
  ends holding, at (b, ·, j), the table at (row number k holds at b, 0, j). Everything is stated at a parameter for the
  region-entry contents and at admissible contents of the two prefetched tables, kept as variables throughout.
-/
import proofs.«417286_j68719477196_2_alg».proof.Proof.GatherBody
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (a0 : (pcfg0 (F := F)).Adm)
variable (V : (c : Dev nD) → (b : Ref sig .tc) → Buf (Elt F) ((c : Thread nD τ).loc b))

/-- The row number table k holds at batch row b, clamped only to make it a row of the table without a proof argument. -/
def rowOf (k : Fin 2) (b : Fin 128) : Fin 50257 :=
  ⟨min (match k with
      | ⟨0, _⟩ => ((a0.1 0 : S128.Idx → BitVec 32) (ix1 b)).toNat
      | ⟨1, _⟩ => ((a0.1 1 : S128.Idx → BitVec 32) (ix1 b)).toNat) 50256, by omega⟩

/-- The clamped row number, table by table. -/
theorem rowOf_val0 (b : Fin 128) : (rowOf a0 0 b).val = min ((a0.1 0 : S128.Idx → BitVec 32) (ix1 b)).toNat 50256 := rfl
theorem rowOf_val1 (b : Fin 128) : (rowOf a0 1 b).val = min ((a0.1 1 : S128.Idx → BitVec 32) (ix1 b)).toNat 50256 := rfl

/-! ## What the body leaves: a copy of each input block -/

theorem hz0 : (![0, 0, 0] : Fin 3 → Nat) = fun _ => 0 := funext fun a => by fin_cases a <;> rfl

/-- Each payload is a cast to its own shape: the loaded block itself. -/
theorem pay1_eq (v : Vec F S1x1x128 .f32) : k0_pay1 v = v := by unfold k0_pay1; exact shapeCast_self v _
theorem pay2_eq (v : Vec F S1x1x128 .f32) : k0_pay2 v = v := by unfold k0_pay2; exact shapeCast_self v _

/-- One store of the whole buffer, of the whole input block: the output buffer holds the input block. -/
theorem out0_2_eq (x : Vec F S1x1x128 .f32) : out0_2 x = x := by
  unfold out0_2
  rw [View.canon_unit_zero hz0]
  simp only [View.ld_unit_zero (S := S1x1x128) hz0]
  rw [pay1_eq]

theorem out0_3_eq (x : Vec F S1x1x128 .f32) : out0_3 x = x := by
  unfold out0_3
  rw [View.canon_unit_zero hz0]
  simp only [View.ld_unit_zero (S := S1x1x128) hz0]
  rw [pay2_eq]

/-! ## The grid: point t has coordinate t -/

theorem coords0 (t : Fin grid0.N) : ((grid0.coords t) 0).val = t.val := by
  have h : t.val < 128 := t.isLt
  show t.val / 1 % 128 = t.val
  omega

/-! ## The first result array -/

/-- The first index map on the row axis: the row number the first prefetched table holds at the grid coordinate. -/
theorem tr0_0 (i : grid0.Coords) :
    cc0_transform_0 k0_off1_inb numel1_S1 a0.1 i 0 = ((a0.1 0 : S128.Idx → BitVec 32) (ix1 ⟨(i 0).val, (i 0).isLt⟩)).toNat := by
  have hi : (i 0).val < 128 := (i 0).isLt
  unfold cc0_transform_0
  dsimp only
  show BitVec.toNat _ = _
  refine congrArg BitVec.toNat ?_
  show (a0.1 0 : S128.Idx → BitVec 32) _ = _
  refine congrArg (a0.1 0 : S128.Idx → BitVec 32) ?_
  funext a
  apply Fin.ext
  match a with
  | ⟨0, _⟩ =>
    show (BitVec.ofNat 32 (i 0).val).toNat + 1 * 0 = (i 0).val
    rw [BitVec.toNat_ofNat]
    omega

/-- The first input window's block index at point t is the printed index map at t's coordinates. -/
theorem index0_0 (t : Fin (cfg0 a0).N) :
    ((cfg0 a0).win 0).index t = cc0_transform_0 k0_off1_inb numel1_S1 a0.1 (grid0.coords t) := rfl

/-- On the row axis it is the row number the first table holds at t. -/
theorem index0_0_row (t : Fin (cfg0 a0).N) :
    ((cfg0 a0).win 0).index t (0 : Fin 3) = ((a0.1 0 : S128.Idx → BitVec 32) (ix1 (⟨t.val, t.isLt⟩ : Fin 128))).toNat :=
  (tr0_0 a0 (grid0.coords t)).trans
    (congrArg (fun b : Fin 128 => ((a0.1 0 : S128.Idx → BitVec 32) (ix1 b)).toNat) (Fin.ext (coords0 t)))

/-- That row number is inside the table: the admissible contents' side condition at t. -/
theorem row0_lt (t : Fin (cfg0 a0).N) : ((a0.1 0 : S128.Idx → BitVec 32) (ix1 (⟨t.val, t.isLt⟩ : Fin 128))).toNat < 50257 := by
  have h : (cc0_transform_0 k0_off1_inb numel1_S1 a0.1 (grid0.coords t) 0 + 1) * 1 ≤ 50257 := (a0.2.1 (grid0.coords t)).elim fun h _ => h 0
  have e := index0_0_row a0 t
  rw [index0_0] at e
  omega

/-- What the first result array ends holding: at (b, ·, j) the table's row the first prefetched table names at b, column j. -/
def G0_2 (c : Dev nD) : S128x1x128.Idx → F .f32 :=
  fun i => (V c main_v4 : S50257x1x128.Idx → F .f32) (ix3 (rowOf a0 0 (i 0)) (0 : Fin 1) (i 2))

/-- The first output window's block index on the row axis at point t is t. -/
theorem index0_2_row (t : Fin (cfg0 a0).N) : ((cfg0 a0).win 2).index t (0 : Fin 3) = t.val :=
  (congrArg (fun n : Nat => (BitVec.ofNat 32 n).toNat) (coords0 t)).trans (by
    have h : t.val < 128 := t.isLt
    show (BitVec.ofNat 32 t.val).toNat = t.val
    rw [BitVec.toNat_ofNat]; omega)

/-- What point t writes back is block t of that function: the fetched block is the named row of the table, the body
    copies it, and block t of the result is row t. -/
theorem flushed0_2 (c : Dev nD) (t : Fin (cfg0 a0).N) :
    (dat0 a0 V c).flushed 2 t = (((cfg0 a0).win 2).blk t).view.read (Elt F) (G0_2 a0 V c) := by
  show ((cfg0 a0).win 2).cut ((cfg0 a0).grid.coords t) ((dat0 a0 V c).after 2 t) = _
  rw [after0_2]
  refine (congrArg (((cfg0 a0).win 2).cut ((cfg0 a0).grid.coords t)) (out0_2_eq (iblk0 a0 V c 0 t))).trans ?_
  funext y
  show (V c main_v4 : S50257x1x128.Idx → F .f32) ((((cfg0 a0).win 0).blk t).view.emb y) = G0_2 a0 V c ((((cfg0 a0).win 2).blk t).view.emb y)
  have hr := row0_lt a0 t
  have e0 := index0_0_row a0 t
  have i1 : ((cfg0 a0).win 0).index t (1 : Fin 3) = 0 := rfl
  have i2 : ((cfg0 a0).win 0).index t (2 : Fin 3) = 0 := rfl
  have o0 := index0_2_row a0 t
  have o2 : ((cfg0 a0).win 2).index t (2 : Fin 3) = 0 := rfl
  have hy0 : (y (0 : Fin 3)).val < 1 := (y (0 : Fin 3)).isLt
  have hy1 : (y (1 : Fin 3)).val < 1 := (y (1 : Fin 3)).isLt
  have hy2 : (y (2 : Fin 3)).val < 128 := (y (2 : Fin 3)).isLt
  have he0 : ((((cfg0 a0).win 2).blk t).view.emb y (0 : Fin 3) : Fin 128) = (⟨t.val, t.isLt⟩ : Fin 128) := Fin.ext (by
    show ((cfg0 a0).win 2).index t (0 : Fin 3) * 1 + 1 * (y (0 : Fin 3)).val = t.val
    omega)
  have he2 : ((((cfg0 a0).win 2).blk t).view.emb y (2 : Fin 3) : Fin 128) = (⟨(y (2 : Fin 3)).val, hy2⟩ : Fin 128) := Fin.ext (by
    show ((cfg0 a0).win 2).index t (2 : Fin 3) * 128 + 1 * (y (2 : Fin 3)).val = (y (2 : Fin 3)).val
    omega)
  refine Eq.trans ?_ (congrArg₂ (fun p q : Fin 128 => (V c main_v4 : S50257x1x128.Idx → F .f32) (ix3 (rowOf a0 0 p) (0 : Fin 1) q)) he0 he2).symm
  refine congrArg (V c main_v4 : S50257x1x128.Idx → F .f32) ?_
  funext a
  apply Fin.ext
  match a with
  | ⟨0, _⟩ =>
    show ((cfg0 a0).win 0).index t (0 : Fin 3) * 1 + 1 * (y (0 : Fin 3)).val = min ((a0.1 0 : S128.Idx → BitVec 32) (ix1 (⟨t.val, t.isLt⟩ : Fin 128))).toNat 50256
    omega
  | ⟨1, _⟩ =>
    show ((cfg0 a0).win 0).index t (1 : Fin 3) * 1 + 1 * (y (1 : Fin 3)).val = 0
    omega
  | ⟨2, _⟩ =>
    show ((cfg0 a0).win 0).index t (2 : Fin 3) * 128 + 1 * (y (2 : Fin 3)).val = (y (2 : Fin 3)).val
    omega

/-- The first output window writes its block back at every point: the block index moves with the point. -/
theorem flush0_2 (t : Fin (cfg0 a0).N) : ((cfg0 a0).win 2).flush t = true := by
  unfold Window.flush
  rw [show ((cfg0 a0).win 2).isOut = true from rfl, Bool.true_and, Bool.or_eq_true, decide_eq_true_eq, decide_eq_true_eq]
  have ht : t.val < 128 := t.isLt
  by_cases h : t.val + 1 = 128
  · exact Or.inl h
  · refine Or.inr ⟨(by omega : t.val + 1 < 128), fun e => ?_⟩
    have e0 := congrFun e (0 : Fin 3)
    rw [index0_2_row, index0_2_row] at e0
    exact absurd e0 (by show t.val + 1 ≠ t.val; omega)

/-- An index of the first result array is in point t's block iff each coordinate is in the block's range on its axis. -/
theorem mem_blk0_2 (t : Fin (cfg0 a0).N) (i : S128x1x128.Idx) :
    i ∈ (((cfg0 a0).win 2).blk t).view.set ↔ ∀ a : Fin 3, ((cfg0 a0).win 2).index t a * S1x1x128.size a ≤ (i a).val ∧ (i a).val < ((cfg0 a0).win 2).index t a * S1x1x128.size a + S1x1x128.size a := by
  have h1 : (((cfg0 a0).win 2).blk t).view.set = (((cfg0 a0).win 2).rect t).set := View.set_slice_whole main_v5_0 _
  exact (iff_of_eq (congrArg (fun s => i ∈ s) h1)).trans Rect.mem_set_unit

/-- Row b of the first result array is written by point b. -/
theorem cover0_2 (i : S128x1x128.Idx) :
    ∃ t : Fin (cfg0 a0).N, ((cfg0 a0).win 2).flush t = true ∧ i ∈ (((cfg0 a0).win 2).blk t).view.set := by
  have h0 : (i 0).val < 128 := (i 0).isLt
  have h1 : (i 1).val < 1 := (i 1).isLt
  have h2 : (i 2).val < 128 := (i 2).isLt
  refine ⟨⟨(i 0).val, h0⟩, flush0_2 a0 _, ?_⟩
  rw [mem_blk0_2]
  have o0 : ((cfg0 a0).win 2).index ⟨(i 0).val, h0⟩ (0 : Fin 3) = (i 0).val := index0_2_row a0 ⟨(i 0).val, h0⟩
  have o1 : ((cfg0 a0).win 2).index ⟨(i 0).val, h0⟩ (1 : Fin 3) = 0 := rfl
  have o2 : ((cfg0 a0).win 2).index ⟨(i 0).val, h0⟩ (2 : Fin 3) = 0 := rfl
  intro a
  match a with
  | ⟨0, _⟩ => show ((cfg0 a0).win 2).index ⟨(i 0).val, h0⟩ (0 : Fin 3) * 1 ≤ (i 0).val ∧ (i 0).val < ((cfg0 a0).win 2).index ⟨(i 0).val, h0⟩ (0 : Fin 3) * 1 + 1; omega
  | ⟨1, _⟩ => show ((cfg0 a0).win 2).index ⟨(i 0).val, h0⟩ (1 : Fin 3) * 1 ≤ (i 1).val ∧ (i 1).val < ((cfg0 a0).win 2).index ⟨(i 0).val, h0⟩ (1 : Fin 3) * 1 + 1; omega
  | ⟨2, _⟩ => show ((cfg0 a0).win 2).index ⟨(i 0).val, h0⟩ (2 : Fin 3) * 128 ≤ (i 2).val ∧ (i 2).val < ((cfg0 a0).win 2).index ⟨(i 0).val, h0⟩ (2 : Fin 3) * 128 + 128; omega

/-- The first result array after the region, as one function of the table and the first prefetched table. -/
theorem final0_2_arr (c : Dev nD) : (dat0 a0 V c).arrAt 2 (cfg0 a0).N = G0_2 a0 V c :=
  (dat0 a0 V c).arrAt_eq_of_cover 2 (G0_2 a0 V c) (fun t _ => flushed0_2 a0 V c t) (cover0_2 a0)

/-- Entry (b, ·, j) of the first result is the table's row the first prefetched table names at b, column j. -/
theorem final0_2 (c : Dev nD) (b : Fin 128) (z : Fin 1) (j : Fin 128) :
    ((dat0 a0 V c).arrAt 2 (cfg0 a0).N : S128x1x128.Idx → F .f32) (ix3 b z j)
      = (V c main_v4 : S50257x1x128.Idx → F .f32) (ix3 (rowOf a0 0 b) (0 : Fin 1) j) := by
  rw [final0_2_arr]
  rfl

/-! ## The second result array -/

/-- The second index map on the row axis: the row number the second prefetched table holds at the grid coordinate. -/
theorem tr0_1 (i : grid0.Coords) :
    cc0_transform_1 k0_off1_inb numel1_S1 a0.1 i 0 = ((a0.1 1 : S128.Idx → BitVec 32) (ix1 ⟨(i 0).val, (i 0).isLt⟩)).toNat := by
  have hi : (i 0).val < 128 := (i 0).isLt
  unfold cc0_transform_1
  dsimp only
  show BitVec.toNat _ = _
  refine congrArg BitVec.toNat ?_
  show (a0.1 1 : S128.Idx → BitVec 32) _ = _
  refine congrArg (a0.1 1 : S128.Idx → BitVec 32) ?_
  funext a
  apply Fin.ext
  match a with
  | ⟨0, _⟩ =>
    show (BitVec.ofNat 32 (i 0).val).toNat + 1 * 0 = (i 0).val
    rw [BitVec.toNat_ofNat]
    omega

/-- The second input window's block index at point t is the printed index map at t's coordinates. -/
theorem index0_1 (t : Fin (cfg0 a0).N) :
    ((cfg0 a0).win 1).index t = cc0_transform_1 k0_off1_inb numel1_S1 a0.1 (grid0.coords t) := rfl

/-- On the row axis it is the row number the second table holds at t. -/
theorem index0_1_row (t : Fin (cfg0 a0).N) :
    ((cfg0 a0).win 1).index t (0 : Fin 3) = ((a0.1 1 : S128.Idx → BitVec 32) (ix1 (⟨t.val, t.isLt⟩ : Fin 128))).toNat :=
  (tr0_1 a0 (grid0.coords t)).trans
    (congrArg (fun b : Fin 128 => ((a0.1 1 : S128.Idx → BitVec 32) (ix1 b)).toNat) (Fin.ext (coords0 t)))

/-- That row number is inside the table: the admissible contents' side condition at t. -/
theorem row1_lt (t : Fin (cfg0 a0).N) : ((a0.1 1 : S128.Idx → BitVec 32) (ix1 (⟨t.val, t.isLt⟩ : Fin 128))).toNat < 50257 := by
  have h : (cc0_transform_1 k0_off1_inb numel1_S1 a0.1 (grid0.coords t) 0 + 1) * 1 ≤ 50257 := (a0.2.2 (grid0.coords t)).elim fun h _ => h 0
  have e := index0_1_row a0 t
  rw [index0_1] at e
  omega

/-- What the second result array ends holding: at (b, ·, j) the table's row the second prefetched table names at b, column j. -/
def G0_3 (c : Dev nD) : S128x1x128.Idx → F .f32 :=
  fun i => (V c main_v4 : S50257x1x128.Idx → F .f32) (ix3 (rowOf a0 1 (i 0)) (0 : Fin 1) (i 2))

/-- The second output window's block index on the row axis at point t is t. -/
theorem index0_3_row (t : Fin (cfg0 a0).N) : ((cfg0 a0).win 3).index t (0 : Fin 3) = t.val :=
  (congrArg (fun n : Nat => (BitVec.ofNat 32 n).toNat) (coords0 t)).trans (by
    have h : t.val < 128 := t.isLt
    show (BitVec.ofNat 32 t.val).toNat = t.val
    rw [BitVec.toNat_ofNat]; omega)

/-- What point t writes back is block t of that function: the fetched block is the named row of the table, the body
    copies it, and block t of the result is row t. -/
theorem flushed0_3 (c : Dev nD) (t : Fin (cfg0 a0).N) :
    (dat0 a0 V c).flushed 3 t = (((cfg0 a0).win 3).blk t).view.read (Elt F) (G0_3 a0 V c) := by
  show ((cfg0 a0).win 3).cut ((cfg0 a0).grid.coords t) ((dat0 a0 V c).after 3 t) = _
  rw [after0_3]
  refine (congrArg (((cfg0 a0).win 3).cut ((cfg0 a0).grid.coords t)) (out0_3_eq (iblk0 a0 V c 1 t))).trans ?_
  funext y
  show (V c main_v4 : S50257x1x128.Idx → F .f32) ((((cfg0 a0).win 1).blk t).view.emb y) = G0_3 a0 V c ((((cfg0 a0).win 3).blk t).view.emb y)
  have hr := row1_lt a0 t
  have e0 := index0_1_row a0 t
  have i1 : ((cfg0 a0).win 1).index t (1 : Fin 3) = 0 := rfl
  have i2 : ((cfg0 a0).win 1).index t (2 : Fin 3) = 0 := rfl
  have o0 := index0_3_row a0 t
  have o2 : ((cfg0 a0).win 3).index t (2 : Fin 3) = 0 := rfl
  have hy0 : (y (0 : Fin 3)).val < 1 := (y (0 : Fin 3)).isLt
  have hy1 : (y (1 : Fin 3)).val < 1 := (y (1 : Fin 3)).isLt
  have hy2 : (y (2 : Fin 3)).val < 128 := (y (2 : Fin 3)).isLt
  have he0 : ((((cfg0 a0).win 3).blk t).view.emb y (0 : Fin 3) : Fin 128) = (⟨t.val, t.isLt⟩ : Fin 128) := Fin.ext (by
    show ((cfg0 a0).win 3).index t (0 : Fin 3) * 1 + 1 * (y (0 : Fin 3)).val = t.val
    omega)
  have he2 : ((((cfg0 a0).win 3).blk t).view.emb y (2 : Fin 3) : Fin 128) = (⟨(y (2 : Fin 3)).val, hy2⟩ : Fin 128) := Fin.ext (by
    show ((cfg0 a0).win 3).index t (2 : Fin 3) * 128 + 1 * (y (2 : Fin 3)).val = (y (2 : Fin 3)).val
    omega)
  refine Eq.trans ?_ (congrArg₂ (fun p q : Fin 128 => (V c main_v4 : S50257x1x128.Idx → F .f32) (ix3 (rowOf a0 1 p) (0 : Fin 1) q)) he0 he2).symm
  refine congrArg (V c main_v4 : S50257x1x128.Idx → F .f32) ?_
  funext a
  apply Fin.ext
  match a with
  | ⟨0, _⟩ =>
    show ((cfg0 a0).win 1).index t (0 : Fin 3) * 1 + 1 * (y (0 : Fin 3)).val = min ((a0.1 1 : S128.Idx → BitVec 32) (ix1 (⟨t.val, t.isLt⟩ : Fin 128))).toNat 50256
    omega
  | ⟨1, _⟩ =>
    show ((cfg0 a0).win 1).index t (1 : Fin 3) * 1 + 1 * (y (1 : Fin 3)).val = 0
    omega
  | ⟨2, _⟩ =>
    show ((cfg0 a0).win 1).index t (2 : Fin 3) * 128 + 1 * (y (2 : Fin 3)).val = (y (2 : Fin 3)).val
    omega

/-- The second output window writes its block back at every point: the block index moves with the point. -/
theorem flush0_3 (t : Fin (cfg0 a0).N) : ((cfg0 a0).win 3).flush t = true := by
  unfold Window.flush
  rw [show ((cfg0 a0).win 3).isOut = true from rfl, Bool.true_and, Bool.or_eq_true, decide_eq_true_eq, decide_eq_true_eq]
  have ht : t.val < 128 := t.isLt
  by_cases h : t.val + 1 = 128
  · exact Or.inl h
  · refine Or.inr ⟨(by omega : t.val + 1 < 128), fun e => ?_⟩
    have e0 := congrFun e (0 : Fin 3)
    rw [index0_3_row, index0_3_row] at e0
    exact absurd e0 (by show t.val + 1 ≠ t.val; omega)

/-- An index of the second result array is in point t's block iff each coordinate is in the block's range on its axis. -/
theorem mem_blk0_3 (t : Fin (cfg0 a0).N) (i : S128x1x128.Idx) :
    i ∈ (((cfg0 a0).win 3).blk t).view.set ↔ ∀ a : Fin 3, ((cfg0 a0).win 3).index t a * S1x1x128.size a ≤ (i a).val ∧ (i a).val < ((cfg0 a0).win 3).index t a * S1x1x128.size a + S1x1x128.size a := by
  have h1 : (((cfg0 a0).win 3).blk t).view.set = (((cfg0 a0).win 3).rect t).set := View.set_slice_whole main_v5_1 _
  exact (iff_of_eq (congrArg (fun s => i ∈ s) h1)).trans Rect.mem_set_unit

/-- Row b of the second result array is written by point b. -/
theorem cover0_3 (i : S128x1x128.Idx) :
    ∃ t : Fin (cfg0 a0).N, ((cfg0 a0).win 3).flush t = true ∧ i ∈ (((cfg0 a0).win 3).blk t).view.set := by
  have h0 : (i 0).val < 128 := (i 0).isLt
  have h1 : (i 1).val < 1 := (i 1).isLt
  have h2 : (i 2).val < 128 := (i 2).isLt
  refine ⟨⟨(i 0).val, h0⟩, flush0_3 a0 _, ?_⟩
  rw [mem_blk0_3]
  have o0 : ((cfg0 a0).win 3).index ⟨(i 0).val, h0⟩ (0 : Fin 3) = (i 0).val := index0_3_row a0 ⟨(i 0).val, h0⟩
  have o1 : ((cfg0 a0).win 3).index ⟨(i 0).val, h0⟩ (1 : Fin 3) = 0 := rfl
  have o2 : ((cfg0 a0).win 3).index ⟨(i 0).val, h0⟩ (2 : Fin 3) = 0 := rfl
  intro a
  match a with
  | ⟨0, _⟩ => show ((cfg0 a0).win 3).index ⟨(i 0).val, h0⟩ (0 : Fin 3) * 1 ≤ (i 0).val ∧ (i 0).val < ((cfg0 a0).win 3).index ⟨(i 0).val, h0⟩ (0 : Fin 3) * 1 + 1; omega
  | ⟨1, _⟩ => show ((cfg0 a0).win 3).index ⟨(i 0).val, h0⟩ (1 : Fin 3) * 1 ≤ (i 1).val ∧ (i 1).val < ((cfg0 a0).win 3).index ⟨(i 0).val, h0⟩ (1 : Fin 3) * 1 + 1; omega
  | ⟨2, _⟩ => show ((cfg0 a0).win 3).index ⟨(i 0).val, h0⟩ (2 : Fin 3) * 128 ≤ (i 2).val ∧ (i 2).val < ((cfg0 a0).win 3).index ⟨(i 0).val, h0⟩ (2 : Fin 3) * 128 + 128; omega

/-- The second result array after the region, as one function of the table and the second prefetched table. -/
theorem final0_3_arr (c : Dev nD) : (dat0 a0 V c).arrAt 3 (cfg0 a0).N = G0_3 a0 V c :=
  (dat0 a0 V c).arrAt_eq_of_cover 3 (G0_3 a0 V c) (fun t _ => flushed0_3 a0 V c t) (cover0_3 a0)

/-- Entry (b, ·, j) of the second result is the table's row the second prefetched table names at b, column j. -/
theorem final0_3 (c : Dev nD) (b : Fin 128) (z : Fin 1) (j : Fin 128) :
    ((dat0 a0 V c).arrAt 3 (cfg0 a0).N : S128x1x128.Idx → F .f32) (ix3 b z j)
      = (V c main_v4 : S50257x1x128.Idx → F .f32) (ix3 (rowOf a0 1 b) (0 : Fin 1) j) := by
  rw [final0_3_arr]
  rfl

end Cert.KernelIdeal.Hand

end
-- ==== Proof.HeadDefs.lean ====
/-
  The two programs' head computation, cut into named pieces so that each piece's equality can be proved by itself.
  Reference side (any float instance): the gathered rows `rEL` / `rEF` (last and first token's embedding per batch row),
  the gate pre-activations `rGates x w bx bh = x · wᵀ + bx + bh`, one zero-state cell `rCell g = σ(g_o) · tanh (σ(g_i) · tanh g_g)`
  with σ spelt 1 / (1 + exp (-·)), the logits `rLogits hy why b = hy · whyᵀ + b` and the row-wise log-softmax `rLsm`
  in the form (x − max) − log Σ exp (x − max).  `res_eq`: the reference run's result term is their composition.
  Kernel side: the same pieces as the kernel body computes them — `kGates`, `kCell` (σ the logistic operation), `kLogits`,
  and `kLsm` in the form x − (log Σ exp (x − max) + max) — and the body's stored value as their composition.
-/
import proofs.«417286_j68719477196_2_alg».proof.Proof.Gen.KernelIdeal.Skeleton
import proofs.«417286_j68719477196_2_alg».proof.Proof.Gen.ReferenceIdeal.Run

noncomputable section

namespace Cert.Head.R

open Cert.ReferenceIdeal Cert.ReferenceIdeal.Gen Idealize.ShloMosaic Idealize.ShloMosaic.TcCoe Idealize.SL.Sem Idealize.ShloMosaic.StableHlo

variable {F : FTy → Type} [FloatOps F]

/-- Row `inputs[b, 2047]` of the table per batch row `b`, as the reference computes it (normalise a negative index, gather, slice, reshape). -/
def rEL (a0 : IVec S128x2048 32) (a1 : FVec F S50257x128 .f32) : FVec F S128x128 .f32 :=
  (shapeCast _ (extractStridedSlice S128x1x128 ![0, 2047, 0] (Host.gather gather_S50257x128_S128x2048x1_S128x2048x128_2_0_n_n_0_2_1128 a1 (broadcastInDim S128x2048x1 ![0, 1] bcast_S128x2048_S128x2048x1_0_1 (select (cmpi .slt a0 (broadcastInDim S128x2048 ![] bcast_S_S128x2048 (constantI S_ 32 0#32))) (addi a0 (broadcastInDim S128x2048 ![] bcast_S_S128x2048 (constantI S_ 32 50257#32))) a0))) slices_S128x2048x128_S128x1x128_0_2047_0) shapeCasts_S128x1x128_S128x128)

/-- Row `inputs[b, 0]` of the table per batch row `b`. -/
def rEF (a0 : IVec S128x2048 32) (a1 : FVec F S50257x128 .f32) : FVec F S128x128 .f32 :=
  (shapeCast _ (extractStridedSlice S128x1x128 ![0, 0, 0] (Host.gather gather_S50257x128_S128x2048x1_S128x2048x128_2_0_n_n_0_2_1128 a1 (broadcastInDim S128x2048x1 ![0, 1] bcast_S128x2048_S128x2048x1_0_1 (select (cmpi .slt a0 (broadcastInDim S128x2048 ![] bcast_S_S128x2048 (constantI S_ 32 0#32))) (addi a0 (broadcastInDim S128x2048 ![] bcast_S_S128x2048 (constantI S_ 32 50257#32))) a0))) slices_S128x2048x128_S128x1x128_0_0_0) shapeCasts_S128x1x128_S128x128)

/-- Gate pre-activations `x · wᵀ + bx + bh`. -/
def rGates (x : FVec F S128x128 .f32) (w : FVec F S1024x128 .f32) (bx bh : FVec F S1024 .f32) : FVec F S128x1024 .f32 :=
  (addf (addf (Host.dotGeneral dot_S128x128_S128x1024_S128x1024_1_0_0_1_n_n none x (transpose S128x1024 [1, 0] w transposes_S1024x128_S128x1024_1_0)) (broadcastInDim S128x1024 ![0, 1] bcast_S1x1024_S128x1024_0_1 (broadcastInDim S1x1024 ![1] bcast_S1024_S1x1024_1 bx))) (broadcastInDim S128x1024 ![0, 1] bcast_S1x1024_S128x1024_0_1 (broadcastInDim S1x1024 ![1] bcast_S1024_S1x1024_1 bh)))

/-- One zero-state cell from its gates: `σ(o) · tanh (σ(i) · tanh g)`, columns i = 0…255, g = 512…767, o = 768…1023. -/
def rCell (g : FVec F S128x1024 .f32) : FVec F S128x256 .f32 :=
  (mulf (Host.divf (broadcastInDim S128x256 ![] bcast_S_S128x256 (constant S_ .f32 0x3F800000#32)) (addf (broadcastInDim S128x256 ![] bcast_S_S128x256 (constant S_ .f32 0x3F800000#32)) (Host.exp (Host.negf (extractStridedSlice S128x256 ![0, 768] g slices_S128x1024_S128x256_0_768))))) (Host.tanh (mulf (Host.divf (broadcastInDim S128x256 ![] bcast_S_S128x256 (constant S_ .f32 0x3F800000#32)) (addf (broadcastInDim S128x256 ![] bcast_S_S128x256 (constant S_ .f32 0x3F800000#32)) (Host.exp (Host.negf (extractStridedSlice S128x256 ![0, 0] g slices_S128x1024_S128x256_0_0))))) (Host.tanh (extractStridedSlice S128x256 ![0, 512] g slices_S128x1024_S128x256_0_512)))))

/-- The output head `hy · whyᵀ + b`. -/
def rLogits (hy : FVec F S128x256 .f32) (why : FVec F S32x256 .f32) (by_ : FVec F S32 .f32) : FVec F S128x32 .f32 :=
  (addf (Host.dotGeneral dot_S128x256_S256x32_S128x32_1_0_0_1_n_n none hy (transpose S256x32 [1, 0] why transposes_S32x256_S256x32_1_0)) (broadcastInDim S128x32 ![0, 1] bcast_S1x32_S128x32_0_1 (broadcastInDim S1x32 ![1] bcast_S32_S1x32_1 by_)))

/-- Row-wise log-softmax, `(x − max x) − log Σ exp (x − max x)`. -/
def rLsm (x : FVec F S128x32 .f32) : FVec F S128x32 .f32 :=
  subf (subf x (broadcastInDim S128x32 ![0, 1] bcast_S128x1_S128x32_0_1 (broadcastInDim S128x1 ![0] bcast_S128_S128x1_0 (maximumf (broadcastInDim S128 ![] bcast_S_S128 (constant S_ .f32 0xFF800000#32)) (Host.reduce FloatOps.maximumf x (constant S_ .f32 0xFF800000#32) reducesTo_S128x32_S128_d1 h_S_))))) (broadcastInDim S128x32 ![0, 1] bcast_S128x1_S128x32_0_1 (Host.log (broadcastInDim S128x1 ![0] bcast_S128_S128x1_0 (Host.reduceAdd (Host.exp (subf x (broadcastInDim S128x32 ![0, 1] bcast_S128x1_S128x32_0_1 (broadcastInDim S128x1 ![0] bcast_S128_S128x1_0 (maximumf (broadcastInDim S128 ![] bcast_S_S128 (constant S_ .f32 0xFF800000#32)) (Host.reduce FloatOps.maximumf x (constant S_ .f32 0xFF800000#32) reducesTo_S128x32_S128_d1 h_S_)))))) (constant S_ .f32 0x00000000#32) reducesTo_S128x32_S128_d1 h_S_))))

set_option maxRecDepth 16384 in
/-- The reference run's result is the composition of the pieces. -/
theorem res_eq (m : (ℓ : Loc nD τ sig) → Buf (Elt F) ℓ) (c : Dev nD) :
    Cert.ReferenceIdeal.Value.res_main_v73 m c
      = rLsm (rLogits (addf
          (rCell (rGates (rEL (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg5))))
          (rCell (rGates (rEF (m ((c.tc : Thread nD τ).loc main_arg0)) (m ((c.tc : Thread nD τ).loc main_arg1))) (m ((c.tc : Thread nD τ).loc main_arg6)) (m ((c.tc : Thread nD τ).loc main_arg7)) (m ((c.tc : Thread nD τ).loc main_arg9)))))
          (m ((c.tc : Thread nD τ).loc main_arg10)) (m ((c.tc : Thread nD τ).loc main_arg11))) := by
  unfold Cert.ReferenceIdeal.Value.res_main_v73 rLsm rLogits rCell rGates rEL rEF
  rfl

end Cert.Head.R

namespace Cert.Head.K

open Cert.KernelIdeal Cert.KernelIdeal.Gen Idealize.ShloMosaic Idealize.SL.Sem

variable {F : FTy → Type} [FloatOps F]

/-- Gate pre-activations as the kernel computes them: the matrix unit's product of the (format-changed) operands onto zero, plus the two biases broadcast over rows. -/
def kGates (x : Vec F S128x128 .f32) (w : Vec F S1024x128 .f32) (bx bh : Vec F S1024 .f32) : FVec F S128x1024 .f32 :=
  addf (addf (matmul dot_S128x128_S1024x128_S128x1024_1_1_0_0_n_n none
      (truncf .bf16 (shapeCast S128x128 x shapeCasts_S128x128_S128x128) bitsLt_bf16_f32) (truncf .bf16 w bitsLt_bf16_f32) (constant S128x1024 .f32 0x00000000#32))
    (broadcastTo S128x1024 (shapeCast S1x1024 bx shapeCasts_S1024_S1x1024) broadcasts_S1x1024_S128x1024))
    (broadcastTo S128x1024 (shapeCast S1x1024 bh shapeCasts_S1024_S1x1024) broadcasts_S1x1024_S128x1024)

/-- One zero-state cell from its gates, σ the logistic operation. -/
def kCell (g : FVec F S128x1024 .f32) : FVec F S128x256 .f32 :=
  mulf (logistic (extractStridedSlice S128x256 ![0, 768] g slices_S128x1024_o0_768_S128x256))
    (tanh (mulf (logistic (extractStridedSlice S128x256 ![0, 0] g slices_S128x1024_o0_0_S128x256))
      (tanh (extractStridedSlice S128x256 ![0, 512] g slices_S128x1024_o0_512_S128x256))))

/-- The output head as the kernel computes it. -/
def kLogits (hy : FVec F S128x256 .f32) (why : Vec F S32x256 .f32) (by_ : Vec F S32 .f32) : FVec F S128x32 .f32 :=
  addf (matmul dot_S128x256_S32x256_S128x32_1_1_0_0_n_n none (truncf .bf16 hy bitsLt_bf16_f32) (truncf .bf16 why bitsLt_bf16_f32) (constant S128x32 .f32 0x00000000#32))
    (broadcastTo S128x32 (shapeCast S1x32 by_ shapeCasts_S32_S1x32) broadcasts_S1x32_S128x32)

/-- Row-wise log-softmax as the kernel computes it, `x − (log Σ exp (x − max x) + max x)`. -/
def kLsm (x : FVec F S128x32 .f32) : FVec F S128x32 .f32 :=
  have v57 : FVec F S128 .f32 := multiReduction .maximumf [1] S128 x 0xFF800000#32 reduces_S128x32_S128 (.inl rfl) rfl
  have v58 : FVec F S128x1 .f32 := shapeCast S128x1 v57 shapeCasts_S128_S128x1
  have v59 : FVec F S128x32 .f32 := broadcastTo S128x32 v58 broadcasts_S128x1_S128x32
  have v60 : FVec F S128x32 .f32 := subf x v59
  have v61 : FVec F S128x32 .f32 := exp v60
  have v62 : FVec F S128 .f32 := multiReduction .add [1] S128 v61 0x00000000#32 reduces_S128x32_S128 (.inl rfl) rfl
  have v63 : FVec F S128x1 .f32 := shapeCast S128x1 v62 shapeCasts_S128_S128x1
  have v64 : FVec F S128x1 .f32 := log v63
  have v65 : FVec F S128x1 .f32 := addf v64 v58
  have v66 : FVec F S128x32 .f32 := broadcastTo S128x32 v65 broadcasts_S128x1_S128x32
  subf x v66

/-- The value the head kernel stores, from the blocks it loads: the composition of the pieces. -/
theorem pay_eq (el ef : Vec F S128x128 .f32) (wxf wxb : Vec F S1024x128 .f32) (bxf bhf bxb bhb : Vec F S1024 .f32)
    (why : Vec F S32x256 .f32) (by_ : Vec F S32 .f32) :
    k1_pay1 (k1_pay3 ef wxb bxb bhb) (k1_pay4 el wxf bxf bhf) (k1_pay5 ef wxb bxb bhb) why by_
      = kLsm (kLogits (addf (kCell (kGates el wxf bxf bhf)) (kCell (kGates ef wxb bxb bhb))) why by_) := rfl

end Cert.Head.K

end
-- ==== Proof.HeadLayout.lean ====
/-
  The head's three pieces, kernel side against reference side, at the ideal values (floats are extended reals, a change of
  float format is the identity, the matrix unit's product onto zero and the host's dot_general are the same sum).
  • Gates: both sides are, at row b and column n, the sum over k of x (b, k) · w (n, k), plus bx n, plus bh n. The kernel
    contracts axis 1 of both operands; the reference contracts axis 1 of x with axis 0 of the transposed w. The biases reach
    (b, n) through a cast to one row and a broadcast over rows (kernel) or through two broadcasts (reference).
  • Cell: the logistic operation is 1 / (1 + exp (−·)) by definition, the constant 0x3F800000 denotes one, the hyperbolic
    tangent is one function on both sides, and the column slices agree.
  • Logits: as the gates with a 128×256 by (32×256)ᵀ product and one bias.
  No finiteness hypothesis is needed: every step is an identity of extended reals.
-/
import proofs.«417286_j68719477196_2_alg».proof.Proof.HeadDefs
import Idealize.ShloMosaic.Lib.Pipeline.Value
import Idealize.ShloMosaic.Lib.ValueIdx
import Idealize.ShloMosaic.Lib.ValueLayout
import Idealize.ShloMosaic.PureOps.Ideal.Laws

noncomputable section

namespace Cert.Head

open Idealize.ShloMosaic Idealize.ShloMosaic.ValueIdx Idealize.SL.Sem

/-! ## The gate pre-activations -/

section GatesKernel

open Cert.KernelIdeal

/-- The kernel's product, left operand, row axis: the output's row. -/
theorem klhs_gates_0 (i : S128x1024.Idx) (q : dot_S128x128_S1024x128_S128x1024_1_1_0_0_n_n.contr.Idx) :
    (dot_S128x128_S1024x128_S128x1024_1_1_0_0_n_n.lhsIdx i q 0).val = (i 0).val := by
  unfold DotDims.lhsIdx
  rw [dif_neg (show ¬(0 : Fin S128x128.rank) ∈ dot_S128x128_S1024x128_S128x1024_1_1_0_0_n_n.lhsBatch by decide), dif_pos (show (0 : Fin S128x128.rank) ∈ dot_S128x128_S1024x128_S128x1024_1_1_0_0_n_n.lhsNonContracting by decide)]
  rfl
/-- Left operand, column axis: the contraction position. -/
theorem klhs_gates_1 (i : S128x1024.Idx) (q : dot_S128x128_S1024x128_S128x1024_1_1_0_0_n_n.contr.Idx) :
    (dot_S128x128_S1024x128_S128x1024_1_1_0_0_n_n.lhsIdx i q 1).val = (q ⟨0, by decide⟩).val :=
  dot_S128x128_S1024x128_S128x1024_1_1_0_0_n_n.lhsIdx_val_of_single rfl i q
/-- Right operand, row axis: the output's column. -/
theorem krhs_gates_0 (i : S128x1024.Idx) (q : dot_S128x128_S1024x128_S128x1024_1_1_0_0_n_n.contr.Idx) :
    (dot_S128x128_S1024x128_S128x1024_1_1_0_0_n_n.rhsIdx i q 0).val = (i 1).val := by
  unfold DotDims.rhsIdx
  rw [dif_neg (show ¬(0 : Fin S1024x128.rank) ∈ dot_S128x128_S1024x128_S128x1024_1_1_0_0_n_n.rhsBatch by decide), dif_pos (show (0 : Fin S1024x128.rank) ∈ dot_S128x128_S1024x128_S128x1024_1_1_0_0_n_n.rhsNonContracting by decide)]
  rfl
/-- Right operand, column axis: the contraction position. -/
theorem krhs_gates_1 (i : S128x1024.Idx) (q : dot_S128x128_S1024x128_S128x1024_1_1_0_0_n_n.contr.Idx) :
    (dot_S128x128_S1024x128_S128x1024_1_1_0_0_n_n.rhsIdx i q 1).val = (q ⟨0, by decide⟩).val :=
  dot_S128x128_S1024x128_S128x1024_1_1_0_0_n_n.rhsIdx_val_of_single rfl i q

/-- The kernel's product onto zero at (b, n): the sum over k of left (b, k) times right (n, k). -/
theorem kmm_gates_apply (lhs : FVec Ideal S128x128 .bf16) (rhs : FVec Ideal S1024x128 .bf16) (b : Fin 128) (n : Fin 1024) :
    matmul dot_S128x128_S1024x128_S128x1024_1_1_0_0_n_n none lhs rhs (constant (F := Ideal) S128x1024 .f32 0x00000000#32) (ix2 b n)
      = ∑ k : Fin 128, lhs (ix2 b k) * rhs (ix2 n k) := by
  simp only [matmul]
  rw [Ideal.matmul_constant_zero_apply, ← Equiv.sum_comp (contrEquiv1 dot_S128x128_S1024x128_S128x1024_1_1_0_0_n_n 128 rfl rfl).symm]
  refine Finset.sum_congr rfl fun k _ => ?_
  have hk := contrEquiv1_symm_val dot_S128x128_S1024x128_S128x1024_1_1_0_0_n_n 128 rfl rfl k
  have el : dot_S128x128_S1024x128_S128x1024_1_1_0_0_n_n.lhsIdx (ix2 b n) ((contrEquiv1 dot_S128x128_S1024x128_S128x1024_1_1_0_0_n_n 128 rfl rfl).symm k) = ix2 b k := funext fun a => Fin.ext (by
    match a with
    | ⟨0, _⟩ => exact klhs_gates_0 _ _
    | ⟨1, _⟩ => exact (klhs_gates_1 _ _).trans hk)
  have er : dot_S128x128_S1024x128_S128x1024_1_1_0_0_n_n.rhsIdx (ix2 b n) ((contrEquiv1 dot_S128x128_S1024x128_S128x1024_1_1_0_0_n_n 128 rfl rfl).symm k) = ix2 n k := funext fun a => Fin.ext (by
    match a with
    | ⟨0, _⟩ => exact krhs_gates_0 _ _
    | ⟨1, _⟩ => exact (krhs_gates_1 _ _).trans hk)
  rw [el, er]

/-- A bias of 1024 entries, cast to one row and broadcast over the rows, reads its entry at the column. -/
theorem kbias_gates_apply (v : FVec Ideal S1024 .f32) (hc : S1024.ShapeCasts S1x1024) (hb : S1x1024.Broadcasts S128x1024) (b : Fin 128) (n : Fin 1024) :
    broadcastTo S128x1024 (shapeCast S1x1024 v hc) hb (ix2 b n) = v (ix1 n) := by
  rw [broadcastTo_1b_ab_apply, shapeCast_a_1a_apply]

/-- The kernel's gates at (b, n). -/
theorem kGates_apply (x : FVec Ideal S128x128 .f32) (w : FVec Ideal S1024x128 .f32) (bx bh : FVec Ideal S1024 .f32) (b : Fin 128) (n : Fin 1024) :
    K.kGates (F := Ideal) x w bx bh (ix2 b n) = (∑ k : Fin 128, x (ix2 b k) * w (ix2 n k)) + bx (ix1 n) + bh (ix1 n) := by
  unfold K.kGates
  rw [addf_apply, addf_apply, kmm_gates_apply, kbias_gates_apply, kbias_gates_apply, shapeCast_self]
  rfl

end GatesKernel

section GatesReference

open Cert.ReferenceIdeal

/-- The reference's product, left operand, row axis: the output's row. -/
theorem rlhs_gates_0 (i : S128x1024.Idx) (q : dot_S128x128_S128x1024_S128x1024_1_0_0_1_n_n.contr.Idx) :
    (dot_S128x128_S128x1024_S128x1024_1_0_0_1_n_n.lhsIdx i q 0).val = (i 0).val := by
  unfold DotDims.lhsIdx
  rw [dif_neg (show ¬(0 : Fin S128x128.rank) ∈ dot_S128x128_S128x1024_S128x1024_1_0_0_1_n_n.lhsBatch by decide), dif_pos (show (0 : Fin S128x128.rank) ∈ dot_S128x128_S128x1024_S128x1024_1_0_0_1_n_n.lhsNonContracting by decide)]
  rfl
/-- Left operand, column axis: the contraction position. -/
theorem rlhs_gates_1 (i : S128x1024.Idx) (q : dot_S128x128_S128x1024_S128x1024_1_0_0_1_n_n.contr.Idx) :
    (dot_S128x128_S128x1024_S128x1024_1_0_0_1_n_n.lhsIdx i q 1).val = (q ⟨0, by decide⟩).val :=
  dot_S128x128_S128x1024_S128x1024_1_0_0_1_n_n.lhsIdx_val_of_single rfl i q
/-- Right operand, row axis: the contraction position. -/
theorem rrhs_gates_0 (i : S128x1024.Idx) (q : dot_S128x128_S128x1024_S128x1024_1_0_0_1_n_n.contr.Idx) :
    (dot_S128x128_S128x1024_S128x1024_1_0_0_1_n_n.rhsIdx i q 0).val = (q ⟨0, by decide⟩).val :=
  dot_S128x128_S128x1024_S128x1024_1_0_0_1_n_n.rhsIdx_val_of_single rfl i q
/-- Right operand, column axis: the output's column. -/
theorem rrhs_gates_1 (i : S128x1024.Idx) (q : dot_S128x128_S128x1024_S128x1024_1_0_0_1_n_n.contr.Idx) :
    (dot_S128x128_S128x1024_S128x1024_1_0_0_1_n_n.rhsIdx i q 1).val = (i 1).val := by
  unfold DotDims.rhsIdx
  rw [dif_neg (show ¬(1 : Fin S128x1024.rank) ∈ dot_S128x128_S128x1024_S128x1024_1_0_0_1_n_n.rhsBatch by decide), dif_pos (show (1 : Fin S128x1024.rank) ∈ dot_S128x128_S128x1024_S128x1024_1_0_0_1_n_n.rhsNonContracting by decide)]
  rfl

/-- The reference's product at (b, n): the sum over k of left (b, k) times right (k, n). -/
theorem rdot_gates_apply (lhs : FVec Ideal S128x128 .f32) (rhs : FVec Ideal S128x1024 .f32) (b : Fin 128) (n : Fin 1024) :
    Host.dotGeneral dot_S128x128_S128x1024_S128x1024_1_0_0_1_n_n none lhs rhs (ix2 b n)
      = ∑ k : Fin 128, lhs (ix2 b k) * rhs (ix2 k n) := by
  simp only [Host.dotGeneral]
  rw [Ideal.dotGeneral_apply, ← Equiv.sum_comp (contrEquiv1 dot_S128x128_S128x1024_S128x1024_1_0_0_1_n_n 128 rfl rfl).symm]
  refine Finset.sum_congr rfl fun k _ => ?_
  have hk := contrEquiv1_symm_val dot_S128x128_S128x1024_S128x1024_1_0_0_1_n_n 128 rfl rfl k
  have el : dot_S128x128_S128x1024_S128x1024_1_0_0_1_n_n.lhsIdx (ix2 b n) ((contrEquiv1 dot_S128x128_S128x1024_S128x1024_1_0_0_1_n_n 128 rfl rfl).symm k) = ix2 b k := funext fun a => Fin.ext (by
    match a with
    | ⟨0, _⟩ => exact rlhs_gates_0 _ _
    | ⟨1, _⟩ => exact (rlhs_gates_1 _ _).trans hk)
  have er : dot_S128x128_S128x1024_S128x1024_1_0_0_1_n_n.rhsIdx (ix2 b n) ((contrEquiv1 dot_S128x128_S128x1024_S128x1024_1_0_0_1_n_n 128 rfl rfl).symm k) = ix2 k n := funext fun a => Fin.ext (by
    match a with
    | ⟨0, _⟩ => exact (rrhs_gates_0 _ _).trans hk
    | ⟨1, _⟩ => exact rrhs_gates_1 _ _)
  rw [el, er]

/-- A bias of 1024 entries, broadcast to one row and then over the rows, reads its entry at the column. -/
theorem rbias_gates_apply (v : FVec Ideal S1024 .f32) (h1 : S1024.BroadcastsInDim S1x1024 (![1] : Fin 1 → Fin S1x1024.rank))
    (h2 : S1x1024.BroadcastsInDim S128x1024 (![0, 1] : Fin 2 → Fin S128x1024.rank)) (b : Fin 128) (n : Fin 1024) :
    broadcastInDim S128x1024 ![0, 1] h2 (broadcastInDim S1x1024 ![1] h1 v) (ix2 b n) = v (ix1 n) := by
  refine (broadcastInDim_apply _ h2 _ (ix2 b n) (ix2 (0 : Fin 1) n) (fun a => match a with
    | ⟨0, _⟩ => by show 0 = if (1 : Nat) = 1 then 0 else b.val; rw [if_pos rfl]
    | ⟨1, _⟩ => by show n.val = if (1024 : Nat) = 1 then 0 else n.val; rw [if_neg (by decide)])).trans ?_
  exact broadcastInDim_apply _ h1 v (ix2 (0 : Fin 1) n) (ix1 n) (fun a => match a with
    | ⟨0, _⟩ => by show n.val = if (1024 : Nat) = 1 then 0 else n.val; rw [if_neg (by decide)])

/-- The reference's gates at (b, n). -/
theorem rGates_apply (x : FVec Ideal S128x128 .f32) (w : FVec Ideal S1024x128 .f32) (bx bh : FVec Ideal S1024 .f32) (b : Fin 128) (n : Fin 1024) :
    R.rGates (F := Ideal) x w bx bh (ix2 b n) = (∑ k : Fin 128, x (ix2 b k) * w (ix2 n k)) + bx (ix1 n) + bh (ix1 n) := by
  unfold R.rGates
  rw [addf_apply, addf_apply, rdot_gates_apply, rbias_gates_apply, rbias_gates_apply]
  refine congrArg (· + bx (ix1 n) + bh (ix1 n)) (Finset.sum_congr rfl fun k _ => ?_)
  exact congrArg (x (ix2 b k) * ·) (transpose_ix2_apply w _ k n)

end GatesReference

/-- The gate pre-activations: the kernel's and the reference's are the same function of the operands. -/
theorem gates_eq (x : FVec Ideal Cert.KernelIdeal.S128x128 .f32) (w : FVec Ideal Cert.KernelIdeal.S1024x128 .f32) (bx bh : FVec Ideal Cert.KernelIdeal.S1024 .f32) :
    K.kGates (F := Ideal) x w bx bh = R.rGates (F := Ideal) x w bx bh := by
  funext i
  obtain ⟨b, n, rfl⟩ : ∃ (b : Fin 128) (n : Fin 1024), i = ix2 b n := ⟨i 0, i 1, eq_ix2 i⟩
  rw [kGates_apply, rGates_apply]

/-! ## The cell -/

section Cell

/-- The bit pattern 0x3F800000 denotes the extended real one. -/
theorem one_f32 : Ideal.ofBits .f32 0x3F800000#32 = 1 := by
  simp [Ideal.ofBits, Ideal.ieee, -EReal.coe_mul]; norm_num

/-- The logistic operation is one over one plus the exponential of the negation, as the reference spells it. -/
theorem logistic_eq (v : FVec Ideal Cert.ReferenceIdeal.S128x256 .f32) :
    logistic v = Host.divf (broadcastInDim Cert.ReferenceIdeal.S128x256 ![] Cert.ReferenceIdeal.Facts₀.bcast_S_S128x256 (constant (F := Ideal) Cert.ReferenceIdeal.S_ .f32 0x3F800000#32))
      (addf (broadcastInDim Cert.ReferenceIdeal.S128x256 ![] Cert.ReferenceIdeal.Facts₀.bcast_S_S128x256 (constant (F := Ideal) Cert.ReferenceIdeal.S_ .f32 0x3F800000#32))
        (Host.exp (Host.negf v))) := by
  funext i
  show Ideal.div 1 (1 + Ideal.exp (-(v i))) = Ideal.div (Ideal.ofBits .f32 0x3F800000#32) (Ideal.ofBits .f32 0x3F800000#32 + Ideal.exp (-(v i)))
  rw [one_f32]

/-- The hyperbolic tangent is one function on the two sides. -/
theorem tanh_eq (v : FVec Ideal Cert.ReferenceIdeal.S128x256 .f32) : tanh v = Host.tanh v := rfl

/-- One zero-state cell: the two programs' cells are the same function of the gates. -/
theorem cell_eq (g : FVec Ideal Cert.KernelIdeal.S128x1024 .f32) : K.kCell (F := Ideal) g = R.rCell (F := Ideal) g := by
  unfold K.kCell R.rCell
  rw [logistic_eq, logistic_eq, tanh_eq, tanh_eq]

end Cell

/-! ## The output head -/

section LogitsKernel

open Cert.KernelIdeal

/-- The kernel's product, left operand, row axis: the output's row. -/
theorem klhs_logits_0 (i : S128x32.Idx) (q : dot_S128x256_S32x256_S128x32_1_1_0_0_n_n.contr.Idx) :
    (dot_S128x256_S32x256_S128x32_1_1_0_0_n_n.lhsIdx i q 0).val = (i 0).val := by
  unfold DotDims.lhsIdx
  rw [dif_neg (show ¬(0 : Fin S128x256.rank) ∈ dot_S128x256_S32x256_S128x32_1_1_0_0_n_n.lhsBatch by decide), dif_pos (show (0 : Fin S128x256.rank) ∈ dot_S128x256_S32x256_S128x32_1_1_0_0_n_n.lhsNonContracting by decide)]
  rfl
/-- Left operand, column axis: the contraction position. -/
theorem klhs_logits_1 (i : S128x32.Idx) (q : dot_S128x256_S32x256_S128x32_1_1_0_0_n_n.contr.Idx) :
    (dot_S128x256_S32x256_S128x32_1_1_0_0_n_n.lhsIdx i q 1).val = (q ⟨0, by decide⟩).val :=
  dot_S128x256_S32x256_S128x32_1_1_0_0_n_n.lhsIdx_val_of_single rfl i q
/-- Right operand, row axis: the output's column. -/
theorem krhs_logits_0 (i : S128x32.Idx) (q : dot_S128x256_S32x256_S128x32_1_1_0_0_n_n.contr.Idx) :
    (dot_S128x256_S32x256_S128x32_1_1_0_0_n_n.rhsIdx i q 0).val = (i 1).val := by
  unfold DotDims.rhsIdx
  rw [dif_neg (show ¬(0 : Fin S32x256.rank) ∈ dot_S128x256_S32x256_S128x32_1_1_0_0_n_n.rhsBatch by decide), dif_pos (show (0 : Fin S32x256.rank) ∈ dot_S128x256_S32x256_S128x32_1_1_0_0_n_n.rhsNonContracting by decide)]
  rfl
/-- Right operand, column axis: the contraction position. -/
theorem krhs_logits_1 (i : S128x32.Idx) (q : dot_S128x256_S32x256_S128x32_1_1_0_0_n_n.contr.Idx) :
    (dot_S128x256_S32x256_S128x32_1_1_0_0_n_n.rhsIdx i q 1).val = (q ⟨0, by decide⟩).val :=
  dot_S128x256_S32x256_S128x32_1_1_0_0_n_n.rhsIdx_val_of_single rfl i q

/-- The kernel's product onto zero at (b, n): the sum over k of left (b, k) times right (n, k). -/
theorem kmm_logits_apply (lhs : FVec Ideal S128x256 .bf16) (rhs : FVec Ideal S32x256 .bf16) (b : Fin 128) (n : Fin 32) :
    matmul dot_S128x256_S32x256_S128x32_1_1_0_0_n_n none lhs rhs (constant (F := Ideal) S128x32 .f32 0x00000000#32) (ix2 b n)
      = ∑ k : Fin 256, lhs (ix2 b k) * rhs (ix2 n k) := by
  simp only [matmul]
  rw [Ideal.matmul_constant_zero_apply, ← Equiv.sum_comp (contrEquiv1 dot_S128x256_S32x256_S128x32_1_1_0_0_n_n 256 rfl rfl).symm]
  refine Finset.sum_congr rfl fun k _ => ?_
  have hk := contrEquiv1_symm_val dot_S128x256_S32x256_S128x32_1_1_0_0_n_n 256 rfl rfl k
  have el : dot_S128x256_S32x256_S128x32_1_1_0_0_n_n.lhsIdx (ix2 b n) ((contrEquiv1 dot_S128x256_S32x256_S128x32_1_1_0_0_n_n 256 rfl rfl).symm k) = ix2 b k := funext fun a => Fin.ext (by
    match a with
    | ⟨0, _⟩ => exact klhs_logits_0 _ _
    | ⟨1, _⟩ => exact (klhs_logits_1 _ _).trans hk)
  have er : dot_S128x256_S32x256_S128x32_1_1_0_0_n_n.rhsIdx (ix2 b n) ((contrEquiv1 dot_S128x256_S32x256_S128x32_1_1_0_0_n_n 256 rfl rfl).symm k) = ix2 n k := funext fun a => Fin.ext (by
    match a with
    | ⟨0, _⟩ => exact krhs_logits_0 _ _
    | ⟨1, _⟩ => exact (krhs_logits_1 _ _).trans hk)
  rw [el, er]

/-- A bias of 32 entries, cast to one row and broadcast over the rows, reads its entry at the column. -/
theorem kbias_logits_apply (v : FVec Ideal S32 .f32) (hc : S32.ShapeCasts S1x32) (hb : S1x32.Broadcasts S128x32) (b : Fin 128) (n : Fin 32) :
    broadcastTo S128x32 (shapeCast S1x32 v hc) hb (ix2 b n) = v (ix1 n) := by
  rw [broadcastTo_1b_ab_apply, shapeCast_a_1a_apply]

/-- The kernel's logits at (b, n). -/
theorem kLogits_apply (hy : FVec Ideal S128x256 .f32) (why : FVec Ideal S32x256 .f32) (by_ : FVec Ideal S32 .f32) (b : Fin 128) (n : Fin 32) :
    K.kLogits (F := Ideal) hy why by_ (ix2 b n) = (∑ k : Fin 256, hy (ix2 b k) * why (ix2 n k)) + by_ (ix1 n) := by
  unfold K.kLogits
  rw [addf_apply, kmm_logits_apply, kbias_logits_apply]
  rfl

end LogitsKernel

section LogitsReference

open Cert.ReferenceIdeal

/-- The reference's product, left operand, row axis: the output's row. -/
theorem rlhs_logits_0 (i : S128x32.Idx) (q : dot_S128x256_S256x32_S128x32_1_0_0_1_n_n.contr.Idx) :
    (dot_S128x256_S256x32_S128x32_1_0_0_1_n_n.lhsIdx i q 0).val = (i 0).val := by
  unfold DotDims.lhsIdx
  rw [dif_neg (show ¬(0 : Fin S128x256.rank) ∈ dot_S128x256_S256x32_S128x32_1_0_0_1_n_n.lhsBatch by decide), dif_pos (show (0 : Fin S128x256.rank) ∈ dot_S128x256_S256x32_S128x32_1_0_0_1_n_n.lhsNonContracting by decide)]
  rfl
/-- Left operand, column axis: the contraction position. -/
theorem rlhs_logits_1 (i : S128x32.Idx) (q : dot_S128x256_S256x32_S128x32_1_0_0_1_n_n.contr.Idx) :
    (dot_S128x256_S256x32_S128x32_1_0_0_1_n_n.lhsIdx i q 1).val = (q ⟨0, by decide⟩).val :=
  dot_S128x256_S256x32_S128x32_1_0_0_1_n_n.lhsIdx_val_of_single rfl i q
/-- Right operand, row axis: the contraction position. -/
theorem rrhs_logits_0 (i : S128x32.Idx) (q : dot_S128x256_S256x32_S128x32_1_0_0_1_n_n.contr.Idx) :
    (dot_S128x256_S256x32_S128x32_1_0_0_1_n_n.rhsIdx i q 0).val = (q ⟨0, by decide⟩).val :=
  dot_S128x256_S256x32_S128x32_1_0_0_1_n_n.rhsIdx_val_of_single rfl i q
/-- Right operand, column axis: the output's column. -/
theorem rrhs_logits_1 (i : S128x32.Idx) (q : dot_S128x256_S256x32_S128x32_1_0_0_1_n_n.contr.Idx) :
    (dot_S128x256_S256x32_S128x32_1_0_0_1_n_n.rhsIdx i q 1).val = (i 1).val := by
  unfold DotDims.rhsIdx
  rw [dif_neg (show ¬(1 : Fin S256x32.rank) ∈ dot_S128x256_S256x32_S128x32_1_0_0_1_n_n.rhsBatch by decide), dif_pos (show (1 : Fin S256x32.rank) ∈ dot_S128x256_S256x32_S128x32_1_0_0_1_n_n.rhsNonContracting by decide)]
  rfl

/-- The reference's product at (b, n): the sum over k of left (b, k) times right (k, n). -/
theorem rdot_logits_apply (lhs : FVec Ideal S128x256 .f32) (rhs : FVec Ideal S256x32 .f32) (b : Fin 128) (n : Fin 32) :
    Host.dotGeneral dot_S128x256_S256x32_S128x32_1_0_0_1_n_n none lhs rhs (ix2 b n)
      = ∑ k : Fin 256, lhs (ix2 b k) * rhs (ix2 k n) := by
  simp only [Host.dotGeneral]
  rw [Ideal.dotGeneral_apply, ← Equiv.sum_comp (contrEquiv1 dot_S128x256_S256x32_S128x32_1_0_0_1_n_n 256 rfl rfl).symm]
  refine Finset.sum_congr rfl fun k _ => ?_
  have hk := contrEquiv1_symm_val dot_S128x256_S256x32_S128x32_1_0_0_1_n_n 256 rfl rfl k
  have el : dot_S128x256_S256x32_S128x32_1_0_0_1_n_n.lhsIdx (ix2 b n) ((contrEquiv1 dot_S128x256_S256x32_S128x32_1_0_0_1_n_n 256 rfl rfl).symm k) = ix2 b k := funext fun a => Fin.ext (by
    match a with
    | ⟨0, _⟩ => exact rlhs_logits_0 _ _
    | ⟨1, _⟩ => exact (rlhs_logits_1 _ _).trans hk)
  have er : dot_S128x256_S256x32_S128x32_1_0_0_1_n_n.rhsIdx (ix2 b n) ((contrEquiv1 dot_S128x256_S256x32_S128x32_1_0_0_1_n_n 256 rfl rfl).symm k) = ix2 k n := funext fun a => Fin.ext (by
    match a with
    | ⟨0, _⟩ => exact (rrhs_logits_0 _ _).trans hk
    | ⟨1, _⟩ => exact rrhs_logits_1 _ _)
  rw [el, er]

/-- A bias of 32 entries, broadcast to one row and then over the rows, reads its entry at the column. -/
theorem rbias_logits_apply (v : FVec Ideal S32 .f32) (h1 : S32.BroadcastsInDim S1x32 (![1] : Fin 1 → Fin S1x32.rank))
    (h2 : S1x32.BroadcastsInDim S128x32 (![0, 1] : Fin 2 → Fin S128x32.rank)) (b : Fin 128) (n : Fin 32) :
    broadcastInDim S128x32 ![0, 1] h2 (broadcastInDim S1x32 ![1] h1 v) (ix2 b n) = v (ix1 n) := by
  refine (broadcastInDim_apply _ h2 _ (ix2 b n) (ix2 (0 : Fin 1) n) (fun a => match a with
    | ⟨0, _⟩ => by show 0 = if (1 : Nat) = 1 then 0 else b.val; rw [if_pos rfl]
    | ⟨1, _⟩ => by show n.val = if (32 : Nat) = 1 then 0 else n.val; rw [if_neg (by decide)])).trans ?_
  exact broadcastInDim_apply _ h1 v (ix2 (0 : Fin 1) n) (ix1 n) (fun a => match a with
    | ⟨0, _⟩ => by show n.val = if (32 : Nat) = 1 then 0 else n.val; rw [if_neg (by decide)])

/-- The reference's logits at (b, n). -/
theorem rLogits_apply (hy : FVec Ideal S128x256 .f32) (why : FVec Ideal S32x256 .f32) (by_ : FVec Ideal S32 .f32) (b : Fin 128) (n : Fin 32) :
    R.rLogits (F := Ideal) hy why by_ (ix2 b n) = (∑ k : Fin 256, hy (ix2 b k) * why (ix2 n k)) + by_ (ix1 n) := by
  unfold R.rLogits
  rw [addf_apply, rdot_logits_apply, rbias_logits_apply]
  refine congrArg (· + by_ (ix1 n)) (Finset.sum_congr rfl fun k _ => ?_)
  exact congrArg (hy (ix2 b k) * ·) (transpose_ix2_apply why _ k n)

end LogitsReference

/-- The output head: the kernel's and the reference's are the same function of the operands. -/
theorem logits_eq (hy : FVec Ideal Cert.KernelIdeal.S128x256 .f32) (why : FVec Ideal Cert.KernelIdeal.S32x256 .f32) (b : FVec Ideal Cert.KernelIdeal.S32 .f32) :
    K.kLogits (F := Ideal) hy why b = R.rLogits (F := Ideal) hy why b := by
  funext i
  obtain ⟨r, n, rfl⟩ : ∃ (r : Fin 128) (n : Fin 32), i = ix2 r n := ⟨i 0, i 1, eq_ix2 i⟩
  rw [kLogits_apply, rLogits_apply]

end Cert.Head

end
-- ==== Proof.LogSoftmax.lean ====
/-
  The row-wise log-softmax of a 128 × 32 matrix of real logits, in the two forms the programs compute it, is one function
  on the extended reals. With M the maximum of a row (a fold of max from −∞ over its 32 entries, in whatever order),
  one form is  x − (log Σ_k exp (x_k − M) + M),  the other  (x − max(−∞, M)) − log (0 + Σ_k exp (x_k − max(−∞, M))).
  When every entry of the row is a real number, M is real, each exp (x_k − M) is a positive real, their sum is a positive
  real, its log is real, max(−∞, M) = M, and the two expressions are equal by real arithmetic. At an infinite entry the
  forms may differ, so finiteness of the entries is a hypothesis.
  The steps: the scalar identity over any finite nonempty family (`lsm_scalar`); the column layout forms
  [a] → [a,1] → [a,b] read at an index; each reduction over the lanes read at a row as a fold of max or a sum over
  `Fin 32`; each form read at an index (`kLsm_apply`, `rLsm_apply`); the equality (`lsm_eq`).
-/
import proofs.«417286_j68719477196_2_alg».proof.Proof.HeadDefs
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.Head.Lsm

open Idealize.ShloMosaic Idealize.ShloMosaic.ValueIdx
open scoped BigOperators

/-! ### The scalar identity on extended reals -/

section Scalar

variable {ι : Type} [Fintype ι]

/-- A finite sum of coerced reals is the coerced sum. -/
theorem coe_sum_real (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The fold of `max` from `⊥` over a nonempty family of real numbers is a real number. -/
theorem fold_max_real [Nonempty ι] (g : ι → EReal) (hg : ∀ k, ∃ r : ℝ, g k = (r : EReal)) :
    ∃ m : ℝ, (Finset.univ : Finset ι).fold max ⊥ g = (m : EReal) := by
  have hsup : (Finset.univ : Finset ι).fold max ⊥ g = Finset.univ.sup g := rfl
  rw [hsup]
  have hbot : Finset.univ.sup g ≠ ⊥ := by
    obtain ⟨k0⟩ := (inferInstance : Nonempty ι)
    obtain ⟨r, hr⟩ := hg k0
    have hle : g k0 ≤ Finset.univ.sup g := Finset.le_sup (Finset.mem_univ k0)
    rw [hr] at hle
    exact ne_of_gt (lt_of_lt_of_le (EReal.bot_lt_coe r) hle)
  have htop : Finset.univ.sup g ≠ ⊤ := by
    refine ne_of_lt ((Finset.sup_lt_iff (bot_lt_top)).2 fun k _ => ?_)
    obtain ⟨r, hr⟩ := hg k
    rw [hr]; exact EReal.coe_lt_top r
  exact ⟨_, (EReal.coe_toReal htop hbot).symm⟩

/-- With every entry and the shift `M` real, the two spellings of the log-softmax entry agree:
    `x − (log Σ exp (x_k − M) + M) = (x − max ⊥ M) − log (0 + Σ exp (x_k − max ⊥ M))`. -/
theorem lsm_scalar [Nonempty ι] (g : ι → EReal) (hg : ∀ k, ∃ r : ℝ, g k = (r : EReal)) (M : EReal)
    (hM : ∃ m : ℝ, M = (m : EReal)) (k0 : ι) :
    g k0 - (Ideal.log (∑ k, Ideal.exp (g k - M)) + M)
      = (g k0 - max ⊥ M) - Ideal.log (0 + ∑ k, Ideal.exp (g k - max ⊥ M)) := by
  obtain ⟨m, rfl⟩ := hM
  choose f hf using hg
  have hmax : max (⊥ : EReal) (m : EReal) = (m : EReal) := max_eq_right bot_le
  rw [hmax, zero_add]
  have hsum : (∑ k, Ideal.exp (g k - (m : EReal))) = ((∑ k, Real.exp (f k - m) : ℝ) : EReal) := by
    rw [← coe_sum_real]
    refine Finset.sum_congr rfl fun k _ => ?_
    rw [hf k, ← EReal.coe_sub, Ideal.exp_coe]
  have hpos : 0 < ∑ k, Real.exp (f k - m) := Finset.sum_pos (fun k _ => Real.exp_pos _) Finset.univ_nonempty
  rw [hsum, Ideal.log_coe, if_neg (not_le.mpr hpos), hf k0]
  rw [← EReal.coe_add, ← EReal.coe_sub, ← EReal.coe_sub, ← EReal.coe_sub]
  congr 1
  ring

end Scalar

/-! ### Reading the column forms at an index -/

section Layout

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` broadcast along axis 0 reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The host's `[a, 1] → [a, b]` broadcast along both axes reads, at `(p, c)`, the column at `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The f32 pattern of `-∞` is the bottom of the extended reals. -/
theorem ofBits_ninf_f32 : Ideal.ofBits .f32 0xFF800000#32 = ⊥ := by simp [Ideal.ofBits, Ideal.ieee]

/-! ### The two programs' entries at an index -/

section Reads

/-- The source index over row `p` with lane `k` inserted on the reduced axis. -/
theorem lift_eq (h : (⟨2, ![128, 32]⟩ : Shape).Reduces [1] ⟨1, ![128]⟩) (p : Fin 128) (k : Fin 32) :
    h.lift (ix1 p) k = ix2 p k := by
  funext a
  match a with
  | ⟨0, _⟩ => exact Fin.ext rfl
  | ⟨1, _⟩ => exact Fin.ext rfl

/-- Row `p` of a 128 × 32 matrix. -/
def row (x : (⟨2, ![128, 32]⟩ : Shape).Idx → EReal) (p : Fin 128) : Fin 32 → EReal := fun k => x (ix2 p k)

/-- The row's maximum, as the fold of `max` from `⊥`. -/
def rowMax (x : (⟨2, ![128, 32]⟩ : Shape).Idx → EReal) (p : Fin 128) : EReal :=
  (Finset.univ : Finset (Fin 32)).fold max ⊥ (row x p)

theorem vexp_apply {s : Shape} (v : FVec Ideal s .f32) (i : s.Idx) : exp v i = Ideal.exp (v i) := rfl
theorem vlog_apply {s : Shape} (v : FVec Ideal s .f32) (i : s.Idx) : log v i = Ideal.log (v i) := rfl
theorem hexp_apply {s : Shape} (v : FVec Ideal s .f32) (i : s.Idx) : Host.exp v i = Ideal.exp (v i) := rfl
theorem hlog_apply {s : Shape} (v : FVec Ideal s .f32) (i : s.Idx) : Host.log v i = Ideal.log (v i) := rfl

/-- The kernel's maximum reduction over the lanes, at row `p`. -/
theorem kmax_apply (x : FVec Ideal ⟨2, ![128, 32]⟩ .f32) (h : (⟨2, ![128, 32]⟩ : Shape).Reduces [1] ⟨1, ![128]⟩)
    (hφ : FKind.Formats .f32) (hacc : (0xFF800000#32 : BitVec 32) = 0xFF800000#32) (p : Fin 128) :
    multiReduction .maximumf [1] ⟨1, ![128]⟩ x 0xFF800000#32 h hφ hacc (ix1 p) = rowMax x p := by
  refine (Ideal.multiReduction_maximumf_single x _ h hφ hacc (ix1 p)).trans ?_
  show (Finset.univ : Finset (Fin 32)).fold max (Ideal.ofBits .f32 0xFF800000#32) (fun k => x (h.lift (ix1 p) k)) = _
  rw [ofBits_ninf_f32]
  unfold rowMax row
  exact congrArg (fun f => (Finset.univ : Finset (Fin 32)).fold max ⊥ f) (funext fun k => congrArg x (lift_eq h p k))

/-- The kernel's sum over the lanes, at row `p`. -/
theorem ksum_apply (y : FVec Ideal ⟨2, ![128, 32]⟩ .f32) (h : (⟨2, ![128, 32]⟩ : Shape).Reduces [1] ⟨1, ![128]⟩)
    (hφ : FKind.Formats .f32) (hacc : (0x00000000#32 : BitVec 32) = 0x00000000#32) (p : Fin 128) :
    multiReduction .add [1] ⟨1, ![128]⟩ y 0x00000000#32 h hφ hacc (ix1 p) = ∑ k : Fin 32, y (ix2 p k) := by
  refine (Ideal.multiReduction_add_single y _ h hφ hacc (ix1 p)).trans ?_
  show ∑ k : Fin 32, y (h.lift (ix1 p) k) = _
  exact Finset.sum_congr rfl fun k _ => congrArg y (lift_eq h p k)

/-- The kernel's entry at `(p, c)`: `x − (log Σ exp (x_k − M) + M)`, `M` the row's maximum. -/
theorem kLsm_apply (x : FVec Ideal ⟨2, ![128, 32]⟩ .f32) (p : Fin 128) (c : Fin 32) :
    K.kLsm (F := Ideal) x (ix2 p c)
      = row x p c - (Ideal.log (∑ k, Ideal.exp (row x p k - rowMax x p)) + rowMax x p) := by
  unfold K.kLsm
  generalize hm : multiReduction FKind.maximumf [1] KernelIdeal.S128 x 0xFF800000#32 KernelIdeal.Gen.reduces_S128x32_S128 (.inl rfl) rfl = m
  have hm' : ∀ q, m (ix1 q) = rowMax x q := fun q => by rw [← hm]; exact kmax_apply x _ _ rfl q
  simp only [subf_apply, addf_apply, broadcastTo_a1_ab_apply, shapeCast_a_a1_apply, vlog_apply]
  rw [ksum_apply]
  simp only [vexp_apply, subf_apply, broadcastTo_a1_ab_apply, shapeCast_a_a1_apply, hm']
  rfl

end Reads

section RefReads

open Cert.ReferenceIdeal Cert.ReferenceIdeal.Gen

/-- The host's maximum reduction over the lanes, at row `p`. -/
theorem rmax_apply (x : FVec Ideal ⟨2, ![128, 32]⟩ .f32) (h' : (⟨2, ![128, 32]⟩ : Shape).ReducesTo [1] ⟨1, ![128]⟩)
    (hu : 0 < (⟨0, ![]⟩ : Shape).numel) (p : Fin 128) :
    Host.reduce FloatOps.maximumf x (constant (F := Ideal) ⟨0, ![]⟩ .f32 0xFF800000#32) h' hu (ix1 p) = rowMax x p := by
  have h : (⟨2, ![128, 32]⟩ : Shape).Reduces [1] ⟨1, ![128]⟩ := by decide
  refine (Host.reduce_eq_fold_single FloatOps.maximumf x _ h' h hu (ix1 p)).trans ?_
  show (Finset.univ : Finset (Fin 32)).fold max (Ideal.ofBits .f32 0xFF800000#32) (fun k => x (h.lift (ix1 p) k)) = _
  rw [ofBits_ninf_f32]
  unfold rowMax row
  exact congrArg (fun f => (Finset.univ : Finset (Fin 32)).fold max ⊥ f) (funext fun k => congrArg x (lift_eq h p k))

/-- The host's sum over the lanes from zero, at row `p`. -/
theorem rsum_apply (y : FVec Ideal ⟨2, ![128, 32]⟩ .f32) (h' : (⟨2, ![128, 32]⟩ : Shape).ReducesTo [1] ⟨1, ![128]⟩)
    (hu : 0 < (⟨0, ![]⟩ : Shape).numel) (p : Fin 128) :
    Host.reduceAdd (F := Ideal) y (constant (F := Ideal) ⟨0, ![]⟩ .f32 0x00000000#32) h' hu (ix1 p)
      = 0 + ∑ k : Fin 32, y (ix2 p k) := by
  have h : (⟨2, ![128, 32]⟩ : Shape).Reduces [1] ⟨1, ![128]⟩ := by decide
  show Ideal.hostReduceAdd h' y (Ideal.ofBits .f32 0x00000000#32) (ix1 p) = _
  rw [Ideal.hostReduceAdd_single h' h, Ideal.ofBits_zero_f32]
  show 0 + ∑ k : Fin 32, y (h.lift (ix1 p) k) = _
  exact congrArg (0 + ·) (Finset.sum_congr rfl fun k _ => congrArg y (lift_eq h p k))

/-- The reference's shift: the row's maximum, joined with `-∞`, laid over the row. -/
def rShift (x : FVec Ideal S128x32 .f32) : FVec Ideal S128x32 .f32 :=
  broadcastInDim S128x32 ![0, 1] bcast_S128x1_S128x32_0_1 (broadcastInDim S128x1 ![0] bcast_S128_S128x1_0
    (maximumf (broadcastInDim S128 ![] bcast_S_S128 (constant S_ .f32 0xFF800000#32))
      (Host.reduce FloatOps.maximumf x (constant S_ .f32 0xFF800000#32) reducesTo_S128x32_S128_d1 h_S_)))

theorem rShift_apply (x : FVec Ideal S128x32 .f32) (p : Fin 128) (c : Fin 32) :
    rShift x (ix2 p c) = max ⊥ (rowMax x p) := by
  unfold rShift
  rw [broadcastInDim_a1_ab_apply, broadcastInDim_a_a1_apply, maximumf_apply, broadcastInDim_scalar_apply, constant_apply,
    rmax_apply, ofBits_ninf_f32]

/-- The reference's log-softmax over its shift. -/
theorem rLsm_eq (x : FVec Ideal S128x32 .f32) :
    R.rLsm (F := Ideal) x = subf (subf x (rShift x)) (broadcastInDim S128x32 ![0, 1] bcast_S128x1_S128x32_0_1
      (Host.log (broadcastInDim S128x1 ![0] bcast_S128_S128x1_0
        (Host.reduceAdd (Host.exp (subf x (rShift x))) (constant S_ .f32 0x00000000#32) reducesTo_S128x32_S128_d1 h_S_)))) := rfl

/-- The reference's entry at `(p, c)`: `(x − max ⊥ M) − log (0 + Σ exp (x_k − max ⊥ M))`, `M` the row's maximum. -/
theorem rLsm_apply (x : FVec Ideal S128x32 .f32) (p : Fin 128) (c : Fin 32) :
    R.rLsm (F := Ideal) x (ix2 p c)
      = (row x p c - max ⊥ (rowMax x p)) - Ideal.log (0 + ∑ k, Ideal.exp (row x p k - max ⊥ (rowMax x p))) := by
  rw [rLsm_eq]
  generalize hB : rShift x = B
  have hB' : ∀ (q : Fin 128) (k : Fin 32), B (ix2 q k) = max ⊥ (rowMax x q) := fun q k => by rw [← hB]; exact rShift_apply x q k
  rw [subf_apply, subf_apply, broadcastInDim_a1_ab_apply, hlog_apply, broadcastInDim_a_a1_apply, rsum_apply, hB']
  simp only [hexp_apply, subf_apply, hB']
  rfl

end RefReads

end Cert.Head.Lsm

namespace Cert.Head

open Idealize.ShloMosaic Idealize.ShloMosaic.ValueIdx Cert.Head.Lsm

/-- At real logits the kernel's and the reference's row-wise log-softmax are one function. -/
theorem lsm_eq (x : FVec Ideal Cert.KernelIdeal.S128x32 .f32) (hx : ∀ i, ∃ r : ℝ, x i = (r : EReal)) :
    K.kLsm (F := Ideal) x = R.rLsm (F := Ideal) x := by
  funext i
  obtain ⟨p, c, rfl⟩ : ∃ (p : Fin 128) (c : Fin 32), i = ix2 p c := ⟨i 0, i 1, eq_ix2 i⟩
  rw [kLsm_apply, rLsm_apply]
  have hrow : ∀ k, ∃ r : ℝ, row x p k = (r : EReal) := fun k => hx _
  exact lsm_scalar (row x p) hrow (rowMax x p) (fold_max_real _ hrow) c

end Cert.Head

end
-- ==== Proof.LibAllReal.lean ====
/-
  Finiteness on the extended reals, for whole vectors at the ideal instance.

  At the ideal instance a float value is an extended real and a vector of shape `S` is a function from the
  multi-indices of `S` to the extended reals.  `AllReal v` says that every element of `v` is (the embedding of) a real
  number, that is, none is `+∞` or `-∞`.  The lemmas below say that the property passes through the whole-vector
  operations a program applies: the pointwise arithmetic and the exponential, hyperbolic tangent and logistic
  functions (a real goes to a real), the re-indexings (each result element is one operand element), the format
  changes (the identity on the extended reals), the contractions (a finite sum of products of reals) and the gather
  (each result element is one table element).

  The file depends only on the library and on Mathlib, so that it can be imported anywhere.
-/
import Idealize.ShloMosaic.PureOps.Ideal.Laws

noncomputable section

namespace Cert.Lib

open Idealize.ShloMosaic

/-! ## The predicate -/

/-- Every element of the vector is a real number (no element is `+∞` or `-∞`). -/
def AllReal {S : Shape} {φ : FTy} (v : FVec Ideal S φ) : Prop := ∀ i, ∃ r : ℝ, v i = (r : EReal)

/-- A vector all of whose elements are real is the embedding of a real-valued function. -/
theorem AllReal.exists_real_fun {S : Shape} {φ : FTy} {v : FVec Ideal S φ} (h : AllReal v) :
    ∃ f : S.Idx → ℝ, v = fun i => (f i : EReal) := by
  choose f hf using h
  exact ⟨f, funext hf⟩

/-- The embedding of a real-valued function is all real. -/
theorem allReal_coe {S : Shape} {φ : FTy} (f : S.Idx → ℝ) : AllReal (S := S) (φ := φ) (fun i => (f i : EReal)) :=
  fun i => ⟨f i, rfl⟩

/-- A finite sum of embedded reals is the embedding of the sum of the reals. -/
theorem coe_finset_sum {ι : Type} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The pattern `0x3F800000` at `f32` denotes the real `1`. -/
theorem ofBits_one_f32 : Ideal.ofBits .f32 0x3F800000#32 = ((1 : ℝ) : EReal) := by
  simp [Ideal.ofBits, Ideal.ieee, -EReal.coe_mul]; norm_num

/-! ## Pointwise operations -/

section Pointwise
variable {S : Shape} {φ : FTy} {x y : FVec Ideal S φ}

/-- The sum of two real vectors is real: `a + b` at each index. -/
theorem allReal_addf (hx : AllReal x) (hy : AllReal y) : AllReal (addf (F := Ideal) x y) := fun i => by
  obtain ⟨a, ha⟩ := hx i
  obtain ⟨b, hb⟩ := hy i
  exact ⟨a + b, by simp only [addf, Ideal.addf_def, ha, hb, EReal.coe_add]⟩

/-- The difference of two real vectors is real: `a - b` at each index. -/
theorem allReal_subf (hx : AllReal x) (hy : AllReal y) : AllReal (subf (F := Ideal) x y) := fun i => by
  obtain ⟨a, ha⟩ := hx i
  obtain ⟨b, hb⟩ := hy i
  exact ⟨a - b, by simp only [subf, Ideal.subf_def, ha, hb, EReal.coe_sub]⟩

/-- The product of two real vectors is real: `a * b` at each index. -/
theorem allReal_mulf (hx : AllReal x) (hy : AllReal y) : AllReal (mulf (F := Ideal) x y) := fun i => by
  obtain ⟨a, ha⟩ := hx i
  obtain ⟨b, hb⟩ := hy i
  exact ⟨a * b, by simp only [mulf, Ideal.mulf_def, ha, hb, EReal.coe_mul]⟩

/-- The host's negation of a real vector is real: `-a` at each index. -/
theorem allReal_host_negf (hx : AllReal x) : AllReal (Host.negf (F := Ideal) x) := fun i => by
  obtain ⟨a, ha⟩ := hx i
  exact ⟨-a, by simp only [Host.negf, Ideal.hostNegf_def, Ideal.negf_def, ha, EReal.coe_neg]⟩

/-- The host's exponential of a real vector is real: `e ^ a` at each index. -/
theorem allReal_host_exp (hx : AllReal x) : AllReal (Host.exp (F := Ideal) x) := fun i => by
  obtain ⟨a, ha⟩ := hx i
  exact ⟨Real.exp a, by simp only [Host.exp, Ideal.hostUnary_exp_def, ha, Ideal.exp_coe]⟩

/-- The host's hyperbolic tangent of a real vector is real: `tanh a` at each index. -/
theorem allReal_host_tanh (hx : AllReal x) : AllReal (Host.tanh (F := Ideal) x) := fun i => by
  obtain ⟨a, ha⟩ := hx i
  exact ⟨Real.tanh a, by simp only [Host.tanh, Ideal.hostUnary_tanh_def, ha, Ideal.tanh_coe]⟩

/-- The kernel's hyperbolic tangent of a real vector is real: `tanh a` at each index. -/
theorem allReal_tanh (hx : AllReal x) : AllReal (tanh (F := Ideal) x) := fun i => by
  obtain ⟨a, ha⟩ := hx i
  exact ⟨Real.tanh a, by simp only [tanh, Ideal.tanh_def, ha, Ideal.tanh_coe]⟩

/-- The kernel's exponential of a real vector is real: `e ^ a` at each index. -/
theorem allReal_exp (hx : AllReal x) : AllReal (exp (F := Ideal) x) := fun i => by
  obtain ⟨a, ha⟩ := hx i
  exact ⟨Real.exp a, by simp only [exp, Ideal.exp_def, ha, Ideal.exp_coe]⟩

/-- The kernel's logistic function of a real vector is real: `1 / (1 + e ^ (-a))` at each index. -/
theorem allReal_logistic (hx : AllReal x) : AllReal (logistic (F := Ideal) x) := fun i => by
  obtain ⟨a, ha⟩ := hx i
  exact ⟨(1 + Real.exp (-a))⁻¹, by simp only [logistic, Ideal.logistic_def, ha, Ideal.logistic_coe]⟩

end Pointwise

/-! ## The constant one and the sigmoid as the host spells it -/

section Sigmoid
variable {S : Shape}

/-- The splat of the pattern of `1.0` to any shape is real: every element is `1`. -/
theorem allReal_one (b : (⟨0, ![]⟩ : Shape).BroadcastsInDim S ![]) :
    AllReal (broadcastInDim (α := Ideal .f32) S ![] b (constant (F := Ideal) ⟨0, ![]⟩ .f32 0x3F800000#32)) := fun _ =>
  ⟨1, by simp only [broadcastInDim, constant, Ideal.ofBits_def, ofBits_one_f32]⟩

/-- The sigmoid `1 / (1 + e ^ (-x))`, written with the host's division, exponential and negation and the splat of
    `1.0`, is real on a real vector: `1 / (1 + e ^ (-a))` at each index, the denominator being positive. -/
theorem allReal_host_sigmoid (b : (⟨0, ![]⟩ : Shape).BroadcastsInDim S ![]) {x : FVec Ideal S .f32} (hx : AllReal x) :
    AllReal (Host.divf (F := Ideal) (broadcastInDim S ![] b (constant ⟨0, ![]⟩ .f32 0x3F800000#32))
      (addf (broadcastInDim S ![] b (constant ⟨0, ![]⟩ .f32 0x3F800000#32)) (Host.exp (Host.negf x)))) := fun i => by
  obtain ⟨a, ha⟩ := hx i
  have hpos : (1 + Real.exp (-a) : ℝ) ≠ 0 := (add_pos one_pos (Real.exp_pos _)).ne'
  refine ⟨1 * (1 / (1 + Real.exp (-a))), ?_⟩
  simp only [Host.divf, addf, Host.exp, Host.negf, broadcastInDim, constant, Ideal.ofBits_def, ofBits_one_f32,
    Ideal.hostDivf_def, Ideal.addf_def, Ideal.hostUnary_exp_def, Ideal.hostNegf_def, Ideal.negf_def, ha]
  rw [← EReal.coe_neg, Ideal.exp_coe, ← EReal.coe_add, Ideal.div_coe hpos, ← EReal.coe_mul]

end Sigmoid

/-! ## Layout operations and format changes -/

section Layout
variable {S T : Shape} {φ : FTy} {x : FVec Ideal S φ}

/-- A shape cast of a real vector is real: each result element is the operand's at the same row-major position. -/
theorem allReal_shapeCast (h : S.ShapeCasts T) (hx : AllReal x) : AllReal (φ := φ) (shapeCast T x h) :=
  fun j => hx (Shape.reshapeEquiv h j)

/-- A broadcast along given axes of a real vector is real: each result element is one operand element. -/
theorem allReal_broadcastInDim (dims : Fin S.rank → Fin T.rank) (h : S.BroadcastsInDim T dims) (hx : AllReal x) :
    AllReal (φ := φ) (broadcastInDim T dims h x) := fun _ => hx _

/-- A trailing-axes broadcast of a real vector is real: each result element is one operand element. -/
theorem allReal_broadcastTo (h : S.Broadcasts T) (hx : AllReal x) : AllReal (φ := φ) (broadcastTo T x h) :=
  fun _ => hx _

/-- A unit-stride slice of a real vector is real: each result element is the operand's at the offset index. -/
theorem allReal_extractStridedSlice (offs : Fin S.rank → Nat) (h : S.Slices offs T) (hx : AllReal x) :
    AllReal (φ := φ) (extractStridedSlice T offs x h) := fun _ => hx _

/-- A transpose of a real vector is real: each result element is the operand's at the permuted index. -/
theorem allReal_transpose (perm : List (Fin S.rank)) (h : S.Transposes perm T) (hx : AllReal x) :
    AllReal (φ := φ) (transpose T perm x h) := fun j => hx (h.src j)

/-- A narrowing format change of a real vector is real: it is the identity on the extended reals. -/
theorem allReal_truncf (ψ : FTy) (h : ψ.bits < φ.bits) (hx : AllReal x) : AllReal (truncf (F := Ideal) ψ x h) :=
  fun i => hx i

/-- A widening format change of a real vector is real: it is the identity on the extended reals. -/
theorem allReal_extf (ψ : FTy) (h : φ.bits < ψ.bits) (hx : AllReal x) : AllReal (extf (F := Ideal) ψ x h) :=
  fun i => hx i

end Layout

/-! ## Contractions -/

section Contract
variable {sl sr so : Shape} {φ₁ φ₂ : FTy} {x : FVec Ideal sl φ₁} {y : FVec Ideal sr φ₂}

/-- A finite sum of products of elements of two real vectors, read at any indices, is a real. -/
theorem exists_real_sum_mul {ι : Type} [Fintype ι] (hx : AllReal x) (hy : AllReal y) (p : ι → sl.Idx) (q : ι → sr.Idx) :
    ∃ r : ℝ, (∑ k : ι, x (p k) * y (q k)) = (r : EReal) := by
  obtain ⟨f, rfl⟩ := hx.exists_real_fun
  obtain ⟨g, rfl⟩ := hy.exists_real_fun
  exact ⟨∑ k : ι, f (p k) * g (q k), by simp only [← EReal.coe_mul, coe_finset_sum]⟩

/-- The host's general dot product of two real vectors is real: at each result index, the finite sum over the
    contraction index of the products of the operands' elements. -/
theorem allReal_host_dotGeneral (d : DotDims sl sr so) (hx : AllReal x) (hy : AllReal y) :
    AllReal (Host.dotGeneral (F := Ideal) d none x y) := fun j => by
  simp only [Host.dotGeneral, Ideal.dotGeneral_apply]
  exact exists_real_sum_mul hx hy _ _

/-- The kernel's matrix product of two real vectors into the zero accumulator is real: at each result index, the
    finite sum over the contraction index of the products of the operands' elements. -/
theorem allReal_matmul_zero (d : DotDims sl sr so) (hx : AllReal x) (hy : AllReal y) :
    AllReal (matmul (F := Ideal) d none x y (constant so .f32 0x00000000#32)) := fun j => by
  simp only [matmul, Ideal.matmul_constant_zero_apply]
  exact exists_real_sum_mul hx hy _ _

/-- The kernel's matrix product of two real vectors into a real accumulator is real: the accumulator's element plus
    the finite sum of products. -/
theorem allReal_matmul (d : DotDims sl sr so) (prec : Option ContractPrecision) {acc : FVec Ideal so .f32}
    (hx : AllReal x) (hy : AllReal y) (hacc : AllReal acc) : AllReal (matmul (F := Ideal) d prec x y acc) := fun j => by
  obtain ⟨a, ha⟩ := hacc j
  obtain ⟨r, hr⟩ := exists_real_sum_mul hx hy (d.lhsIdx j) (d.rhsIdx j)
  exact ⟨a + r, by simp only [matmul, Ideal.matmul_apply, ha, hr, EReal.coe_add]⟩

end Contract

/-! ## Gather -/

/-- A gather from a real table is real: each result element is the table's at the operand index the start indices
    give. -/
theorem allReal_host_gather {s si t : Shape} {φ : FTy} {w : Nat} (d : GatherDims s si t) {x : FVec Ideal s φ}
    (idx : IVec si w) (hx : AllReal x) : AllReal (φ := φ) (Host.gather d x idx) :=
  fun j => hx (d.operandIdx j idx)

end Cert.Lib
-- ==== Proof.HeadReal.lean ====
/-
  The reference's head pieces take real vectors to real vectors.

  Each piece of the reference's head computation (the gathered embedding rows, the gate pre-activations, one zero-state
  cell, the logits) is a composition of operations that keep every element a real number: a gather and re-indexings
  read single elements of the table, the gate pre-activations and the logits are finite sums of products of reals plus
  reals, and a cell is built from products, the hyperbolic tangent and the sigmoid `1 / (1 + e ^ (-x))`, whose
  denominator is positive.  So from real inputs the logits that enter the log-softmax are real, which is the
  hypothesis under which the two programs' log-softmax forms agree.
-/
import proofs.«417286_j68719477196_2_alg».proof.Proof.HeadDefs
import proofs.«417286_j68719477196_2_alg».proof.Proof.LibAllReal

noncomputable section

namespace Cert.Head

open Cert.Lib Cert.ReferenceIdeal Idealize.ShloMosaic

/-- The last token's embedding rows are real when the table is: a gather, a slice and a shape cast each read single
    elements of the table. -/
theorem rEL_real (a0 : IVec S128x2048 32) (a1 : FVec Ideal S50257x128 .f32) (h1 : AllReal a1) :
    AllReal (φ := .f32) (R.rEL (F := Ideal) a0 a1) := by
  unfold R.rEL
  exact allReal_shapeCast _ (allReal_extractStridedSlice _ _ (allReal_host_gather _ _ h1))

/-- The first token's embedding rows are real when the table is. -/
theorem rEF_real (a0 : IVec S128x2048 32) (a1 : FVec Ideal S50257x128 .f32) (h1 : AllReal a1) :
    AllReal (φ := .f32) (R.rEF (F := Ideal) a0 a1) := by
  unfold R.rEF
  exact allReal_shapeCast _ (allReal_extractStridedSlice _ _ (allReal_host_gather _ _ h1))

/-- The gate pre-activations `x · wᵀ + bx + bh` are real when the input, the weights and the two biases are: a finite
    sum of products of reals plus two reals at each index. -/
theorem gates_real (x : FVec Ideal S128x128 .f32) (w : FVec Ideal S1024x128 .f32) (bx bh : FVec Ideal S1024 .f32)
    (hx : AllReal x) (hw : AllReal w) (hbx : AllReal bx) (hbh : AllReal bh) :
    AllReal (φ := .f32) (R.rGates (F := Ideal) x w bx bh) := by
  unfold R.rGates
  exact allReal_addf
    (allReal_addf (allReal_host_dotGeneral _ hx (allReal_transpose _ _ hw))
      (allReal_broadcastInDim _ _ (allReal_broadcastInDim _ _ hbx)))
    (allReal_broadcastInDim _ _ (allReal_broadcastInDim _ _ hbh))

/-- One zero-state cell `σ(o) · tanh (σ(i) · tanh g)` is real when its gates are: the sigmoid and the hyperbolic tangent
    of a real are real, and so are products of reals. -/
theorem cell_real (g : FVec Ideal S128x1024 .f32) (hg : AllReal g) :
    AllReal (φ := .f32) (R.rCell (F := Ideal) g) := by
  unfold R.rCell
  exact allReal_mulf (allReal_host_sigmoid _ (allReal_extractStridedSlice _ _ hg))
    (allReal_host_tanh (allReal_mulf (allReal_host_sigmoid _ (allReal_extractStridedSlice _ _ hg))
      (allReal_host_tanh (allReal_extractStridedSlice _ _ hg))))

/-- The logits `hy · whyᵀ + b` are real when the hidden state, the weights and the bias are. -/
theorem logits_real (hy : FVec Ideal S128x256 .f32) (why : FVec Ideal S32x256 .f32) (b : FVec Ideal S32 .f32)
    (hhy : AllReal hy) (hwhy : AllReal why) (hb : AllReal b) :
    AllReal (φ := .f32) (R.rLogits (F := Ideal) hy why b) := by
  unfold R.rLogits
  exact allReal_addf (allReal_host_dotGeneral _ hhy (allReal_transpose _ _ hwhy))
    (allReal_broadcastInDim _ _ (allReal_broadcastInDim _ _ hb))

/-- The logits of the whole head, from the two embedding blocks and the parameters of the two directions, are real
    when all of these are: the sum of the two directions' cells is real, and the logits of a real hidden state are. -/
theorem head_logits_real (el ef : FVec Ideal S128x128 .f32) (wxf wxb : FVec Ideal S1024x128 .f32)
    (bxf bhf bxb bhb : FVec Ideal S1024 .f32) (why : FVec Ideal S32x256 .f32) (b : FVec Ideal S32 .f32)
    (hel : AllReal el) (hef : AllReal ef) (hwxf : AllReal wxf) (hwxb : AllReal wxb)
    (hbxf : AllReal bxf) (hbhf : AllReal bhf) (hbxb : AllReal bxb) (hbhb : AllReal bhb)
    (hwhy : AllReal why) (hb : AllReal b) :
    AllReal (φ := .f32) (R.rLogits (F := Ideal)
      (addf (R.rCell (R.rGates el wxf bxf bhf)) (R.rCell (R.rGates ef wxb bxb bhb))) why b) :=
  logits_real _ why b
    (allReal_addf (cell_real _ (gates_real el wxf bxf bhf hel hwxf hbxf hbhf))
      (cell_real _ (gates_real ef wxb bxb bhb hef hwxb hbxb hbhb)))
    hwhy hb

end Cert.Head
-- ==== Proof.HeadFinal.lean ====
/-
  The head kernel's stored value is the reference's result, at the ideal instance, on real inputs.

  The two programs' head computations are cut into the same pieces (gate pre-activations, one zero-state cell, logits,
  row-wise log-softmax).  The first three agree as functions on all extended reals.  The log-softmax forms,
  `x − (log Σ exp (x − max x) + max x)` in the kernel and `(x − max x) − log Σ exp (x − max x)` in the reference, agree
  where the logits are real numbers, and the logits are real when the inputs are, because every operation before them
  keeps reals real.  Composing the four gives the equality of the two whole terms.
-/
import proofs.«417286_j68719477196_2_alg».proof.Proof.HeadLayout
import proofs.«417286_j68719477196_2_alg».proof.Proof.LogSoftmax
import proofs.«417286_j68719477196_2_alg».proof.Proof.HeadReal

noncomputable section

namespace Cert.Head

open Cert.Lib Idealize.ShloMosaic

/-- The head kernel's stored value and the reference's result are one function of the loaded blocks when every input
    is real: the gate pre-activations, the cells and the logits agree piece by piece, and on real logits the two
    forms of the row-wise log-softmax, `x − (log Σ exp (x − max x) + max x)` and `(x − max x) − log Σ exp (x − max x)`,
    agree. -/
theorem head_eq (el ef : FVec Ideal Cert.KernelIdeal.S128x128 .f32) (wxf : FVec Ideal Cert.KernelIdeal.S1024x128 .f32)
    (bxf bhf : FVec Ideal Cert.KernelIdeal.S1024 .f32) (wxb : FVec Ideal Cert.KernelIdeal.S1024x128 .f32)
    (bxb bhb : FVec Ideal Cert.KernelIdeal.S1024 .f32) (why : FVec Ideal Cert.KernelIdeal.S32x256 .f32)
    (b : FVec Ideal Cert.KernelIdeal.S32 .f32)
    (hel : AllReal el) (hef : AllReal ef) (hwxf : AllReal wxf) (hbxf : AllReal bxf) (hbhf : AllReal bhf)
    (hwxb : AllReal wxb) (hbxb : AllReal bxb) (hbhb : AllReal bhb) (hwhy : AllReal why) (hb : AllReal b) :
    K.kLsm (F := Ideal) (K.kLogits (addf (K.kCell (K.kGates el wxf bxf bhf)) (K.kCell (K.kGates ef wxb bxb bhb))) why b)
      = R.rLsm (F := Ideal)
          (R.rLogits (addf (R.rCell (R.rGates el wxf bxf bhf)) (R.rCell (R.rGates ef wxb bxb bhb))) why b) := by
  rw [gates_eq, gates_eq, cell_eq, cell_eq, logits_eq]
  exact lsm_eq _ (head_logits_real el ef wxf wxb bxf bhf bxb bhb why b hel hef hwxf hwxb hbxf hbhf hbxb hbhb hwhy hb)

end Cert.Head
-- ==== Proof.GatherRef.lean ====
/-
  The reference's gathered rows, in closed form. The reference reads row `inputs[b, t]` of the 50257 × 128 table for every
  (b, t), keeps token t = 2047 (resp. t = 0) and reshapes to 128 × 128. Its gather reads, at (b, t, j), the table at row
  `idx[b, t, 0]` read signed and clamped into [0, 50256], column j; the index it gathers with is the token id with 50257
  added when negative. For token ids in [0, 50257) the addition never happens and the clamp is inert, so entry (b, j) of
  the result is the table at row `inputs[b, t]`, column j.
-/
import proofs.«417286_j68719477196_2_alg».proof.Proof.HeadDefs
import Idealize.ShloMosaic.Lib.ValueIdx
import Idealize.ShloMosaic.Lib.Pipeline.Value
import Idealize.ShloMosaic.Lib.Affine

noncomputable section

namespace Cert.Head

open Cert.ReferenceIdeal Cert.ReferenceIdeal.Gen Idealize.ShloMosaic Idealize.ShloMosaic.ValueIdx

variable {F : FTy → Type} [FloatOps F]

/-- The reference gather's dimension numbers: operand [50257, 128], start indices [128, 2048, 1], result [128, 2048, 128]. -/
abbrev gD := gather_S50257x128_S128x2048x1_S128x2048x128_2_0_n_n_0_2_1128

/-- The gather read at (b, t, j): row `idx[b, t, 0]` (signed, clamped into the table) of the table, column j. -/
theorem gather_rows_apply {α : Type} {w : Nat} (x : S50257x128.Idx → α) (idx : IVec S128x2048x1 w)
    (b : Fin 128) (t : Fin 2048) (j : Fin 128) :
    Host.gather gD x idx (ix3 b t j)
      = x (ix2 ⟨min (idx (ix3 b t (0 : Fin 1))).toInt.toNat 50256, by omega⟩ j) := by
  unfold Host.gather
  congr 1
  funext a
  refine Fin.ext ?_
  match a with
  | ⟨0, _⟩ =>
    show gD.start (ix3 b t j) idx 0 + gD.batchCoord (ix3 b t j) 0 + gD.offCoord (ix3 b t j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gD.startIndexMap from List.mem_singleton.mpr rfl)]
    have hsi : gD.siIdx (ix3 b t j) ⟨List.idxOf (0 : Fin 2) gD.startIndexMap,
        List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi]
    rfl
  | ⟨1, _⟩ =>
    show gD.start (ix3 b t j) idx 1 + gD.batchCoord (ix3 b t j) 1 + gD.offCoord (ix3 b t j) 1 = j.val
    rw [GatherDims.batchCoord_eq_zero _ _ _ List.not_mem_nil]
    unfold GatherDims.start
    rw [dif_neg (show (1 : Fin 2) ∉ gD.startIndexMap from by decide)]
    unfold GatherDims.offCoord
    rw [dif_pos (show (1 : Fin 2) ∈ gD.sKept from by decide)]
    show 0 + 0 + j.val = j.val
    omega

/-- The index array the reference gathers with: the token id, with 50257 added when it is negative, as a [128, 2048, 1] array. -/
def normIdx (a0 : IVec S128x2048 32) : IVec S128x2048x1 32 :=
  broadcastInDim S128x2048x1 ![0, 1] bcast_S128x2048_S128x2048x1_0_1
    (select (cmpi .slt a0 (broadcastInDim S128x2048 ![] bcast_S_S128x2048 (constantI S_ 32 0#32)))
      (addi a0 (broadcastInDim S128x2048 ![] bcast_S_S128x2048 (constantI S_ 32 50257#32))) a0)

/-- At a token id that is not negative the gathered-with index is the token id. -/
theorem normIdx_apply (a0 : IVec S128x2048 32) (b : Fin 128) (t : Fin 2048) (h0 : 0 ≤ (a0 (ix2 b t)).toInt) :
    normIdx a0 (ix3 b t (0 : Fin 1)) = a0 (ix2 b t) := by
  unfold normIdx
  rw [broadcastInDim_apply _ bcast_S128x2048_S128x2048x1_0_1 _ (ix3 b t (0 : Fin 1)) (ix2 b t) (fun a => match a with
    | ⟨0, _⟩ => by show b.val = if (128 : Nat) = 1 then 0 else b.val; rw [if_neg (by decide)]
    | ⟨1, _⟩ => by show t.val = if (2048 : Nat) = 1 then 0 else t.val; rw [if_neg (by decide)])]
  show Scalar.select (IntOp.cmpi .slt (a0 (ix2 b t)) 0#32) _ (a0 (ix2 b t)) = a0 (ix2 b t)
  have hc : IntOp.cmpi .slt (a0 (ix2 b t)) 0#32 = 0#1 := eq_zero_of_ne_one (fun h => by
    have h1 := IntOp.cmpi_slt.1 h
    have z : (0#32 : BitVec 32).toInt = 0 := by decide
    rw [z] at h1
    omega)
  rw [hc, select_zero]

/-- A word whose signed value is not negative has that value unsigned too. -/
theorem toInt_toNat_of_nonneg (w : BitVec 32) (h : 0 ≤ w.toInt) : w.toInt.toNat = w.toNat := by
  have hlt := w.isLt
  unfold BitVec.toInt at h ⊢
  split at h
  · rename_i hc; rw [if_pos hc]; omega
  · omega

/-- Entry (b, j): the table at row `min inputs[b, col] 50256`, column j (the `min` only makes the row an index of the table
    without a proof argument; for a token id in the vocabulary it is the token id). -/
def rowsAt (a0 : IVec S128x2048 32) (col : Fin 2048) (a1 : FVec F S50257x128 .f32) : FVec F S128x128 .f32 :=
  fun i => a1 (ix2 (n0 := 50257) (n1 := 128)
    ⟨min (a0 (ix2 (n0 := 128) (n1 := 2048) ⟨(i 0).val, idx2_lt0 i⟩ col)).toNat 50256, by omega⟩ ⟨(i 1).val, idx2_lt1 i⟩)

theorem rowsAt_apply (a0 : IVec S128x2048 32) (col : Fin 2048) (a1 : FVec F S50257x128 .f32) (b j : Fin 128) :
    rowsAt a0 col a1 (ix2 b j) = a1 (ix2 ⟨min (a0 (ix2 b col)).toNat 50256, by omega⟩ j) := rfl

/-- The reference's gather, sliced at token `col` and reshaped, is `rowsAt` when the token ids are in the vocabulary. -/
theorem rows_eq (a0 : IVec S128x2048 32) (a1 : FVec F S50257x128 .f32)
    (hr : ∀ i, 0 ≤ (a0 i).toInt ∧ (a0 i).toInt < 50257) (col : Fin 2048)
    (hs : S128x2048x128.Slices ![0, col.val, 0] S128x1x128) :
    shapeCast S128x128 (extractStridedSlice S128x1x128 ![0, col.val, 0] (Host.gather gD a1 (normIdx a0)) hs)
      shapeCasts_S128x1x128_S128x128 = rowsAt a0 col a1 := by
  funext i
  obtain ⟨b, j, rfl⟩ : ∃ b j : Fin 128, i = ix2 b j := ⟨i 0, i 1, eq_ix2 i⟩
  rw [shapeCast_apply _ shapeCasts_S128x1x128_S128x128 (ix2 b j) (ix3 b (0 : Fin 1) j) (by
    rewrite [Shape.rowMajor_val_three, Shape.rowMajor_val_two]
    show (b.val * 1 + 0) * 128 + j.val = b.val * 128 + j.val
    omega)]
  rw [extractStridedSlice_apply _ _ hs (ix3 b (0 : Fin 1) j) (ix3 b col j) (fun a => match a with
    | ⟨0, _⟩ => by show b.val = 0 + b.val; omega
    | ⟨1, _⟩ => by show col.val = col.val + 0; omega
    | ⟨2, _⟩ => by show j.val = 0 + j.val; omega)]
  rw [gather_rows_apply, rowsAt_apply]
  have e : min (normIdx a0 (ix3 b col (0 : Fin 1))).toInt.toNat 50256 = min (a0 (ix2 b col)).toNat 50256 := by
    rw [normIdx_apply a0 b col (hr _).1, toInt_toNat_of_nonneg _ (hr _).1]
  exact congrArg a1 (congrArg (fun p : Fin 50257 => ix2 p j) (Fin.ext e))

theorem rEL_eq (a0 : IVec S128x2048 32) (a1 : FVec F S50257x128 .f32)
    (hr : ∀ i, 0 ≤ (a0 i).toInt ∧ (a0 i).toInt < 50257) :
    R.rEL (F := F) a0 a1 = rowsAt a0 ⟨2047, by decide⟩ a1 :=
  rows_eq a0 a1 hr ⟨2047, by decide⟩ slices_S128x2048x128_S128x1x128_0_2047_0

theorem rEF_eq (a0 : IVec S128x2048 32) (a1 : FVec F S50257x128 .f32)
    (hr : ∀ i, 0 ≤ (a0 i).toInt ∧ (a0 i).toInt < 50257) :
    R.rEF (F := F) a0 a1 = rowsAt a0 ⟨0, by decide⟩ a1 :=
  rows_eq a0 a1 hr ⟨0, by decide⟩ slices_S128x2048x128_S128x1x128_0_0_0

end Cert.Head

end
-- ==== Proof.PreFacts.lean ====
/-
  The printed precondition, read back. The precondition is the conjunction (a chain of `and` on one-bit scalars) of
  twelve facts, one per argument: for each float argument, "every entry x has |x| < +∞"; for the integer argument of
  token ids, "every entry w has 0 ≤ w and w < 50257, compared signed". Each fact is an all-reduction by `and` of a
  one-bit array, so the whole being 1 gives each array 1 at every index. Part (A) reads the integer fact, at any
  float instance; part (B) reads the float facts at the extended reals, where |x| < ⊤ says that x is a real.
-/
import proofs.«417286_j68719477196_2_alg».proof.Proof.Gen.Pre_finite_inputs
import Idealize.ShloMosaic.Lib.ReduceAll
import Idealize.ShloMosaic.Lib.ValueIdx
import Idealize.ShloMosaic.PureOps.Ideal.Laws

noncomputable section

namespace Cert.PreFacts

open Idealize.ShloMosaic Cert.Pre_finite_inputs

/-- The rank-0 shape has one index. -/
instance subsingleton_S_ : Subsingleton S_.Idx := ⟨fun a b => funext fun d => d.elim0⟩

/-! ## The conjunction, split -/

section Generic

variable {F : FTy → Type} [FloatOps F]

/-- "|x| < +∞" on one value, as the predicate spells it: the comparison's bit is 1. -/
def IsFin (x : F .f32) : Prop :=
  FloatOps.cmpf .olt (FloatOps.hostAbsf x) (FloatOps.ofBits (F := F) .f32 0x7F800000#32) = 1#1

/-- "0 ≤ w < 50257, signed" on one word, as the predicate spells it: both comparisons' bits are 1. -/
def InVocab (w : BitVec 32) : Prop :=
  IntOp.cmpi .sge w 0#32 = 1#1 ∧ IntOp.cmpi .slt w 50257#32 = 1#1

/-- The twelve facts the precondition states, each at every index of its argument. -/
structure Decoded (a0 : IVec S128x2048 32) (a1 : FVec F S50257x128 .f32) (a2 : FVec F S1024x128 .f32)
    (a3 : FVec F S1024 .f32) (a4 : FVec F S1024x256 .f32) (a5 : FVec F S1024 .f32) (a6 : FVec F S1024x128 .f32)
    (a7 : FVec F S1024 .f32) (a8 : FVec F S1024x256 .f32) (a9 : FVec F S1024 .f32) (a10 : FVec F S32x256 .f32)
    (a11 : FVec F S32 .f32) : Prop where
  f0 : ∀ i, InVocab (a0 i)
  f1 : ∀ i, IsFin (a1 i)
  f2 : ∀ i, IsFin (a2 i)
  f3 : ∀ i, IsFin (a3 i)
  f4 : ∀ i, IsFin (a4 i)
  f5 : ∀ i, IsFin (a5 i)
  f6 : ∀ i, IsFin (a6 i)
  f7 : ∀ i, IsFin (a7 i)
  f8 : ∀ i, IsFin (a8 i)
  f9 : ∀ i, IsFin (a9 i)
  f10 : ∀ i, IsFin (a10 i)
  f11 : ∀ i, IsFin (a11 i)

/-- An all-reduction by `and` into the scalar that is 1 had a 1 at every index. -/
theorem all_of_reduce {s : Shape} {axes : List (Fin s.rank)} (x : IVec s 1) (init : IVec S_ 1)
    (hr : s.ReducesTo axes S_) (hu : 0 < S_.numel)
    (e : Host.reduce IntOp.andi x init hr hu ValueIdx.ix0 = 1#1) (i : s.Idx) : x i = 1#1 :=
  Host.reduce_andi_all x init hr hu ValueIdx.ix0 e i

/-- The precondition being 1 gives the twelve facts. -/
theorem decoded {a0 : IVec S128x2048 32} {a1 : FVec F S50257x128 .f32} {a2 : FVec F S1024x128 .f32}
    {a3 : FVec F S1024 .f32} {a4 : FVec F S1024x256 .f32} {a5 : FVec F S1024 .f32} {a6 : FVec F S1024x128 .f32}
    {a7 : FVec F S1024 .f32} {a8 : FVec F S1024x256 .f32} {a9 : FVec F S1024 .f32} {a10 : FVec F S32x256 .f32}
    {a11 : FVec F S32 .f32}
    (h : Cert.Pre_finite_inputs.fn (F := F) a0 a1 a2 a3 a4 a5 a6 a7 a8 a9 a10 a11 = fun _ => 1#1) :
    Decoded a0 a1 a2 a3 a4 a5 a6 a7 a8 a9 a10 a11 := by
  have e := congrFun h ValueIdx.ix0
  dsimp only [fn, fn_part1, fn_part2, fn_part3] at e
  dsimp only [andi] at e
  obtain ⟨e, e0⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact
    { f0 := fun i => IntOp.andi_eq_one.1 (all_of_reduce _ _ _ _ e0 i)
      f1 := fun i => all_of_reduce _ _ _ _ e1 i
      f2 := fun i => all_of_reduce _ _ _ _ e2 i
      f3 := fun i => all_of_reduce _ _ _ _ e3 i
      f4 := fun i => all_of_reduce _ _ _ _ e4 i
      f5 := fun i => all_of_reduce _ _ _ _ e5 i
      f6 := fun i => all_of_reduce _ _ _ _ e6 i
      f7 := fun i => all_of_reduce _ _ _ _ e7 i
      f8 := fun i => all_of_reduce _ _ _ _ e8 i
      f9 := fun i => all_of_reduce _ _ _ _ e9 i
      f10 := fun i => all_of_reduce _ _ _ _ e10 i
      f11 := fun i => all_of_reduce _ _ _ _ e11 i }

/-! ## (A) The token ids are in the vocabulary, at any float instance -/

/-- A word that is ≥ 0 and < 50257, compared signed, has its signed value in [0, 50257). -/
theorem toInt_range_of_inVocab (w : BitVec 32) (hw : InVocab w) : 0 ≤ w.toInt ∧ w.toInt < 50257 := by
  obtain ⟨h0, h1⟩ := hw
  have h0' := IntOp.cmpi_sge.1 h0
  have h1' := IntOp.cmpi_slt.1 h1
  have z : (0#32 : BitVec 32).toInt = 0 := by decide
  have v : (50257#32 : BitVec 32).toInt = 50257 := by decide
  rw [z] at h0'
  rw [v] at h1'
  exact ⟨h0', h1'⟩

theorem idx_range {a0 : IVec S128x2048 32} {a1 : FVec F S50257x128 .f32} {a2 : FVec F S1024x128 .f32}
    {a3 : FVec F S1024 .f32} {a4 : FVec F S1024x256 .f32} {a5 : FVec F S1024 .f32} {a6 : FVec F S1024x128 .f32}
    {a7 : FVec F S1024 .f32} {a8 : FVec F S1024x256 .f32} {a9 : FVec F S1024 .f32} {a10 : FVec F S32x256 .f32}
    {a11 : FVec F S32 .f32}
    (h : Cert.Pre_finite_inputs.fn (F := F) a0 a1 a2 a3 a4 a5 a6 a7 a8 a9 a10 a11 = fun _ => 1#1)
    (i : S128x2048.Idx) : 0 ≤ (a0 i).toInt ∧ (a0 i).toInt < 50257 :=
  toInt_range_of_inVocab _ ((decoded h).f0 i)

/-- A word whose signed value is in [0, 50257) has that unsigned value too. -/
theorem idx_toNat_lt {a0 : IVec S128x2048 32} {a1 : FVec F S50257x128 .f32} {a2 : FVec F S1024x128 .f32}
    {a3 : FVec F S1024 .f32} {a4 : FVec F S1024x256 .f32} {a5 : FVec F S1024 .f32} {a6 : FVec F S1024x128 .f32}
    {a7 : FVec F S1024 .f32} {a8 : FVec F S1024x256 .f32} {a9 : FVec F S1024 .f32} {a10 : FVec F S32x256 .f32}
    {a11 : FVec F S32 .f32}
    (h : Cert.Pre_finite_inputs.fn (F := F) a0 a1 a2 a3 a4 a5 a6 a7 a8 a9 a10 a11 = fun _ => 1#1)
    (i : S128x2048.Idx) : (a0 i).toNat < 50257 := by
  obtain ⟨h0, h1⟩ := idx_range h i
  have hlt := (a0 i).isLt
  unfold BitVec.toInt at h0 h1
  split at h1 <;> omega

end Generic

/-! ## (B) Every float entry is a real, at the extended reals -/

/-- The pattern 0x7F800000 denotes +∞. -/
theorem ofBits_inf : Ideal.ofBits .f32 0x7F800000#32 = (⊤ : EReal) := by simp [Ideal.ofBits, Ideal.ieee]

/-- An extended real with |x| < +∞ is a real. -/
theorem real_of_isFin (x : Ideal .f32) (hx : IsFin (F := Ideal) x) : ∃ r : ℝ, x = (r : EReal) := by
  unfold IsFin at hx
  change Ideal.cmp .olt (max (x : EReal) (-(x : EReal))) (Ideal.ofBits .f32 0x7F800000#32) = 1#1 at hx
  rw [ofBits_inf] at hx
  unfold Ideal.cmp at hx
  induction x using EReal.rec with
  | bot => simp at hx
  | coe r => exact ⟨r, rfl⟩
  | top => simp at hx

theorem real_a1 {a0 : IVec S128x2048 32} {a1 : FVec Ideal S50257x128 .f32} {a2 : FVec Ideal S1024x128 .f32}
    {a3 : FVec Ideal S1024 .f32} {a4 : FVec Ideal S1024x256 .f32} {a5 : FVec Ideal S1024 .f32} {a6 : FVec Ideal S1024x128 .f32}
    {a7 : FVec Ideal S1024 .f32} {a8 : FVec Ideal S1024x256 .f32} {a9 : FVec Ideal S1024 .f32} {a10 : FVec Ideal S32x256 .f32}
    {a11 : FVec Ideal S32 .f32}
    (h : Cert.Pre_finite_inputs.fn (F := Ideal) a0 a1 a2 a3 a4 a5 a6 a7 a8 a9 a10 a11 = fun _ => 1#1)
    (i : S50257x128.Idx) : ∃ r : ℝ, a1 i = (r : EReal) :=
  real_of_isFin _ ((decoded h).f1 i)

theorem real_a2 {a0 : IVec S128x2048 32} {a1 : FVec Ideal S50257x128 .f32} {a2 : FVec Ideal S1024x128 .f32}
    {a3 : FVec Ideal S1024 .f32} {a4 : FVec Ideal S1024x256 .f32} {a5 : FVec Ideal S1024 .f32} {a6 : FVec Ideal S1024x128 .f32}
    {a7 : FVec Ideal S1024 .f32} {a8 : FVec Ideal S1024x256 .f32} {a9 : FVec Ideal S1024 .f32} {a10 : FVec Ideal S32x256 .f32}
    {a11 : FVec Ideal S32 .f32}
    (h : Cert.Pre_finite_inputs.fn (F := Ideal) a0 a1 a2 a3 a4 a5 a6 a7 a8 a9 a10 a11 = fun _ => 1#1)
    (i : S1024x128.Idx) : ∃ r : ℝ, a2 i = (r : EReal) :=
  real_of_isFin _ ((decoded h).f2 i)

theorem real_a3 {a0 : IVec S128x2048 32} {a1 : FVec Ideal S50257x128 .f32} {a2 : FVec Ideal S1024x128 .f32}
    {a3 : FVec Ideal S1024 .f32} {a4 : FVec Ideal S1024x256 .f32} {a5 : FVec Ideal S1024 .f32} {a6 : FVec Ideal S1024x128 .f32}
    {a7 : FVec Ideal S1024 .f32} {a8 : FVec Ideal S1024x256 .f32} {a9 : FVec Ideal S1024 .f32} {a10 : FVec Ideal S32x256 .f32}
    {a11 : FVec Ideal S32 .f32}
    (h : Cert.Pre_finite_inputs.fn (F := Ideal) a0 a1 a2 a3 a4 a5 a6 a7 a8 a9 a10 a11 = fun _ => 1#1)
    (i : S1024.Idx) : ∃ r : ℝ, a3 i = (r : EReal) :=
  real_of_isFin _ ((decoded h).f3 i)

theorem real_a4 {a0 : IVec S128x2048 32} {a1 : FVec Ideal S50257x128 .f32} {a2 : FVec Ideal S1024x128 .f32}
    {a3 : FVec Ideal S1024 .f32} {a4 : FVec Ideal S1024x256 .f32} {a5 : FVec Ideal S1024 .f32} {a6 : FVec Ideal S1024x128 .f32}
    {a7 : FVec Ideal S1024 .f32} {a8 : FVec Ideal S1024x256 .f32} {a9 : FVec Ideal S1024 .f32} {a10 : FVec Ideal S32x256 .f32}
    {a11 : FVec Ideal S32 .f32}
    (h : Cert.Pre_finite_inputs.fn (F := Ideal) a0 a1 a2 a3 a4 a5 a6 a7 a8 a9 a10 a11 = fun _ => 1#1)
    (i : S1024x256.Idx) : ∃ r : ℝ, a4 i = (r : EReal) :=
  real_of_isFin _ ((decoded h).f4 i)

theorem real_a5 {a0 : IVec S128x2048 32} {a1 : FVec Ideal S50257x128 .f32} {a2 : FVec Ideal S1024x128 .f32}
    {a3 : FVec Ideal S1024 .f32} {a4 : FVec Ideal S1024x256 .f32} {a5 : FVec Ideal S1024 .f32} {a6 : FVec Ideal S1024x128 .f32}
    {a7 : FVec Ideal S1024 .f32} {a8 : FVec Ideal S1024x256 .f32} {a9 : FVec Ideal S1024 .f32} {a10 : FVec Ideal S32x256 .f32}
    {a11 : FVec Ideal S32 .f32}
    (h : Cert.Pre_finite_inputs.fn (F := Ideal) a0 a1 a2 a3 a4 a5 a6 a7 a8 a9 a10 a11 = fun _ => 1#1)
    (i : S1024.Idx) : ∃ r : ℝ, a5 i = (r : EReal) :=
  real_of_isFin _ ((decoded h).f5 i)

theorem real_a6 {a0 : IVec S128x2048 32} {a1 : FVec Ideal S50257x128 .f32} {a2 : FVec Ideal S1024x128 .f32}
    {a3 : FVec Ideal S1024 .f32} {a4 : FVec Ideal S1024x256 .f32} {a5 : FVec Ideal S1024 .f32} {a6 : FVec Ideal S1024x128 .f32}
    {a7 : FVec Ideal S1024 .f32} {a8 : FVec Ideal S1024x256 .f32} {a9 : FVec Ideal S1024 .f32} {a10 : FVec Ideal S32x256 .f32}
    {a11 : FVec Ideal S32 .f32}
    (h : Cert.Pre_finite_inputs.fn (F := Ideal) a0 a1 a2 a3 a4 a5 a6 a7 a8 a9 a10 a11 = fun _ => 1#1)
    (i : S1024x128.Idx) : ∃ r : ℝ, a6 i = (r : EReal) :=
  real_of_isFin _ ((decoded h).f6 i)

theorem real_a7 {a0 : IVec S128x2048 32} {a1 : FVec Ideal S50257x128 .f32} {a2 : FVec Ideal S1024x128 .f32}
    {a3 : FVec Ideal S1024 .f32} {a4 : FVec Ideal S1024x256 .f32} {a5 : FVec Ideal S1024 .f32} {a6 : FVec Ideal S1024x128 .f32}
    {a7 : FVec Ideal S1024 .f32} {a8 : FVec Ideal S1024x256 .f32} {a9 : FVec Ideal S1024 .f32} {a10 : FVec Ideal S32x256 .f32}
    {a11 : FVec Ideal S32 .f32}
    (h : Cert.Pre_finite_inputs.fn (F := Ideal) a0 a1 a2 a3 a4 a5 a6 a7 a8 a9 a10 a11 = fun _ => 1#1)
    (i : S1024.Idx) : ∃ r : ℝ, a7 i = (r : EReal) :=
  real_of_isFin _ ((decoded h).f7 i)

theorem real_a8 {a0 : IVec S128x2048 32} {a1 : FVec Ideal S50257x128 .f32} {a2 : FVec Ideal S1024x128 .f32}
    {a3 : FVec Ideal S1024 .f32} {a4 : FVec Ideal S1024x256 .f32} {a5 : FVec Ideal S1024 .f32} {a6 : FVec Ideal S1024x128 .f32}
    {a7 : FVec Ideal S1024 .f32} {a8 : FVec Ideal S1024x256 .f32} {a9 : FVec Ideal S1024 .f32} {a10 : FVec Ideal S32x256 .f32}
    {a11 : FVec Ideal S32 .f32}
    (h : Cert.Pre_finite_inputs.fn (F := Ideal) a0 a1 a2 a3 a4 a5 a6 a7 a8 a9 a10 a11 = fun _ => 1#1)
    (i : S1024x256.Idx) : ∃ r : ℝ, a8 i = (r : EReal) :=
  real_of_isFin _ ((decoded h).f8 i)

theorem real_a9 {a0 : IVec S128x2048 32} {a1 : FVec Ideal S50257x128 .f32} {a2 : FVec Ideal S1024x128 .f32}
    {a3 : FVec Ideal S1024 .f32} {a4 : FVec Ideal S1024x256 .f32} {a5 : FVec Ideal S1024 .f32} {a6 : FVec Ideal S1024x128 .f32}
    {a7 : FVec Ideal S1024 .f32} {a8 : FVec Ideal S1024x256 .f32} {a9 : FVec Ideal S1024 .f32} {a10 : FVec Ideal S32x256 .f32}
    {a11 : FVec Ideal S32 .f32}
    (h : Cert.Pre_finite_inputs.fn (F := Ideal) a0 a1 a2 a3 a4 a5 a6 a7 a8 a9 a10 a11 = fun _ => 1#1)
    (i : S1024.Idx) : ∃ r : ℝ, a9 i = (r : EReal) :=
  real_of_isFin _ ((decoded h).f9 i)

theorem real_a10 {a0 : IVec S128x2048 32} {a1 : FVec Ideal S50257x128 .f32} {a2 : FVec Ideal S1024x128 .f32}
    {a3 : FVec Ideal S1024 .f32} {a4 : FVec Ideal S1024x256 .f32} {a5 : FVec Ideal S1024 .f32} {a6 : FVec Ideal S1024x128 .f32}
    {a7 : FVec Ideal S1024 .f32} {a8 : FVec Ideal S1024x256 .f32} {a9 : FVec Ideal S1024 .f32} {a10 : FVec Ideal S32x256 .f32}
    {a11 : FVec Ideal S32 .f32}
    (h : Cert.Pre_finite_inputs.fn (F := Ideal) a0 a1 a2 a3 a4 a5 a6 a7 a8 a9 a10 a11 = fun _ => 1#1)
    (i : S32x256.Idx) : ∃ r : ℝ, a10 i = (r : EReal) :=
  real_of_isFin _ ((decoded h).f10 i)

theorem real_a11 {a0 : IVec S128x2048 32} {a1 : FVec Ideal S50257x128 .f32} {a2 : FVec Ideal S1024x128 .f32}
    {a3 : FVec Ideal S1024 .f32} {a4 : FVec Ideal S1024x256 .f32} {a5 : FVec Ideal S1024 .f32} {a6 : FVec Ideal S1024x128 .f32}
    {a7 : FVec Ideal S1024 .f32} {a8 : FVec Ideal S1024x256 .f32} {a9 : FVec Ideal S1024 .f32} {a10 : FVec Ideal S32x256 .f32}
    {a11 : FVec Ideal S32 .f32}
    (h : Cert.Pre_finite_inputs.fn (F := Ideal) a0 a1 a2 a3 a4 a5 a6 a7 a8 a9 a10 a11 = fun _ => 1#1)
    (i : S32.Idx) : ∃ r : ℝ, a11 i = (r : EReal) :=
  real_of_isFin _ ((decoded h).f11 i)

end Cert.PreFacts

end
-- ==== Proof.KernelValue.lean ====
/-
  The value the kernel program leaves in its result array, as the reference's term of the argument arrays.

  The program runs four segments: host operations, the gather region, host operations, the head region.  The gather
  region copies, for each batch row, the embedding table's row numbered by the last (resp. first) token id, so after the
  reshapes around it the head region is entered with the two 128 × 128 blocks of embedding rows that the reference
  gathers.  The head region's stored value is the composition of the head pieces of those blocks and the (unchanged)
  parameter arrays.  On inputs that satisfy the precondition every float entry is a real and every token id is in the
  vocabulary, so the kernel's head pieces equal the reference's and the gathered blocks are the reference's gathered
  rows: the result array holds the reference's result term.
-/
import proofs.«417286_j68719477196_2_alg».proof.Proof.RunDefs
import proofs.«417286_j68719477196_2_alg».proof.Proof.HostReads
import proofs.«417286_j68719477196_2_alg».proof.Proof.GatherValue
import proofs.«417286_j68719477196_2_alg».proof.Proof.HeadFinal
import proofs.«417286_j68719477196_2_alg».proof.Proof.HeadReal
import proofs.«417286_j68719477196_2_alg».proof.Proof.GatherRef
import proofs.«417286_j68719477196_2_alg».proof.Proof.PreFacts
import proofs.«417286_j68719477196_2_alg».proof.Proof.Gen.Pre_finite_inputs
import proofs.«417286_j68719477196_2_alg».proof.Defs

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem

/-! ## The gathered blocks at the head region's entry -/

section Blocks
variable {F : FTy → Type} [FloatOps F]
variable (m : (ℓ : Loc nD τ sig) → Buf (Elt F) ℓ) (ρ : Dev nD → PrngReg)

/-- A 128 × 1 × 128 array reshaped to 128 × 128, read at (b, j): the array at (b, 0, j). -/
theorem squeeze_apply {α : Type} (x : S128x1x128.Idx → α) (b j : Fin 128) :
    shapeCast S128x128 x shapeCasts_S128x1x128_S128x128 (ix2 b j) = x (ix3 b (0 : Fin 1) j) :=
  shapeCast_apply _ shapeCasts_S128x1x128_S128x128 (ix2 b j) (ix3 b (0 : Fin 1) j) (by
    rewrite [Shape.rowMajor_val_three, Shape.rowMajor_val_two]
    show (b.val * 1 + 0) * 128 + j.val = b.val * 128 + j.val
    omega)

/-- The 50257 × 128 table with a unit axis inserted, read at (r, 0, j): the table at (r, j). -/
theorem unsqueeze_apply {α : Type} (x : S50257x128.Idx → α) (r : Fin 50257) (j : Fin 128) :
    shapeCast S50257x1x128 x shapeCasts_S50257x128_S50257x1x128 (ix3 r (0 : Fin 1) j) = x (ix2 r j) :=
  shapeCast_apply _ shapeCasts_S50257x128_S50257x1x128 (ix3 r (0 : Fin 1) j) (ix2 r j) (by
    rewrite [Shape.rowMajor_val_three, Shape.rowMajor_val_two]
    show r.val * 128 + j.val = (r.val * 1 + 0) * 128 + j.val
    omega)

/-- The block of last-token embedding rows the head region is entered with: row b is the table's row numbered by the
    token id at (b, 2047). -/
theorem el_eq (hO : Ok m ρ) (c : Dev nD) :
    (V3 m ρ hO c main_v6 : S128x128.Idx → F .f32)
      = Cert.Head.rowsAt (m ((c : Thread nD τ).loc main_arg0)) ⟨2047, by decide⟩ (m ((c : Thread nD τ).loc main_arg1)) := by
  obtain rfl : c = 0 := Subsingleton.elim _ _
  funext i
  obtain ⟨b, j, rfl⟩ : ∃ b j : Fin 128, i = ix2 b j := ⟨i 0, i 1, eq_ix2 i⟩
  rw [V3_main_v6, squeeze_apply]
  show (W2 m ρ hO 0 (Proc.devRef .tc main_v5_0) : S128x1x128.Idx → F .f32) (ix3 b (0 : Fin 1) j) = _
  rw [W2_v5_0]
  show ((dat0 (adm0 m ρ hO) (V1 m ρ) 0).arrAt 2 (cfg0 (adm0 m ρ hO)).N : S128x1x128.Idx → F .f32) (ix3 b (0 : Fin 1) j) = _
  rw [final0_2, V1_main_v4, unsqueeze_apply, Cert.Head.rowsAt_apply]
  refine congrArg (m (((0 : Dev nD) : Thread nD τ).loc main_arg1)) (congrArg (fun p : Fin 50257 => ix2 p j) (Fin.ext ?_))
  exact (rowOf_val0 (adm0 m ρ hO) b).trans (congrArg (fun w : BitVec 32 => min w.toNat 50256) (tbl_last_apply m ρ b))

/-- The block of first-token embedding rows the head region is entered with: row b is the table's row numbered by the
    token id at (b, 0). -/
theorem ef_eq (hO : Ok m ρ) (c : Dev nD) :
    (V3 m ρ hO c main_v7 : S128x128.Idx → F .f32)
      = Cert.Head.rowsAt (m ((c : Thread nD τ).loc main_arg0)) ⟨0, by decide⟩ (m ((c : Thread nD τ).loc main_arg1)) := by
  obtain rfl : c = 0 := Subsingleton.elim _ _
  funext i
  obtain ⟨b, j, rfl⟩ : ∃ b j : Fin 128, i = ix2 b j := ⟨i 0, i 1, eq_ix2 i⟩
  rw [V3_main_v7, squeeze_apply]
  show (W2 m ρ hO 0 (Proc.devRef .tc main_v5_1) : S128x1x128.Idx → F .f32) (ix3 b (0 : Fin 1) j) = _
  rw [W2_v5_1]
  show ((dat0 (adm0 m ρ hO) (V1 m ρ) 0).arrAt 3 (cfg0 (adm0 m ρ hO)).N : S128x1x128.Idx → F .f32) (ix3 b (0 : Fin 1) j) = _
  rw [final0_3, V1_main_v4, unsqueeze_apply, Cert.Head.rowsAt_apply]
  refine congrArg (m (((0 : Dev nD) : Thread nD τ).loc main_arg1)) (congrArg (fun p : Fin 50257 => ix2 p j) (Fin.ext ?_))
  exact (rowOf_val1 (adm0 m ρ hO) b).trans (congrArg (fun w : BitVec 32 => min w.toNat 50256) (tbl_first_apply m ρ b))

end Blocks

/-! ## The result array -/

section Value
open Cert.Lib

variable (m : (ℓ : Loc nD τ sig) → Buf (Elt Ideal) ℓ) (ρ : Dev nD → PrngReg)

/-- The rows of a real table, picked by any row numbers, are real. -/
theorem rowsAt_real (a0 : IVec Cert.ReferenceIdeal.S128x2048 32) (col : Fin 2048)
    (a1 : FVec Ideal Cert.ReferenceIdeal.S50257x128 .f32) (h1 : AllReal a1) :
    AllReal (φ := .f32) (Cert.Head.rowsAt a0 col a1) := fun _ => h1 _

/-- On inputs that satisfy the precondition, the kernel program's result array ends holding the reference's result
    term of the argument arrays: the head region's stored value is the kernel's head pieces of the gathered blocks and
    the parameters, which on real inputs and in-vocabulary token ids are the reference's. -/
theorem kernel_value (hO : Ok m ρ) (hpre : Cert.Pre_KernelIdeal (hPre_finite_inputs := Cert.Pre_finite_inputs.Gen.facts) m)
    (c : Dev nD) :
    W4 m ρ hO c (Proc.devRef .tc main_v8)
      = Cert.Head.R.rLsm (F := Ideal) (Cert.Head.R.rLogits
          (addf (Cert.Head.R.rCell (Cert.Head.R.rGates (Cert.Head.R.rEL (m ((c : Thread nD τ).loc main_arg0)) (m ((c : Thread nD τ).loc main_arg1)))
              (m ((c : Thread nD τ).loc main_arg2)) (m ((c : Thread nD τ).loc main_arg3)) (m ((c : Thread nD τ).loc main_arg5))))
            (Cert.Head.R.rCell (Cert.Head.R.rGates (Cert.Head.R.rEF (m ((c : Thread nD τ).loc main_arg0)) (m ((c : Thread nD τ).loc main_arg1)))
              (m ((c : Thread nD τ).loc main_arg6)) (m ((c : Thread nD τ).loc main_arg7)) (m ((c : Thread nD τ).loc main_arg9)))))
          (m ((c : Thread nD τ).loc main_arg10)) (m ((c : Thread nD τ).loc main_arg11))) := by
  have h := hpre c
  have hr := fun i => Cert.PreFacts.idx_range h i
  rw [Cert.Head.rEL_eq _ _ hr, Cert.Head.rEF_eq _ _ hr]
  refine (W4_arr m ρ hO c 10).trans ?_
  rw [final1 (V3 m ρ hO) c, el_eq m ρ hO c, ef_eq m ρ hO c,
    V3_main_arg2 m ρ hO c, V3_main_arg3 m ρ hO c, V3_main_arg5 m ρ hO c, V3_main_arg6 m ρ hO c, V3_main_arg7 m ρ hO c,
    V3_main_arg9 m ρ hO c, V3_main_arg10 m ρ hO c, V3_main_arg11 m ρ hO c, Cert.Head.K.pay_eq]
  exact Cert.Head.head_eq _ _ _ _ _ _ _ _ _ _
    (rowsAt_real _ _ _ (fun i => Cert.PreFacts.real_a1 h i)) (rowsAt_real _ _ _ (fun i => Cert.PreFacts.real_a1 h i))
    (fun i => Cert.PreFacts.real_a2 h i) (fun i => Cert.PreFacts.real_a3 h i) (fun i => Cert.PreFacts.real_a5 h i)
    (fun i => Cert.PreFacts.real_a6 h i) (fun i => Cert.PreFacts.real_a7 h i) (fun i => Cert.PreFacts.real_a9 h i)
    (fun i => Cert.PreFacts.real_a10 h i) (fun i => Cert.PreFacts.real_a11 h i)

end Value

end Cert.KernelIdeal.Hand

end
-- ==== Proof.lean ====
/-
  The certificate: a bidirectional zero-state LSTM text classifier whose kernel gathers, per batch row, only the two
  embedding rows the zero-state recurrence can see (the last token's for the forward cell, the first token's for the
  backward cell), then computes both cells, the output head and a row-wise log-softmax in one block; the reference
  gathers every token's embedding, slices those two, and computes the same on the host.

  Under the precondition — every float input finite, every token id inside the vocabulary — the three programs run
  to the end without a fault and leave their arguments unchanged (the frames: the kernel's two regions are composed
  segment by segment; the gather's row numbers are inside the table because the ids are), nothing was rewritten
  between the kernel and its idealization, and at the extended reals the two results agree: the gathered rows are the
  same rows, the gate pre-activations, cells and logits are the same sums and the same functions (the logistic is
  1 / (1 + exp (-x)) by definition), and the two spellings of the log-softmax, x − (log Σ exp (x − M) + M) and
  (x − M) − log Σ exp (x − M), agree because every logit is a real number (finite inputs).
-/
import proofs.«417286_j68719477196_2_alg».proof.Defs
import proofs.«417286_j68719477196_2_alg».proof.Proof.RunFrame
import proofs.«417286_j68719477196_2_alg».proof.Proof.Bits.RunFrame
import proofs.«417286_j68719477196_2_alg».proof.Proof.KernelValue
import proofs.«417286_j68719477196_2_alg».proof.Proof.PreFacts
import proofs.«417286_j68719477196_2_alg».proof.Proof.Gen.Kernel
import proofs.«417286_j68719477196_2_alg».proof.Proof.Gen.KernelIdeal
import proofs.«417286_j68719477196_2_alg».proof.Proof.Gen.ReferenceIdeal
import proofs.«417286_j68719477196_2_alg».proof.Proof.Gen.ReferenceIdeal.Run
import proofs.«417286_j68719477196_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The token ids are inside the vocabulary, so the two tables of row numbers the gather prefetches are inside the embedding table. -/
theorem ok_kernel (m : (ℓ : Loc Cert.Kernel.nD Cert.Kernel.τ Cert.Kernel.sig) → Buf (Elt Bits) ℓ) (ρ : Dev Cert.Kernel.nD → PrngReg)
    (h : Cert.Pre_Kernel m) : Cert.Kernel.Hand.Ok m ρ :=
  Cert.Kernel.Hand.ok_of_range m ρ fun i => Cert.PreFacts.idx_toNat_lt (h 0) i

theorem ok_kernelIdeal (m : (ℓ : Loc Cert.KernelIdeal.nD Cert.KernelIdeal.τ Cert.KernelIdeal.sig) → Buf (Elt Ideal) ℓ) (ρ : Dev Cert.KernelIdeal.nD → PrngReg)
    (h : Cert.Pre_KernelIdeal m) : Cert.KernelIdeal.Hand.Ok m ρ :=
  Cert.KernelIdeal.Hand.ok_of_range m ρ fun i => Cert.PreFacts.idx_toNat_lt (h 0) i

theorem frame_kernel : Cert.frame_Kernel := fun m ρ h => Cert.Kernel.Hand.frame m ρ (ok_kernel m ρ h)

theorem frame_kernelIdeal : Cert.frame_KernelIdeal := fun m ρ h => Cert.KernelIdeal.Hand.frame m ρ (ok_kernelIdeal m ρ h)

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the extended reals the kernel's result array and the reference's are one function of the arguments. -/
theorem algebraic : Cert.algebraic_KernelIdeal_ReferenceIdeal := by
  intro m ρ m' ρ' hpre hagree
  have hO := ok_kernelIdeal m ρ hpre
  refine ⟨fun c => Cert.KernelIdeal.Hand.W4 m ρ hO c (Proc.devRef .tc Cert.KernelIdeal.main_v8), Cert.KernelIdeal.Hand.run_value m ρ hO, ?_⟩
  refine (θ_run Cert.ReferenceIdeal.defs _ _).mono (fun _ h c => ⟨(h c).1.trans ?_, (h c).2⟩)
    (Cert.ReferenceIdeal.Value.run (F := Ideal) m' ρ')
  rw [Cert.Head.R.res_eq, (hagree c).1, (hagree c).2.1, (hagree c).2.2.1, (hagree c).2.2.2.1, (hagree c).2.2.2.2.2.1, (hagree c).2.2.2.2.2.2.1, (hagree c).2.2.2.2.2.2.2.1, (hagree c).2.2.2.2.2.2.2.2.2.1, (hagree c).2.2.2.2.2.2.2.2.2.2.1, (hagree c).2.2.2.2.2.2.2.2.2.2.2]
  exact (Cert.KernelIdeal.Hand.kernel_value m ρ hO hpre c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
